-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S256x128 : Shape := ⟨2, ![256, 128]⟩
abbrev S256x1 : Shape := ⟨2, ![256, 1]⟩
abbrev S20x128 : Shape := ⟨2, ![20, 128]⟩
abbrev S1x800000 : Shape := ⟨2, ![1, 800000]⟩
abbrev S_ : Shape := ⟨0, ![]⟩

class Facts : Prop where
  slices_S2x800000_S1x800000_0_0 : S2x800000.Slices ![0, 0] S1x800000
  shapeCasts_S1x800000_S800000 : S1x800000.ShapeCasts S800000
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256x1 : S_.BroadcastsInDim S256x1 (![] : Fin 0 → Fin S256x1.rank)
  reducesTo_S256x1_S_d0_1 : S256x1.ReducesTo [0, 1] S_
  bcast_S_S20x128 : S_.BroadcastsInDim S20x128 (![] : Fin 0 → Fin S20x128.rank)
  reducesTo_S20x128_S_d0_1 : S20x128.ReducesTo [0, 1] S_
  bcast_S_S800000 : S_.BroadcastsInDim S800000 (![] : Fin 0 → Fin S800000.rank)
  reducesTo_S800000_S_d0 : S800000.ReducesTo [0] S_

variable [Facts]

def fn_part2 {F : FTy → Type} [FloatOps F] (main_v27 : IVec S_ 1) (main_v33 : IVec S_ 1) : IVec S_ 1 :=
  let main_v34 : IVec S_ 1 := andi main_v27 main_v33
  main_v34

def fn_part1 {F : FTy → Type} [FloatOps F] (main_arg2 : IVec S800000 32) (main_v1 : IVec S800000 32) (main_v15 : IVec S_ 1) (main_v16 : FVec F S20x128 .f32) (main_cst_4 : FVec F S_ .f32) : IVec S_ 1 :=
  let main_v17 : FVec F S20x128 .f32 := broadcastInDim S20x128 ![] bcast_S_S20x128 main_cst_4
  let main_v18 : IVec S20x128 1 := cmpf .olt main_v16 main_v17
  let main_c_5 : IVec S_ 1 := constantI S_ 1 1#1
  let main_v19 : IVec S_ 1 := (fun x v => Host.reduce IntOp.andi x v reducesTo_S20x128_S_d0_1 h_S_) main_v18 main_c_5
  let main_v20 : IVec S_ 1 := andi main_v15 main_v19
  let main_c_6 : IVec S_ 32 := constantI S_ 32 0#32
  let main_v21 : IVec S800000 32 := broadcastInDim S800000 ![] bcast_S_S800000 main_c_6
  let main_v22 : IVec S800000 1 := cmpi .sge main_v1 main_v21
  let main_c_7 : IVec S_ 32 := constantI S_ 32 50000#32
  let main_v23 : IVec S800000 32 := broadcastInDim S800000 ![] bcast_S_S800000 main_c_7
  let main_v24 : IVec S800000 1 := cmpi .slt main_v1 main_v23
  let main_v25 : IVec S800000 1 := andi main_v22 main_v24
  let main_c_8 : IVec S_ 1 := constantI S_ 1 1#1
  let main_v26 : IVec S_ 1 := (fun x v => Host.reduce IntOp.andi x v reducesTo_S800000_S_d0 h_S_) main_v25 main_c_8
  let main_v27 : IVec S_ 1 := andi main_v20 main_v26
  let main_c_9 : IVec S_ 32 := constantI S_ 32 0#32
  let main_v28 : IVec S800000 32 := broadcastInDim S800000 ![] bcast_S_S800000 main_c_9
  let main_v29 : IVec S800000 1 := cmpi .sge main_arg2 main_v28
  let main_c_10 : IVec S_ 32 := constantI S_ 32 1000#32
  let main_v30 : IVec S800000 32 := broadcastInDim S800000 ![] bcast_S_S800000 main_c_10
  let main_v31 : IVec S800000 1 := cmpi .slt main_arg2 main_v30
  let main_v32 : IVec S800000 1 := andi main_v29 main_v31
  let main_c_11 : IVec S_ 1 := constantI S_ 1 1#1
  let main_v33 : IVec S_ 1 := (fun x v => Host.reduce IntOp.andi x v reducesTo_S800000_S_d0 h_S_) main_v32 main_c_11
  fn_part2 (F := F) main_v27 main_v33

def fn {F : FTy → Type} [FloatOps F] (main_arg0 : FVec F S50000x128 .f32) (main_arg1 : IVec S2x800000 32) (main_arg2 : IVec S800000 32) (main_arg3 : FVec F S256x128 .f32) (main_arg4 : FVec F S256x1 .f32) (main_arg5 : FVec F S20x128 .f32) : IVec S_ 1 :=
  let main_v0 : IVec S1x800000 32 := (extractStridedSlice S1x800000 ![0, 0] · slices_S2x800000_S1x800000_0_0) main_arg1
  let main_v1 : IVec S800000 32 := shapeCast S800000 main_v0 shapeCasts_S1x800000_S800000
  let main_v2 : FVec F S50000x128 .f32 := Host.absf main_arg0
  let main_cst : FVec F S_ .f32 := constant S_ .f32 0x7F800000#32
  let main_v3 : FVec F S50000x128 .f32 := broadcastInDim S50000x128 ![] bcast_S_S50000x128 main_cst
  let main_v4 : IVec S50000x128 1 := cmpf .olt main_v2 main_v3
  let main_c : IVec S_ 1 := constantI S_ 1 1#1
  let main_v5 : IVec S_ 1 := (fun x v => Host.reduce IntOp.andi x v reducesTo_S50000x128_S_d0_1 h_S_) main_v4 main_c
  let main_v6 : FVec F S256x128 .f32 := Host.absf main_arg3
  let main_cst_0 : FVec F S_ .f32 := constant S_ .f32 0x7F800000#32
  let main_v7 : FVec F S256x128 .f32 := broadcastInDim S256x128 ![] bcast_S_S256x128 main_cst_0
  let main_v8 : IVec S256x128 1 := cmpf .olt main_v6 main_v7
  let main_c_1 : IVec S_ 1 := constantI S_ 1 1#1
  let main_v9 : IVec S_ 1 := (fun x v => Host.reduce IntOp.andi x v reducesTo_S256x128_S_d0_1 h_S_) main_v8 main_c_1
  let main_v10 : IVec S_ 1 := andi main_v5 main_v9
  let main_v11 : FVec F S256x1 .f32 := Host.absf main_arg4
  let main_cst_2 : FVec F S_ .f32 := constant S_ .f32 0x7F800000#32
  let main_v12 : FVec F S256x1 .f32 := broadcastInDim S256x1 ![] bcast_S_S256x1 main_cst_2
  let main_v13 : IVec S256x1 1 := cmpf .olt main_v11 main_v12
  let main_c_3 : IVec S_ 1 := constantI S_ 1 1#1
  let main_v14 : IVec S_ 1 := (fun x v => Host.reduce IntOp.andi x v reducesTo_S256x1_S_d0_1 h_S_) main_v13 main_c_3
  let main_v15 : IVec S_ 1 := andi main_v10 main_v14
  let main_v16 : FVec F S20x128 .f32 := Host.absf main_arg5
  let main_cst_4 : FVec F S_ .f32 := constant S_ .f32 0x7F800000#32
  fn_part1 (F := F) main_arg2 main_v1 main_v15 main_v16 main_cst_4
-- ==== Kernel.lean ====
abbrev S50000x128 : Shape := ⟨2, ![50000, 128]⟩
abbrev S2x800000 : Shape := ⟨2, ![2, 800000]⟩
abbrev S800000 : Shape := ⟨1, ![800000]⟩
abbrev S256x128 : Shape := ⟨2, ![256, 128]⟩
abbrev S256x1 : Shape := ⟨2, ![256, 1]⟩
abbrev S20x128 : Shape := ⟨2, ![20, 128]⟩
abbrev S1x800000 : Shape := ⟨2, ![1, 800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S128x1 : Shape := ⟨2, ![128, 1]⟩
abbrev S20x1 : Shape := ⟨2, ![20, 1]⟩
abbrev S128x128 : Shape := ⟨2, ![128, 128]⟩
abbrev S1x128 : Shape := ⟨2, ![1, 128]⟩
abbrev S4000x128 : Shape := ⟨2, ![4000, 128]⟩
abbrev S4000x1 : Shape := ⟨2, ![4000, 1]⟩
abbrev S4000 : Shape := ⟨1, ![4000]⟩
abbrev S50000x1 : Shape := ⟨2, ![50000, 1]⟩
abbrev S2000x128 : Shape := ⟨2, ![2000, 128]⟩
abbrev S2000x1 : Shape := ⟨2, ![2000, 1]⟩

abbrev nBuf : Space → Nat
  | .hbm => 116
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .i32⟩
  | .hbm, ⟨3, _⟩ => ⟨S256x128, .f32⟩
  | .hbm, ⟨4, _⟩ => ⟨S256x1, .f32⟩
  | .hbm, ⟨5, _⟩ => ⟨S20x128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S1, .i32⟩
  | .hbm, ⟨37, _⟩ => ⟨S_, .i32⟩
  | .hbm, ⟨38, _⟩ => ⟨S800000x1, .i32⟩
  | .hbm, ⟨39, _⟩ => ⟨S800000x1, .i1⟩
  | .hbm, ⟨40, _⟩ => ⟨S1x1, .i32⟩
  | .hbm, ⟨41, _⟩ => ⟨S800000x1, .i32⟩
  | .hbm, ⟨42, _⟩ => ⟨S800000x1, .i1⟩
  | .hbm, ⟨43, _⟩ => ⟨S800000x1, .i1⟩
  | .hbm, ⟨44, _⟩ => ⟨S_, .i1⟩
  | .hbm, ⟨45, _⟩ => ⟨S800000, .i1⟩
  | .hbm, ⟨46, _⟩ => ⟨S800000x128, .f32⟩
  | .hbm, ⟨47, _⟩ => ⟨S800000x128, .i1⟩
  | .hbm, ⟨48, _⟩ => ⟨S_, .f32⟩
  | .hbm, ⟨49, _⟩ => ⟨S800000x128, .f32⟩
  | .hbm, ⟨50, _⟩ => ⟨S800000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S1, .i32⟩
  | .hbm, ⟨60, _⟩ => ⟨S_, .i32⟩
  | .hbm, ⟨61, _⟩ => ⟨S800000x1, .i32⟩
  | .hbm, ⟨62, _⟩ => ⟨S800000x1, .i1⟩
  | .hbm, ⟨63, _⟩ => ⟨S1x1, .i32⟩
  | .hbm, ⟨64, _⟩ => ⟨S800000x1, .i32⟩
  | .hbm, ⟨65, _⟩ => ⟨S800000x1, .i1⟩
  | .hbm, ⟨66, _⟩ => ⟨S800000x1, .i1⟩
  | .hbm, ⟨67, _⟩ => ⟨S_, .i1⟩
  | .hbm, ⟨68, _⟩ => ⟨S800000, .i1⟩
  | .hbm, ⟨69, _⟩ => ⟨S800000x128, .f32⟩
  | .hbm, ⟨70, _⟩ => ⟨S800000x128, .i1⟩
  | .hbm, ⟨71, _⟩ => ⟨S_, .f32⟩
  | .hbm, ⟨72, _⟩ => ⟨S800000x128, .f32⟩
  | .hbm, ⟨73, _⟩ => ⟨S800000x128, .f32⟩
  | .hbm, ⟨74, _⟩ => ⟨S128x1, .f32⟩
  | .hbm, ⟨75, _⟩ => ⟨S20x1, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S1, .i32⟩
  | .hbm, ⟨85, _⟩ => ⟨S_, .i32⟩
  | .hbm, ⟨86, _⟩ => ⟨S800000x1, .i32⟩
  | .hbm, ⟨87, _⟩ => ⟨S800000x1, .i1⟩
  | .hbm, ⟨88, _⟩ => ⟨S1x1, .i32⟩
  | .hbm, ⟨89, _⟩ => ⟨S800000x1, .i32⟩
  | .hbm, ⟨90, _⟩ => ⟨S800000x1, .i1⟩
  | .hbm, ⟨91, _⟩ => ⟨S800000x1, .i1⟩
  | .hbm, ⟨92, _⟩ => ⟨S_, .i1⟩
  | .hbm, ⟨93, _⟩ => ⟨S800000, .i1⟩
  | .hbm, ⟨94, _⟩ => ⟨S800000x1, .f32⟩
  | .hbm, ⟨95, _⟩ => ⟨S800000x1, .i1⟩
  | .hbm, ⟨96, _⟩ => ⟨S_, .f32⟩
  | .hbm, ⟨97, _⟩ => ⟨S800000x1, .f32⟩
  | .hbm, ⟨98, _⟩ => ⟨S800000x1, .f32⟩
  | .hbm, ⟨99, _⟩ => ⟨S128x128, .f32⟩
  | .hbm, ⟨100, _⟩ => ⟨S128x128, .bf16⟩
  | .hbm, ⟨101, _⟩ => ⟨S128x128, .f32⟩
  | .hbm, ⟨102, _⟩ => ⟨S128x128, .bf16⟩
  | .hbm, ⟨103, _⟩ => ⟨S128x1, .f32⟩
  | .hbm, ⟨104, _⟩ => ⟨S1x128, .f32⟩
  | .hbm, ⟨105, _⟩ => ⟨S800000x128, .f32⟩
  | .hbm, ⟨106, _⟩ => ⟨S800000x1, .f32⟩
  | .hbm, ⟨107, _⟩ => ⟨S_, .f32⟩
  | .hbm, ⟨108, _⟩ => ⟨S50000x128, .f32⟩
  | .hbm, ⟨109, _⟩ => ⟨S800000x1, .i32⟩
  | .hbm, ⟨110, _⟩ => ⟨S50000x128, .f32⟩
  | .hbm, ⟨111, _⟩ => ⟨S_, .f32⟩
  | .hbm, ⟨112, _⟩ => ⟨S50000x1, .f32⟩
  | .hbm, ⟨113, _⟩ => ⟨S800000x1, .i32⟩
  | .hbm, ⟨114, _⟩ => ⟨S50000x1, .f32⟩
  | .hbm, ⟨115, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S4000x1, .f32⟩
  | .local _ .vmem, ⟨12, _⟩ => ⟨S4000x1, .f32⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S2000x128, .f32⟩
  | .local _ .vmem, ⟨18, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v5 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v6 : Ref sig .tc := ⟨.hbm, 73, rfl⟩
abbrev main_v7 : Ref sig .tc := ⟨.hbm, 74, rfl⟩
abbrev main_v8 : Ref sig .tc := ⟨.hbm, 75, rfl⟩
abbrev main_call3_c : Ref sig .tc := ⟨.hbm, 76, rfl⟩
abbrev main_call3_v0 : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_c_1 : Ref sig .tc := ⟨.hbm, 84, rfl⟩
abbrev main_call3_c_2 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_3 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_call3_cst : Ref sig .tc := ⟨.hbm, 96, rfl⟩
abbrev main_call3_v15 : Ref sig .tc := ⟨.hbm, 97, rfl⟩
abbrev main_v9 : Ref sig .tc := ⟨.hbm, 98, rfl⟩
abbrev main_v10 : Ref sig .tc := ⟨.hbm, 99, rfl⟩
abbrev main_v11 : Ref sig .tc := ⟨.hbm, 100, rfl⟩
abbrev main_v12 : Ref sig .tc := ⟨.hbm, 101, rfl⟩
abbrev main_v13 : Ref sig .tc := ⟨.hbm, 102, rfl⟩
abbrev main_v14 : Ref sig .tc := ⟨.hbm, 103, rfl⟩
abbrev main_v15 : Ref sig .tc := ⟨.hbm, 104, rfl⟩
abbrev main_v16_0 : Ref sig .tc := ⟨.hbm, 105, rfl⟩
abbrev main_v16_1 : Ref sig .tc := ⟨.hbm, 106, rfl⟩
abbrev main_cst : Ref sig .tc := ⟨.hbm, 107, rfl⟩
abbrev main_v17 : Ref sig .tc := ⟨.hbm, 108, rfl⟩
abbrev main_v18 : Ref sig .tc := ⟨.hbm, 109, rfl⟩
abbrev main_v19 : Ref sig .tc := ⟨.hbm, 110, rfl⟩
abbrev main_cst_0 : Ref sig .tc := ⟨.hbm, 111, rfl⟩
abbrev main_v20 : Ref sig .tc := ⟨.hbm, 112, rfl⟩
abbrev main_v21 : Ref sig .tc := ⟨.hbm, 113, rfl⟩
abbrev main_v22 : Ref sig .tc := ⟨.hbm, 114, rfl⟩
abbrev main_v23 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  slices_S256x1_S128x1_128_0 : S256x1.Slices ![128, 0] S128x1
  slices_S256x128_S128x128_0_0 : S256x128.Slices ![0, 0] S128x128
  bitsLt_bf16_f32 : FTy.bits .bf16 < FTy.bits .f32
  slices_S256x128_S128x128_128_0 : S256x128.Slices ![128, 0] S128x128
  slices_S256x1_S128x1_0_0 : S256x1.Slices ![0, 0] S128x1
  transposes_S128x1_S1x128_1_0 : S128x1.Transposes [1, 0] S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  bcast_S_S50000x128 : S_.BroadcastsInDim S50000x128 (![] : Fin 0 → Fin S50000x128.rank)
  bcast_S_S50000x1 : S_.BroadcastsInDim S50000x1 (![] : Fin 0 → Fin S50000x1.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  gather_S50000x128_S800000x1_S800000x128_1_0_n_n_0_1_1128_wf : GatherDims.WF S50000x128 S800000x1 S800000x128 [1] [0] [] [0] [] 1 ![1, 128]
  dot_S20x128_S128x1_S20x1_1_0_0_1_n_n_wf : DotDims.WF S20x128 S128x1 S20x1 [1] [0] [0] [1] [] []
  gather_S20x1_S800000x1_S800000x1_1_0_n_n_0_1_11_wf : GatherDims.WF S20x1 S800000x1 S800000x1 [1] [0] [] [0] [] 1 ![1, 1]
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S800000x128.size a
  hwx0_0 : ∀ i : grid0.Coords, EltTy.bits .f32 = 32 ∨ (Rect.block (s := S800000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S800000x128.size a
  hwx0_1 : ∀ i : grid0.Coords, EltTy.bits .f32 = 32 ∨ (Rect.block (s := S800000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S800000x1.size a
  hwx0_2 : ∀ i : grid0.Coords, EltTy.bits .f32 = 32 ∨ (Rect.block (s := S800000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S800000x128.size a
  hwx0_6 : ∀ i : grid0.Coords, EltTy.bits .f32 = 32 ∨ (Rect.block (s := S800000x128) S4000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x1.size a ≤ S800000x1.size a
  hwx0_7 : ∀ i : grid0.Coords, EltTy.bits .f32 = 32 ∨ (Rect.block (s := S800000x1) S4000x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S20x128_S128x1_S20x1_1_0_0_1_n_n : DotDims S20x128 S128x1 S20x1 where
  lhsContracting := [1]
  rhsContracting := [0]
  lhsNonContracting := [0]
  rhsNonContracting := [1]
  lhsBatch := []
  rhsBatch := []
  wf := dot_S20x128_S128x1_S20x1_1_0_0_1_n_n_wf
def gather_S20x1_S800000x1_S800000x1_1_0_n_n_0_1_11 : GatherDims S20x1 S800000x1 S800000x1 where
  offsetDims := [1]
  collapsedSliceDims := [0]
  operandBatchingDims := []
  startIndicesBatchingDims := []
  startIndexMap := [0]
  indexVectorDim := 1
  sliceSizes := ![1, 1]
  wf := gather_S20x1_S800000x1_S800000x1_1_0_n_n_0_1_11_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

abbrev win0_0 : Pipeline.Window sig grid0 :=
  Pipeline.Window.ofSpec (Memref.whole main_v5) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S4000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v19) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S256x128 : Shape := ⟨2, ![256, 128]⟩
abbrev S256x1 : Shape := ⟨2, ![256, 1]⟩
abbrev S20x128 : Shape := ⟨2, ![20, 128]⟩
abbrev S_ : Shape := ⟨0, ![]⟩
abbrev S1x800000 : Shape := ⟨2, ![1, 800000]⟩
abbrev S800000x1 : Shape := ⟨2, ![800000, 1]⟩
abbrev S800000x128 : Shape := ⟨2, ![800000, 128]⟩
abbrev S800000x256 : Shape := ⟨2, ![800000, 256]⟩
abbrev S50000x1 : Shape := ⟨2, ![50000, 1]⟩

abbrev nBuf : Space → Nat
  | .hbm => 98
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .i32⟩
  | .hbm, ⟨3, _⟩ => ⟨S256x128, .f32⟩
  | .hbm, ⟨4, _⟩ => ⟨S256x1, .f32⟩
  | .hbm, ⟨5, _⟩ => ⟨S20x128, .f32⟩
  | .hbm, ⟨6, _⟩ => ⟨S_, .i32⟩
  | .hbm, ⟨7, _⟩ => ⟨S_, .i32⟩
  | .hbm, ⟨8, _⟩ => ⟨S800000, .i32⟩
  | .hbm, ⟨9, _⟩ => ⟨S800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S1x800000, .i32⟩
  | .hbm, ⟨25, _⟩ => ⟨S800000, .i32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S1x800000, .i32⟩
  | .hbm, ⟨36, _⟩ => ⟨S800000, .i32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S800000x256, .f32⟩
  | .hbm, ⟨47, _⟩ => ⟨S800000x128, .f32⟩
  | .hbm, ⟨48, _⟩ => ⟨S_, .f32⟩
  | .hbm, ⟨49, _⟩ => ⟨S_, .f32⟩
  | .hbm, ⟨50, _⟩ => ⟨S800000x128, .f32⟩
  | .hbm, ⟨51, _⟩ => ⟨S800000x128, .i1⟩
  | .hbm, ⟨52, _⟩ => ⟨S_, .f32⟩
  | .hbm, ⟨53, _⟩ => ⟨S800000x128, .f32⟩
  | .hbm, ⟨54, _⟩ => ⟨S800000x128, .f32⟩
  | .hbm, ⟨55, _⟩ => ⟨S800000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S800000x256, .f32⟩
  | .hbm, ⟨66, _⟩ => ⟨S800000x1, .f32⟩
  | .hbm, ⟨67, _⟩ => ⟨S800000x1, .f32⟩
  | .hbm, ⟨68, _⟩ => ⟨S800000x1, .f32⟩
  | .hbm, ⟨69, _⟩ => ⟨S_, .f32⟩
  | .hbm, ⟨70, _⟩ => ⟨S800000x1, .f32⟩
  | .hbm, ⟨71, _⟩ => ⟨S800000x1, .f32⟩
  | .hbm, ⟨72, _⟩ => ⟨S_, .f32⟩
  | .hbm, ⟨73, _⟩ => ⟨S800000x1, .f32⟩
  | .hbm, ⟨74, _⟩ => ⟨S800000x1, .f32⟩
  | .hbm, ⟨75, _⟩ => ⟨S800000x1, .f32⟩
  | .hbm, ⟨76, _⟩ => ⟨S800000x128, .f32⟩
  | .hbm, ⟨77, _⟩ => ⟨S800000x128, .f32⟩
  | .hbm, ⟨78, _⟩ => ⟨S1x800000, .i32⟩
  | .hbm, ⟨79, _⟩ => ⟨S800000, .i32⟩
  | .hbm, ⟨80, _⟩ => ⟨S_, .f32⟩
  | .hbm, ⟨81, _⟩ => ⟨S50000x128, .f32⟩
  | .hbm, ⟨82, _⟩ => ⟨S800000x1, .i32⟩
  | .hbm, ⟨83, _⟩ => ⟨S50000x128, .f32⟩
  | .hbm, ⟨84, _⟩ => ⟨S1x800000, .i32⟩
  | .hbm, ⟨85, _⟩ => ⟨S800000, .i32⟩
  | .hbm, ⟨86, _⟩ => ⟨S_, .f32⟩
  | .hbm, ⟨87, _⟩ => ⟨S50000x1, .f32⟩
  | .hbm, ⟨88, _⟩ => ⟨S800000x1, .i32⟩
  | .hbm, ⟨89, _⟩ => ⟨S50000x1, .f32⟩
  | .hbm, ⟨90, _⟩ => ⟨S_, .f32⟩
  | .hbm, ⟨91, _⟩ => ⟨S50000x1, .f32⟩
  | .hbm, ⟨92, _⟩ => ⟨S50000x1, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_2 : Ref sig .tc := ⟨.hbm, 37, rfl⟩
abbrev main_v12 : Ref sig .tc := ⟨.hbm, 38, rfl⟩
abbrev main_v13 : Ref sig .tc := ⟨.hbm, 39, rfl⟩
abbrev main_c_3 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst : Ref sig .tc := ⟨.hbm, 48, rfl⟩
abbrev main_call1_cst : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v21 : Ref sig .tc := ⟨.hbm, 55, rfl⟩
abbrev main_c_4 : Ref sig .tc := ⟨.hbm, 56, rfl⟩
abbrev main_v22 : Ref sig .tc := ⟨.hbm, 57, rfl⟩
abbrev main_v23 : Ref sig .tc := ⟨.hbm, 58, rfl⟩
abbrev main_c_5 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_6 : Ref sig .tc := ⟨.hbm, 69, rfl⟩
abbrev main_v33 : Ref sig .tc := ⟨.hbm, 70, rfl⟩
abbrev main_v34 : Ref sig .tc := ⟨.hbm, 71, rfl⟩
abbrev main_cst_7 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_8 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_cst_9 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_10 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_call2_cst : Ref sig .tc := ⟨.hbm, 95, rfl⟩
abbrev main_call2_v0 : Ref sig .tc := ⟨.hbm, 96, rfl⟩
abbrev main_v54 : Ref sig .tc := ⟨.hbm, 97, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  slices_S2x800000_S1x800000_0_0 : S2x800000.Slices ![0, 0] S1x800000
  shapeCasts_S1x800000_S800000 : S1x800000.ShapeCasts S800000
  bcast_S800000_S800000x1_0 : S800000.BroadcastsInDim S800000x1 (![0] : Fin 1 → Fin S800000x1.rank)
  slices_S2x800000_S1x800000_1_0 : S2x800000.Slices ![1, 0] S1x800000
  concatenates_S800000x128_S800000x128_S800000x256_d1 : Shape.Concatenates [S800000x128, S800000x128] S800000x256 1
  bcast_S_S800000x128 : S_.BroadcastsInDim S800000x128 (![] : Fin 0 → Fin S800000x128.rank)
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  gather_S20x128_S800000x1_S800000x128_1_0_n_n_0_1_1128_wf : GatherDims.WF S20x128 S800000x1 S800000x128 [1] [0] [] [0] [] 1 ![1, 128]
  dot_S800000x256_S256x1_S800000x1_1_0_0_1_n_n_wf : DotDims.WF S800000x256 S256x1 S800000x1 [1] [0] [0] [1] [] []
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def gather_S20x128_S800000x1_S800000x128_1_0_n_n_0_1_1128 : GatherDims S20x128 S800000x1 S800000x128 where
  offsetDims := [1]
  collapsedSliceDims := [0]
  operandBatchingDims := []
  startIndicesBatchingDims := []
  startIndexMap := [0]
  indexVectorDim := 1
  sliceSizes := ![1, 128]
  wf := gather_S20x128_S800000x1_S800000x128_1_0_n_n_0_1_1128_wf
def dot_S800000x256_S256x1_S800000x1_1_0_0_1_n_n : DotDims S800000x256 S256x1 S800000x1 where
  lhsContracting := [1]
  rhsContracting := [0]
  lhsNonContracting := [0]
  rhsNonContracting := [1]
  lhsBatch := []
  rhsBatch := []
  wf := dot_S800000x256_S256x1_S800000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.Spec.lean ====
/-
  The mathematics both programs compute, stated once over the extended reals and over literal shapes.

  For every edge e (of 800000) with source node s(e), target node t(e) and distance bucket b(e) = ⌊dist(e) / 50⌋:
    h(e, j)   = Σ_k x[s(e), k] · W1[k, j] + Σ_k x[t(e), k] · W1[128 + k, j]            (the 256-long contraction, split in halves)
    h'(e, j)  = h(e, j) if h(e, j) ≥ 0 else 0.2 · h(e, j)
    a(e)      = Σ_j h'(e, j) · W2[j, 0] + Σ_k tab[b(e), k] · W2[128 + k, 0]
    att(e)    = exp (1 / (1 + exp (-a(e))))
    srcw(e,k) = x[s(e), k] · att(e)
  and for every node n:   out(n, h) = max ((Σ_{t(e) = n} srcw(e, h)) / (Σ_{t(e) = n} att(e) + ε), 0).
-/
import Idealize.ShloMosaic.PureOps
import Idealize.ShloMosaic.PureOps.Ideal
import Idealize.ShloMosaic.Lib.ValueIdx

noncomputable section

namespace Cert.EdgeAttn

open Idealize.ShloMosaic Idealize.ShloMosaic.ValueIdx

abbrev SNH : Shape := ⟨2, ![50000, 128]⟩
abbrev SN1 : Shape := ⟨2, ![50000, 1]⟩
abbrev SEH : Shape := ⟨2, ![800000, 128]⟩
abbrev SE1 : Shape := ⟨2, ![800000, 1]⟩
abbrev SE : Shape := ⟨1, ![800000]⟩
abbrev S2E : Shape := ⟨2, ![2, 800000]⟩
abbrev SW1 : Shape := ⟨2, ![256, 128]⟩
abbrev SW2 : Shape := ⟨2, ![256, 1]⟩
abbrev STab : Shape := ⟨2, ![20, 128]⟩
abbrev SHH : Shape := ⟨2, ![128, 128]⟩
abbrev S1H : Shape := ⟨2, ![1, 128]⟩

/-- Row k of the lower / of the upper half of a 256-row weight matrix. -/
def lo (k : Fin 128) : Fin 256 := ⟨k.val, by omega⟩
def hi (k : Fin 128) : Fin 256 := ⟨128 + k.val, by omega⟩

/-- The three float literals both programs carry, as the extended reals their words denote. -/
def zeroF : EReal := Ideal.ofBits .f32 0x00000000#32
def slope : EReal := Ideal.ofBits .f32 0x3E4CCCCD#32
def epsF : EReal := Ideal.ofBits .f32 0x358637BD#32

/-- leaky relu: v where v ≥ 0, slope · v elsewhere. -/
def leaky (v : EReal) : EReal :=
  Scalar.select (FloatOps.cmpf (F := Ideal) (φ := .f32) .oge v zeroF) v (slope * v)

/-- exp of the logistic function. -/
def attOf (a : EReal) : EReal := Ideal.exp (Ideal.logistic a)

/-- One row's attention weight from R rows of source features A0, target features A1, distance scores A2,
    the two 128×128 halves A3, A4 of the first weight matrix and the row A5 of the second:
    exp (logistic (Σ_j leaky (Σ_k A0[p,k]·A3[k,j] + Σ_k A1[p,k]·A4[k,j]) · A5[0,j] + A2[p,0])). -/
def attRows {R : ℕ} (A0 A1 : (⟨2, ![R, 128]⟩ : Shape).Idx → EReal) (A2 : (⟨2, ![R, 1]⟩ : Shape).Idx → EReal)
    (A3 A4 : SHH.Idx → EReal) (A5 : S1H.Idx → EReal) (p : Fin R) : EReal :=
  attOf ((∑ j : Fin 128, leaky ((∑ k : Fin 128, A0 (ix2 p k) * A3 (ix2 k j)) + ∑ k : Fin 128, A1 (ix2 p k) * A4 (ix2 k j))
    * A5 (ix2 (0 : Fin 1) j)) + A2 (ix2 p (0 : Fin 1)))

/-- Row n of the node features (0 outside the table: never read under the index preconditions). -/
def xrow (x : SNH.Idx → EReal) (n : ℕ) (k : Fin 128) : EReal := if h : n < 50000 then x (ix2 ⟨n, h⟩ k) else 0

/-- The source and the target node index word of edge e. -/
def srcIx (ei : IVec S2E 32) (e : Fin 800000) : BitVec 32 := ei (ix2 (0 : Fin 2) e)
def tgtIx (ei : IVec S2E 32) (e : Fin 800000) : BitVec 32 := ei (ix2 (1 : Fin 2) e)

/-- The distance bucket of edge e. -/
def bucket (dist : IVec SE 32) (e : Fin 800000) : ℕ := (dist (ix1 e)).toNat / 50

/-- The distance embedding's share of the attention logit for bucket r: Σ_k tab[r,k] · W2[128+k, 0]. -/
def dscore (tab : STab.Idx → EReal) (W2 : SW2.Idx → EReal) (r : ℕ) : EReal :=
  if h : r < 20 then ∑ k : Fin 128, tab (ix2 ⟨r, h⟩ k) * W2 (ix2 (hi k) (0 : Fin 1)) else 0

/-- The hidden pre-activation h(e, j) from the two gathered rows s, t. -/
def hid (W1 : SW1.Idx → EReal) (s t : Fin 128 → EReal) (j : Fin 128) : EReal :=
  (∑ k : Fin 128, s k * W1 (ix2 (lo k) j)) + ∑ k : Fin 128, t k * W1 (ix2 (hi k) j)

/-- The attention weight of edge e. -/
def attEdge (x : SNH.Idx → EReal) (ei : IVec S2E 32) (dist : IVec SE 32) (W1 : SW1.Idx → EReal) (W2 : SW2.Idx → EReal)
    (tab : STab.Idx → EReal) (e : Fin 800000) : EReal :=
  attOf ((∑ j : Fin 128, leaky (hid W1 (xrow x (srcIx ei e).toNat) (xrow x (tgtIx ei e).toNat) j) * W2 (ix2 (lo j) (0 : Fin 1)))
    + dscore tab W2 (bucket dist e))

/-- The weighted source row of edge e. -/
def srcwEdge (x : SNH.Idx → EReal) (ei : IVec S2E 32) (dist : IVec SE 32) (W1 : SW1.Idx → EReal) (W2 : SW2.Idx → EReal)
    (tab : STab.Idx → EReal) (e : Fin 800000) (k : Fin 128) : EReal :=
  xrow x (srcIx ei e).toNat k * attEdge x ei dist W1 W2 tab e

/-- The node-wise normalisation and relu. -/
def normOut (agg : SNH.Idx → EReal) (attagg : SN1.Idx → EReal) (n : Fin 50000) (h : Fin 128) : EReal :=
  max (Ideal.div (agg (ix2 n h)) (attagg (ix2 n (0 : Fin 1)) + epsF)) zeroF

/-- The index preconditions: every source node index is a row of x, every distance lies in [0, 1000)
    (so that its bucket is a row of the embedding table). -/
def InRange (ei : IVec S2E 32) (dist : IVec SE 32) : Prop :=
  (∀ e : Fin 800000, 0 ≤ (srcIx ei e).toInt ∧ (srcIx ei e).toInt < 50000)
  ∧ ∀ e : Fin 800000, 0 ≤ (dist (ix1 e)).toInt ∧ (dist (ix1 e)).toInt < 1000

/-- Edge e's target index is a row of the node table (the edges the scatter keeps). -/
def TgtOK (ei : IVec S2E 32) (e : Fin 800000) : Prop := 0 ≤ (tgtIx ei e).toInt ∧ (tgtIx ei e).toInt < 50000

end Cert.EdgeAttn

end
-- ==== Proof.Decode.lean ====
/-
  The precondition read: where the printed predicate is all ones, every source node index is a row of the
  node table and every distance lies in [0, 1000).
-/
import proofs.«425987_j59854664237659_2_alg».proof.Pre_finite_inputs
import proofs.«425987_j59854664237659_2_alg».proof.Proof.Gen.Pre_finite_inputs
import proofs.«425987_j59854664237659_2_alg».proof.Proof.Spec
import Idealize.ShloMosaic.Lib.ReduceAll
import Idealize.ShloMosaic.Lib.StableHlo.Predicate
import Idealize.ShloMosaic.Lib.Pipeline.Value

noncomputable section

namespace Cert.EdgeAttn

open Idealize.ShloMosaic Idealize.ShloMosaic.ValueIdx

/-- The result shape of a full reduction has one index. -/
instance : Subsingleton Cert.Pre_finite_inputs.S_.Idx := ⟨fun a b => funext fun d => d.elim0⟩

/-- Row 0 of the edge endpoints, reshaped to a vector over the edges, reads the source index word of edge e:
    the reshape keeps the row-major position (0 · 800000 + e = e), the slice shifts by the offsets (0, 0). -/
theorem srcRow_apply (a1 : IVec Cert.Pre_finite_inputs.S2x800000 32)
    (hs : Cert.Pre_finite_inputs.S2x800000.Slices ![0, 0] Cert.Pre_finite_inputs.S1x800000)
    (hc : Cert.Pre_finite_inputs.S1x800000.ShapeCasts Cert.Pre_finite_inputs.S800000) (e : Fin 800000) :
    shapeCast Cert.Pre_finite_inputs.S800000 (extractStridedSlice Cert.Pre_finite_inputs.S1x800000 ![0, 0] a1 hs) hc (ix1 e)
      = a1 (ix2 (0 : Fin 2) e) := by
  refine (shapeCast_apply _ hc (ix1 e) (ix2 (0 : Fin 1) e) ?_).trans ?_
  · rw [Shape.rowMajor_val_two, Shape.rowMajor_val_one]
    show 0 * 800000 + e.val = e.val
    omega
  · refine extractStridedSlice_apply ![0, 0] a1 hs (ix2 (0 : Fin 1) e) (ix2 (0 : Fin 2) e) fun a => ?_
    match a with
    | ⟨0, _⟩ => show (0 : Nat) = 0 + 0; rfl
    | ⟨1, _⟩ => show e.val = 0 + e.val; omega

/-- A scalar integer constant broadcast over the edges reads the constant at every edge. -/
theorem bcastConst_apply (c : BitVec 32)
    (hb : Cert.Pre_finite_inputs.S_.BroadcastsInDim Cert.Pre_finite_inputs.S800000 (![] : Fin 0 → Fin Cert.Pre_finite_inputs.S800000.rank))
    (h0 : 0 < Cert.Pre_finite_inputs.S_.numel) (j : Cert.Pre_finite_inputs.S800000.Idx) :
    broadcastInDim Cert.Pre_finite_inputs.S800000 ![] hb (constantI Cert.Pre_finite_inputs.S_ 32 c) j = c := by
  rw [StableHlo.Predicate.bcast_scalar hb h0]
  rfl

/-- A word whose two signed comparisons "0 ≤ w" and "w < n" both came out 1 lies in [0, n) read signed. -/
theorem range_of_cmp (w z n : BitVec 32) (N : Int) (hz : z.toInt = 0) (hn : n.toInt = N)
    (h : IntOp.andi (IntOp.cmpi .sge w z) (IntOp.cmpi .slt w n) = 1#1) : 0 ≤ w.toInt ∧ w.toInt < N := by
  obtain ⟨h1, h2⟩ := IntOp.andi_eq_one.1 h
  have g1 := IntOp.cmpi_sge.1 h1
  have g2 := IntOp.cmpi_slt.1 h2
  rw [hz] at g1
  rw [hn] at g2
  exact ⟨g1, g2⟩

theorem inRange_of_pre [Cert.Pre_finite_inputs.Facts] (a0 : FVec Ideal Cert.Pre_finite_inputs.S50000x128 .f32) (a1 : IVec Cert.Pre_finite_inputs.S2x800000 32)
    (a2 : IVec Cert.Pre_finite_inputs.S800000 32) (a3 : FVec Ideal Cert.Pre_finite_inputs.S256x128 .f32)
    (a4 : FVec Ideal Cert.Pre_finite_inputs.S256x1 .f32) (a5 : FVec Ideal Cert.Pre_finite_inputs.S20x128 .f32)
    (h : Cert.Pre_finite_inputs.fn (F := Ideal) a0 a1 a2 a3 a4 a5 = fun _ => 1#1) : InRange a1 a2 := by
  have h0 := congrFun h ValueIdx.ix0
  dsimp only [Cert.Pre_finite_inputs.fn, Cert.Pre_finite_inputs.fn_part1, Cert.Pre_finite_inputs.fn_part2] at h0
  -- the chain of conjunctions: the last conjunct reads the distances, the one before it the source indices
  obtain ⟨h27, h33⟩ := IntOp.andi_eq_one.1 h0
  obtain ⟨-, h26⟩ := IntOp.andi_eq_one.1 h27
  refine ⟨fun e => ?_, fun e => ?_⟩
  · have he := Host.reduce_andi_all _ _ _ _ _ h26 (ix1 e)
    have hr := range_of_cmp _ _ _ 50000 (by rw [bcastConst_apply _ _ Cert.Pre_finite_inputs.Facts.h_S_]; decide) (by rw [bcastConst_apply _ _ Cert.Pre_finite_inputs.Facts.h_S_]; decide) he
    rw [srcRow_apply] at hr
    exact hr
  · have he := Host.reduce_andi_all _ _ _ _ _ h33 (ix1 e)
    exact range_of_cmp _ _ _ 1000 (by rw [bcastConst_apply _ _ Cert.Pre_finite_inputs.Facts.h_S_]; decide) (by rw [bcastConst_apply _ _ Cert.Pre_finite_inputs.Facts.h_S_]; decide) he

end Cert.EdgeAttn

end
-- ==== Proof.RRun.lean ====
/- The reference program's @main read as ONE straight line of host operations, and its run read back.

   @main calls three outlined functions: @floor_divide (which itself calls @_where), @leaky_relu (which calls
   @_where_0) and @relu. A call executes the callee's body on the operands, each value of the body in a buffer of
   its own (the call's record), so @main with its calls unfolded is a straight line of 92 operations: @main's own
   65 and, at the three call sites, the callees' 17, 7 and 3. The line is listed below in program order; `main_eq`
   says @main is that line, and `run_raw` is the fold of the line over the launch contents: every weakly fair
   execution terminates with each TensorCore buffer at the operations' composed term of the arguments. -/
import proofs.«425987_j59854664237659_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 92 operations in order, the calls unfolded at their sites: the distance bucket `d // 50`
    (@floor_divide: quotient, the two signs compared, the remainder compared with zero, the quotient less one
    where both differ, selected by @_where); the two row gathers of `x` at the wrapped source and target
    indices; their concatenation contracted with `W1`; the leaky rectifier (@leaky_relu: the comparison with
    zero, the slope times the value, selected by @_where_0); the table row gathered at the wrapped bucket; the
    second concatenation contracted with `W2`; `exp (1 / (1 + exp (-a)))`; the source row times the attention
    weight; the two scatter-adds along the target indices into zero accumulators; the quotient by the attention
    sum plus the small constant; and the rectifier (@relu: the maximum with zero). -/
abbrev ops : List (HloOp τ sig (Elt F)) :=
  [ StableHlo.nullary main_c (constantI S_ 32 50#32),
    StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S800000, .i32⟩) (broadcastInDim S800000 ![] bcast_S_S800000),
    StableHlo.TRef.binary (.of main_arg2 : StableHlo.TRef sig ⟨S800000, .i32⟩) (.of main_call0_v1 : StableHlo.TRef sig ⟨S800000, .i32⟩) (.of main_call0_v2 : StableHlo.TRef sig ⟨S800000, .i32⟩) Host.divsi,
    StableHlo.TRef.unary (.of main_arg2 : StableHlo.TRef sig ⟨S800000, .i32⟩) (.of main_call0_v3 : StableHlo.TRef sig ⟨S800000, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S800000, .i32⟩) (broadcastInDim S800000 ![] bcast_S_S800000),
    StableHlo.TRef.binary (.of main_call0_v3 : StableHlo.TRef sig ⟨S800000, .i32⟩) (.of main_call0_v5 : StableHlo.TRef sig ⟨S800000, .i32⟩) (.of main_call0_v6 : StableHlo.TRef sig ⟨S800000, .i1⟩) (cmpi .ne),
    StableHlo.TRef.unary (.of main_call0_v0 : StableHlo.TRef sig ⟨S_, .i32⟩) (.of main_call0_v7 : StableHlo.TRef sig ⟨S800000, .i32⟩) (broadcastInDim S800000 ![] bcast_S_S800000),
    StableHlo.TRef.binary (.of main_arg2 : StableHlo.TRef sig ⟨S800000, .i32⟩) (.of main_call0_v7 : StableHlo.TRef sig ⟨S800000, .i32⟩) (.of main_call0_v8 : StableHlo.TRef sig ⟨S800000, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S800000, .i32⟩) (broadcastInDim S800000 ![] bcast_S_S800000),
    StableHlo.TRef.binary (.of main_call0_v8 : StableHlo.TRef sig ⟨S800000, .i32⟩) (.of main_call0_v9 : StableHlo.TRef sig ⟨S800000, .i32⟩) (.of main_call0_v10 : StableHlo.TRef sig ⟨S800000, .i1⟩) (cmpi .ne),
    StableHlo.TRef.binary (.of main_call0_v6 : StableHlo.TRef sig ⟨S800000, .i1⟩) (.of main_call0_v10 : StableHlo.TRef sig ⟨S800000, .i1⟩) (.of main_call0_v11 : StableHlo.TRef sig ⟨S800000, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S800000, .i32⟩) (broadcastInDim S800000 ![] bcast_S_S800000),
    StableHlo.TRef.binary (.of main_call0_v2 : StableHlo.TRef sig ⟨S800000, .i32⟩) (.of main_call0_v12 : StableHlo.TRef sig ⟨S800000, .i32⟩) (.of main_call0_v13 : StableHlo.TRef sig ⟨S800000, .i32⟩) subi,
    StableHlo.TRef.ternary (.of main_call0_v11 : StableHlo.TRef sig ⟨S800000, .i1⟩) (.of main_call0_v13 : StableHlo.TRef sig ⟨S800000, .i32⟩) (.of main_call0_v2 : StableHlo.TRef sig ⟨S800000, .i32⟩) (.of main_v0 : StableHlo.TRef sig ⟨S800000, .i32⟩) select,
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.nullary main_c_0 (constantI S_ 32 0#32),
    StableHlo.unary main_c_0 main_v3 (broadcastInDim S800000 ![] bcast_S_S800000 : (⟨S_, .i32⟩ : BufTy).Contents (Elt F) → (⟨S800000, .i32⟩ : BufTy).Contents (Elt F)),
    StableHlo.binary main_v2 main_v3 main_v4 (cmpi .slt : (⟨S800000, .i32⟩ : BufTy).Contents (Elt F) → (⟨S800000, .i32⟩ : BufTy).Contents (Elt F) → (⟨S800000, .i1⟩ : BufTy).Contents (Elt F)),
    StableHlo.nullary main_c_1 (constantI S_ 32 50000#32),
    StableHlo.unary main_c_1 main_v5 (broadcastInDim S800000 ![] bcast_S_S800000 : (⟨S_, .i32⟩ : BufTy).Contents (Elt F) → (⟨S800000, .i32⟩ : BufTy).Contents (Elt F)),
    StableHlo.binary main_v2 main_v5 main_v6 (addi : (⟨S800000, .i32⟩ : BufTy).Contents (Elt F) → (⟨S800000, .i32⟩ : BufTy).Contents (Elt F) → (⟨S800000, .i32⟩ : BufTy).Contents (Elt F)),
    StableHlo.ternary main_v4 main_v6 main_v2 main_v7 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v7 main_v8 (broadcastInDim S800000x1 ![0] bcast_S800000_S800000x1_0 : (⟨S800000, .i32⟩ : BufTy).Contents (Elt F) → (⟨S800000x1, .i32⟩ : BufTy).Contents (Elt F)),
    StableHlo.binary main_arg0 main_v8 main_v9 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_arg1 main_v10 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v10 main_v11 rfl shapeCasts_S1x800000_S800000,
    StableHlo.nullary main_c_2 (constantI S_ 32 0#32),
    StableHlo.unary main_c_2 main_v12 (broadcastInDim S800000 ![] bcast_S_S800000 : (⟨S_, .i32⟩ : BufTy).Contents (Elt F) → (⟨S800000, .i32⟩ : BufTy).Contents (Elt F)),
    StableHlo.binary main_v11 main_v12 main_v13 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v14 (broadcastInDim S800000 ![] bcast_S_S800000 : (⟨S_, .i32⟩ : BufTy).Contents (Elt F) → (⟨S800000, .i32⟩ : BufTy).Contents (Elt F)),
    StableHlo.binary main_v11 main_v14 main_v15 (addi : (⟨S800000, .i32⟩ : BufTy).Contents (Elt F) → (⟨S800000, .i32⟩ : BufTy).Contents (Elt F) → (⟨S800000, .i32⟩ : BufTy).Contents (Elt F)),
    StableHlo.ternary main_v13 main_v15 main_v11 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v16 main_v17 (broadcastInDim S800000x1 ![0] bcast_S800000_S800000x1_0 : (⟨S800000, .i32⟩ : BufTy).Contents (Elt F) → (⟨S800000x1, .i32⟩ : BufTy).Contents (Elt F)),
    StableHlo.binary main_arg0 main_v17 main_v18 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v9 main_v18 main_v19 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    StableHlo.binary main_v19 main_arg3 main_v20 ((fun l r => Host.dotGeneral dot_S800000x256_S256x128_S800000x128_1_0_0_1_n_n none l r) : (⟨S800000x256, .f32⟩ : BufTy).Contents (Elt F) → (⟨S256x128, .f32⟩ : BufTy).Contents (Elt F) → (⟨S800000x128, .f32⟩ : BufTy).Contents (Elt F)),
    StableHlo.nullary main_cst (constant S_ .f32 0x3E4CCCCD#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S800000x128, .f32⟩) (broadcastInDim S800000x128 ![] bcast_S_S800000x128),
    StableHlo.TRef.binary (.of main_v20 : StableHlo.TRef sig ⟨S800000x128, .f32⟩) (.of main_call1_v0 : StableHlo.TRef sig ⟨S800000x128, .f32⟩) (.of main_call1_v1 : StableHlo.TRef sig ⟨S800000x128, .i1⟩) (cmpf .oge),
    StableHlo.TRef.unary (.of main_cst : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S800000x128, .f32⟩) (broadcastInDim S800000x128 ![] bcast_S_S800000x128),
    StableHlo.TRef.binary (.of main_call1_v3 : StableHlo.TRef sig ⟨S800000x128, .f32⟩) (.of main_v20 : StableHlo.TRef sig ⟨S800000x128, .f32⟩) (.of main_call1_v4 : StableHlo.TRef sig ⟨S800000x128, .f32⟩) mulf,
    StableHlo.TRef.ternary (.of main_call1_v1 : StableHlo.TRef sig ⟨S800000x128, .i1⟩) (.of main_v20 : StableHlo.TRef sig ⟨S800000x128, .f32⟩) (.of main_call1_v4 : StableHlo.TRef sig ⟨S800000x128, .f32⟩) (.of main_v21 : StableHlo.TRef sig ⟨S800000x128, .f32⟩) select,
    StableHlo.nullary main_c_4 (constantI S_ 32 0#32),
    StableHlo.unary main_c_4 main_v22 (broadcastInDim S800000 ![] bcast_S_S800000 : (⟨S_, .i32⟩ : BufTy).Contents (Elt F) → (⟨S800000, .i32⟩ : BufTy).Contents (Elt F)),
    StableHlo.binary main_v0 main_v22 main_v23 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 20#32),
    StableHlo.unary main_c_5 main_v24 (broadcastInDim S800000 ![] bcast_S_S800000 : (⟨S_, .i32⟩ : BufTy).Contents (Elt F) → (⟨S800000, .i32⟩ : BufTy).Contents (Elt F)),
    StableHlo.binary main_v0 main_v24 main_v25 (addi : (⟨S800000, .i32⟩ : BufTy).Contents (Elt F) → (⟨S800000, .i32⟩ : BufTy).Contents (Elt F) → (⟨S800000, .i32⟩ : BufTy).Contents (Elt F)),
    StableHlo.ternary main_v23 main_v25 main_v0 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v26 main_v27 (broadcastInDim S800000x1 ![0] bcast_S800000_S800000x1_0 : (⟨S800000, .i32⟩ : BufTy).Contents (Elt F) → (⟨S800000x1, .i32⟩ : BufTy).Contents (Elt F)),
    StableHlo.binary main_arg5 main_v27 main_v28 ((fun x i => Host.gather gather_S20x128_S800000x1_S800000x128_1_0_n_n_0_1_1128 x i) : (⟨S20x128, .f32⟩ : BufTy).Contents (Elt F) → (⟨S800000x1, .i32⟩ : BufTy).Contents (Elt F) → (⟨S800000x128, .f32⟩ : BufTy).Contents (Elt F)),
    StableHlo.binary main_v21 main_v28 main_v29 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    StableHlo.binary main_v29 main_arg4 main_v30 ((fun l r => Host.dotGeneral dot_S800000x256_S256x1_S800000x1_1_0_0_1_n_n none l r) : (⟨S800000x256, .f32⟩ : BufTy).Contents (Elt F) → (⟨S256x1, .f32⟩ : BufTy).Contents (Elt F) → (⟨S800000x1, .f32⟩ : BufTy).Contents (Elt F)),
    StableHlo.unary main_v30 main_v31 (Host.negf : (⟨S800000x1, .f32⟩ : BufTy).Contents (Elt F) → (⟨S800000x1, .f32⟩ : BufTy).Contents (Elt F)),
    StableHlo.unary main_v31 main_v32 (Host.exp : (⟨S800000x1, .f32⟩ : BufTy).Contents (Elt F) → (⟨S800000x1, .f32⟩ : BufTy).Contents (Elt F)),
    StableHlo.nullary main_cst_6 (constant S_ .f32 0x3F800000#32),
    StableHlo.unary main_cst_6 main_v33 (broadcastInDim S800000x1 ![] bcast_S_S800000x1 : (⟨S_, .f32⟩ : BufTy).Contents (Elt F) → (⟨S800000x1, .f32⟩ : BufTy).Contents (Elt F)),
    StableHlo.binary main_v33 main_v32 main_v34 (addf : (⟨S800000x1, .f32⟩ : BufTy).Contents (Elt F) → (⟨S800000x1, .f32⟩ : BufTy).Contents (Elt F) → (⟨S800000x1, .f32⟩ : BufTy).Contents (Elt F)),
    StableHlo.nullary main_cst_7 (constant S_ .f32 0x3F800000#32),
    StableHlo.unary main_cst_7 main_v35 (broadcastInDim S800000x1 ![] bcast_S_S800000x1 : (⟨S_, .f32⟩ : BufTy).Contents (Elt F) → (⟨S800000x1, .f32⟩ : BufTy).Contents (Elt F)),
    StableHlo.binary main_v35 main_v34 main_v36 (Host.divf : (⟨S800000x1, .f32⟩ : BufTy).Contents (Elt F) → (⟨S800000x1, .f32⟩ : BufTy).Contents (Elt F) → (⟨S800000x1, .f32⟩ : BufTy).Contents (Elt F)),
    StableHlo.unary main_v36 main_v37 (Host.exp : (⟨S800000x1, .f32⟩ : BufTy).Contents (Elt F) → (⟨S800000x1, .f32⟩ : BufTy).Contents (Elt F)),
    StableHlo.unary main_v37 main_v38 (broadcastInDim S800000x128 ![0, 1] bcast_S800000x1_S800000x128_0_1 : (⟨S800000x1, .f32⟩ : BufTy).Contents (Elt F) → (⟨S800000x128, .f32⟩ : BufTy).Contents (Elt F)),
    StableHlo.binary main_v9 main_v38 main_v39 (mulf : (⟨S800000x128, .f32⟩ : BufTy).Contents (Elt F) → (⟨S800000x128, .f32⟩ : BufTy).Contents (Elt F) → (⟨S800000x128, .f32⟩ : BufTy).Contents (Elt F)),
    StableHlo.unary main_arg1 main_v40 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v40 main_v41 rfl shapeCasts_S1x800000_S800000,
    StableHlo.nullary main_cst_8 (constant S_ .f32 0x00000000#32),
    StableHlo.unary main_cst_8 main_v42 (broadcastInDim S50000x128 ![] bcast_S_S50000x128 : (⟨S_, .f32⟩ : BufTy).Contents (Elt F) → (⟨S50000x128, .f32⟩ : BufTy).Contents (Elt F)),
    StableHlo.unary main_v41 main_v43 (broadcastInDim S800000x1 ![0] bcast_S800000_S800000x1_0 : (⟨S800000, .i32⟩ : BufTy).Contents (Elt F) → (⟨S800000x1, .i32⟩ : BufTy).Contents (Elt F)),
    StableHlo.ternary main_v42 main_v43 main_v39 main_v44 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg1 main_v45 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v45 main_v46 rfl shapeCasts_S1x800000_S800000,
    StableHlo.nullary main_cst_9 (constant S_ .f32 0x00000000#32),
    StableHlo.unary main_cst_9 main_v47 (broadcastInDim S50000x1 ![] bcast_S_S50000x1 : (⟨S_, .f32⟩ : BufTy).Contents (Elt F) → (⟨S50000x1, .f32⟩ : BufTy).Contents (Elt F)),
    StableHlo.unary main_v46 main_v48 (broadcastInDim S800000x1 ![0] bcast_S800000_S800000x1_0 : (⟨S800000, .i32⟩ : BufTy).Contents (Elt F) → (⟨S800000x1, .i32⟩ : BufTy).Contents (Elt F)),
    StableHlo.ternary main_v47 main_v48 main_v37 main_v49 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.nullary main_cst_10 (constant S_ .f32 0x358637BD#32),
    StableHlo.unary main_cst_10 main_v50 (broadcastInDim S50000x1 ![] bcast_S_S50000x1 : (⟨S_, .f32⟩ : BufTy).Contents (Elt F) → (⟨S50000x1, .f32⟩ : BufTy).Contents (Elt F)),
    StableHlo.binary main_v49 main_v50 main_v51 (addf : (⟨S50000x1, .f32⟩ : BufTy).Contents (Elt F) → (⟨S50000x1, .f32⟩ : BufTy).Contents (Elt F) → (⟨S50000x1, .f32⟩ : BufTy).Contents (Elt F)),
    StableHlo.unary main_v51 main_v52 (broadcastInDim S50000x128 ![0, 1] bcast_S50000x1_S50000x128_0_1 : (⟨S50000x1, .f32⟩ : BufTy).Contents (Elt F) → (⟨S50000x128, .f32⟩ : BufTy).Contents (Elt F)),
    StableHlo.binary main_v44 main_v52 main_v53 (Host.divf : (⟨S50000x128, .f32⟩ : BufTy).Contents (Elt F) → (⟨S50000x128, .f32⟩ : BufTy).Contents (Elt F) → (⟨S50000x128, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x128, .f32⟩) (broadcastInDim S50000x128 ![] bcast_S_S50000x128),
    StableHlo.TRef.binary (.of main_v53 : StableHlo.TRef sig ⟨S50000x128, .f32⟩) (.of main_call2_v0 : StableHlo.TRef sig ⟨S50000x128, .f32⟩) (.of main_v54 : StableHlo.TRef sig ⟨S50000x128, .f32⟩) maximumf ]

set_option maxRecDepth 4096 in
set_option maxHeartbeats 4000000 in
/-- @main is that straight line: the two windows and the functions' bodies unfolded at their calls, the records
    at their fields, both sides are one chain of steps once sequencing is re-associated. -/
theorem main_eq (c : Dev nD) : main (F := F) c = StableHlo.seq ops := by
  simp only [main, main_part0, main_part1, fn_floor_divide.body, fn_where.body, fn_leaky_relu.body, fn_where_0.body,
    fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Each operation touches TensorCore references only. -/
theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    nullary_bufs_sub .., nullary_bufs_sub .., unary_bufs_sub .., binary_bufs_sub .., unary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., unary_bufs_sub .., unary_bufs_sub .., nullary_bufs_sub .., unary_bufs_sub .., binary_bufs_sub ..,
    nullary_bufs_sub .., unary_bufs_sub .., binary_bufs_sub .., unary_bufs_sub .., unary_bufs_sub .., binary_bufs_sub ..,
    unary_bufs_sub .., reshape_bufs_sub .., nullary_bufs_sub .., unary_bufs_sub .., unary_bufs_sub .., ternary_bufs_sub ..,
    unary_bufs_sub .., reshape_bufs_sub .., nullary_bufs_sub .., unary_bufs_sub .., unary_bufs_sub .., ternary_bufs_sub ..,
    nullary_bufs_sub .., unary_bufs_sub .., binary_bufs_sub .., unary_bufs_sub .., binary_bufs_sub .., nullary_bufs_sub ..,
    unary_bufs_sub .., binary_bufs_sub ..⟩

/-- On every device, for any float values, from any memory with zero counters: every weakly fair execution of
    @main terminates, and every final state has each TensorCore buffer at the fold of the 92 operations over
    the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after (ops (F := F)) (StableHlo.launchContents m d) (Proc.devRef .tc b) :=
  StableHlo.run_seq scopedRefs_eq scopedSems_eq defs main (fun _ => ops) main_eq (fun _ => ops_sub) m ρ

end Cert.ReferenceIdeal.RefRun

end
-- ==== Proof.RSegs.lean ====
/-
  The reference program's straight line of 92 operations cut into seven consecutive stretches — the distance bucket,
  the hidden pre-activation, the leaky rectifier, the attention logit, the attention weight with the weighted source
  row, the node-wise accumulation, and the normalisation — with the buffer contents after each stretch named. A buffer
  that a stretch does not write keeps its contents through it; in particular the six arguments, which no operation
  writes, are after every stretch what they were at the launch.
-/
import proofs.«425987_j59854664237659_2_alg».proof.Proof.RRun
import proofs.«425987_j59854664237659_2_alg».proof.Proof.Spec
import Idealize.ShloMosaic.Lib.Pipeline.Frame

noncomputable section

namespace Cert.ReferenceIdeal.RefVal

open Cert.ReferenceIdeal Cert.ReferenceIdeal.Gen Cert.EdgeAttn
open Idealize.ShloMosaic Idealize.ShloMosaic.TcCoe Idealize.SL.Sem Idealize.ShloMosaic.StableHlo Idealize.ShloMosaic.ValueIdx

/-! ## The line in seven stretches -/

section Line

variable {F : FTy → Type} [FloatOps F]

/-- The distance bucket: the constant 50 and @floor_divide's seventeen operations. -/
abbrev opsBucket : List (HloOp τ sig (Elt F)) :=
  [ StableHlo.nullary main_c (constantI S_ 32 50#32),
    StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S800000, .i32⟩) (broadcastInDim S800000 ![] bcast_S_S800000),
    StableHlo.TRef.binary (.of main_arg2 : StableHlo.TRef sig ⟨S800000, .i32⟩) (.of main_call0_v1 : StableHlo.TRef sig ⟨S800000, .i32⟩) (.of main_call0_v2 : StableHlo.TRef sig ⟨S800000, .i32⟩) Host.divsi,
    StableHlo.TRef.unary (.of main_arg2 : StableHlo.TRef sig ⟨S800000, .i32⟩) (.of main_call0_v3 : StableHlo.TRef sig ⟨S800000, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S800000, .i32⟩) (broadcastInDim S800000 ![] bcast_S_S800000),
    StableHlo.TRef.binary (.of main_call0_v3 : StableHlo.TRef sig ⟨S800000, .i32⟩) (.of main_call0_v5 : StableHlo.TRef sig ⟨S800000, .i32⟩) (.of main_call0_v6 : StableHlo.TRef sig ⟨S800000, .i1⟩) (cmpi .ne),
    StableHlo.TRef.unary (.of main_call0_v0 : StableHlo.TRef sig ⟨S_, .i32⟩) (.of main_call0_v7 : StableHlo.TRef sig ⟨S800000, .i32⟩) (broadcastInDim S800000 ![] bcast_S_S800000),
    StableHlo.TRef.binary (.of main_arg2 : StableHlo.TRef sig ⟨S800000, .i32⟩) (.of main_call0_v7 : StableHlo.TRef sig ⟨S800000, .i32⟩) (.of main_call0_v8 : StableHlo.TRef sig ⟨S800000, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S800000, .i32⟩) (broadcastInDim S800000 ![] bcast_S_S800000),
    StableHlo.TRef.binary (.of main_call0_v8 : StableHlo.TRef sig ⟨S800000, .i32⟩) (.of main_call0_v9 : StableHlo.TRef sig ⟨S800000, .i32⟩) (.of main_call0_v10 : StableHlo.TRef sig ⟨S800000, .i1⟩) (cmpi .ne),
    StableHlo.TRef.binary (.of main_call0_v6 : StableHlo.TRef sig ⟨S800000, .i1⟩) (.of main_call0_v10 : StableHlo.TRef sig ⟨S800000, .i1⟩) (.of main_call0_v11 : StableHlo.TRef sig ⟨S800000, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S800000, .i32⟩) (broadcastInDim S800000 ![] bcast_S_S800000),
    StableHlo.TRef.binary (.of main_call0_v2 : StableHlo.TRef sig ⟨S800000, .i32⟩) (.of main_call0_v12 : StableHlo.TRef sig ⟨S800000, .i32⟩) (.of main_call0_v13 : StableHlo.TRef sig ⟨S800000, .i32⟩) subi,
    StableHlo.TRef.ternary (.of main_call0_v11 : StableHlo.TRef sig ⟨S800000, .i1⟩) (.of main_call0_v13 : StableHlo.TRef sig ⟨S800000, .i32⟩) (.of main_call0_v2 : StableHlo.TRef sig ⟨S800000, .i32⟩) (.of main_v0 : StableHlo.TRef sig ⟨S800000, .i32⟩) select ]
/-- The buffers those operations write. -/
abbrev opsBucket_W : List (Ref sig .tc) := [main_c, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v0]

/-- The two endpoint rows wrapped and gathered, concatenated and contracted with the first weight matrix. -/
abbrev opsHidden : List (HloOp τ sig (Elt F)) :=
  [ StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.nullary main_c_0 (constantI S_ 32 0#32),
    StableHlo.unary main_c_0 main_v3 (broadcastInDim S800000 ![] bcast_S_S800000 : (⟨S_, .i32⟩ : BufTy).Contents (Elt F) → (⟨S800000, .i32⟩ : BufTy).Contents (Elt F)),
    StableHlo.binary main_v2 main_v3 main_v4 (cmpi .slt : (⟨S800000, .i32⟩ : BufTy).Contents (Elt F) → (⟨S800000, .i32⟩ : BufTy).Contents (Elt F) → (⟨S800000, .i1⟩ : BufTy).Contents (Elt F)),
    StableHlo.nullary main_c_1 (constantI S_ 32 50000#32),
    StableHlo.unary main_c_1 main_v5 (broadcastInDim S800000 ![] bcast_S_S800000 : (⟨S_, .i32⟩ : BufTy).Contents (Elt F) → (⟨S800000, .i32⟩ : BufTy).Contents (Elt F)),
    StableHlo.binary main_v2 main_v5 main_v6 (addi : (⟨S800000, .i32⟩ : BufTy).Contents (Elt F) → (⟨S800000, .i32⟩ : BufTy).Contents (Elt F) → (⟨S800000, .i32⟩ : BufTy).Contents (Elt F)),
    StableHlo.ternary main_v4 main_v6 main_v2 main_v7 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v7 main_v8 (broadcastInDim S800000x1 ![0] bcast_S800000_S800000x1_0 : (⟨S800000, .i32⟩ : BufTy).Contents (Elt F) → (⟨S800000x1, .i32⟩ : BufTy).Contents (Elt F)),
    StableHlo.binary main_arg0 main_v8 main_v9 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_arg1 main_v10 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v10 main_v11 rfl shapeCasts_S1x800000_S800000,
    StableHlo.nullary main_c_2 (constantI S_ 32 0#32),
    StableHlo.unary main_c_2 main_v12 (broadcastInDim S800000 ![] bcast_S_S800000 : (⟨S_, .i32⟩ : BufTy).Contents (Elt F) → (⟨S800000, .i32⟩ : BufTy).Contents (Elt F)),
    StableHlo.binary main_v11 main_v12 main_v13 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v14 (broadcastInDim S800000 ![] bcast_S_S800000 : (⟨S_, .i32⟩ : BufTy).Contents (Elt F) → (⟨S800000, .i32⟩ : BufTy).Contents (Elt F)),
    StableHlo.binary main_v11 main_v14 main_v15 (addi : (⟨S800000, .i32⟩ : BufTy).Contents (Elt F) → (⟨S800000, .i32⟩ : BufTy).Contents (Elt F) → (⟨S800000, .i32⟩ : BufTy).Contents (Elt F)),
    StableHlo.ternary main_v13 main_v15 main_v11 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v16 main_v17 (broadcastInDim S800000x1 ![0] bcast_S800000_S800000x1_0 : (⟨S800000, .i32⟩ : BufTy).Contents (Elt F) → (⟨S800000x1, .i32⟩ : BufTy).Contents (Elt F)),
    StableHlo.binary main_arg0 main_v17 main_v18 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v9 main_v18 main_v19 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    StableHlo.binary main_v19 main_arg3 main_v20 ((fun l r => Host.dotGeneral dot_S800000x256_S256x128_S800000x128_1_0_0_1_n_n none l r) : (⟨S800000x256, .f32⟩ : BufTy).Contents (Elt F) → (⟨S256x128, .f32⟩ : BufTy).Contents (Elt F) → (⟨S800000x128, .f32⟩ : BufTy).Contents (Elt F)) ]
/-- The buffers those operations write. -/
abbrev opsHidden_W : List (Ref sig .tc) := [main_v1, main_v2, main_c_0, main_v3, main_v4, main_c_1, main_v5, main_v6, main_v7, main_v8, main_v9, main_v10, main_v11, main_c_2, main_v12, main_v13, main_c_3, main_v14, main_v15, main_v16, main_v17, main_v18, main_v19, main_v20]

/-- The slope constant and @leaky_relu's seven operations. -/
abbrev opsLeaky : List (HloOp τ sig (Elt F)) :=
  [ StableHlo.nullary main_cst (constant S_ .f32 0x3E4CCCCD#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S800000x128, .f32⟩) (broadcastInDim S800000x128 ![] bcast_S_S800000x128),
    StableHlo.TRef.binary (.of main_v20 : StableHlo.TRef sig ⟨S800000x128, .f32⟩) (.of main_call1_v0 : StableHlo.TRef sig ⟨S800000x128, .f32⟩) (.of main_call1_v1 : StableHlo.TRef sig ⟨S800000x128, .i1⟩) (cmpf .oge),
    StableHlo.TRef.unary (.of main_cst : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S800000x128, .f32⟩) (broadcastInDim S800000x128 ![] bcast_S_S800000x128),
    StableHlo.TRef.binary (.of main_call1_v3 : StableHlo.TRef sig ⟨S800000x128, .f32⟩) (.of main_v20 : StableHlo.TRef sig ⟨S800000x128, .f32⟩) (.of main_call1_v4 : StableHlo.TRef sig ⟨S800000x128, .f32⟩) mulf,
    StableHlo.TRef.ternary (.of main_call1_v1 : StableHlo.TRef sig ⟨S800000x128, .i1⟩) (.of main_v20 : StableHlo.TRef sig ⟨S800000x128, .f32⟩) (.of main_call1_v4 : StableHlo.TRef sig ⟨S800000x128, .f32⟩) (.of main_v21 : StableHlo.TRef sig ⟨S800000x128, .f32⟩) select ]
/-- The buffers those operations write. -/
abbrev opsLeaky_W : List (Ref sig .tc) := [main_cst, main_call1_cst, main_call1_v0, main_call1_v1, main_call1_v2, main_call1_v3, main_call1_v4, main_v21]

/-- The bucket wrapped, the embedding row gathered, the second concatenation contracted with the second weight matrix. -/
abbrev opsLogit : List (HloOp τ sig (Elt F)) :=
  [ StableHlo.nullary main_c_4 (constantI S_ 32 0#32),
    StableHlo.unary main_c_4 main_v22 (broadcastInDim S800000 ![] bcast_S_S800000 : (⟨S_, .i32⟩ : BufTy).Contents (Elt F) → (⟨S800000, .i32⟩ : BufTy).Contents (Elt F)),
    StableHlo.binary main_v0 main_v22 main_v23 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 20#32),
    StableHlo.unary main_c_5 main_v24 (broadcastInDim S800000 ![] bcast_S_S800000 : (⟨S_, .i32⟩ : BufTy).Contents (Elt F) → (⟨S800000, .i32⟩ : BufTy).Contents (Elt F)),
    StableHlo.binary main_v0 main_v24 main_v25 (addi : (⟨S800000, .i32⟩ : BufTy).Contents (Elt F) → (⟨S800000, .i32⟩ : BufTy).Contents (Elt F) → (⟨S800000, .i32⟩ : BufTy).Contents (Elt F)),
    StableHlo.ternary main_v23 main_v25 main_v0 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v26 main_v27 (broadcastInDim S800000x1 ![0] bcast_S800000_S800000x1_0 : (⟨S800000, .i32⟩ : BufTy).Contents (Elt F) → (⟨S800000x1, .i32⟩ : BufTy).Contents (Elt F)),
    StableHlo.binary main_arg5 main_v27 main_v28 ((fun x i => Host.gather gather_S20x128_S800000x1_S800000x128_1_0_n_n_0_1_1128 x i) : (⟨S20x128, .f32⟩ : BufTy).Contents (Elt F) → (⟨S800000x1, .i32⟩ : BufTy).Contents (Elt F) → (⟨S800000x128, .f32⟩ : BufTy).Contents (Elt F)),
    StableHlo.binary main_v21 main_v28 main_v29 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)),
    StableHlo.binary main_v29 main_arg4 main_v30 ((fun l r => Host.dotGeneral dot_S800000x256_S256x1_S800000x1_1_0_0_1_n_n none l r) : (⟨S800000x256, .f32⟩ : BufTy).Contents (Elt F) → (⟨S256x1, .f32⟩ : BufTy).Contents (Elt F) → (⟨S800000x1, .f32⟩ : BufTy).Contents (Elt F)) ]
/-- The buffers those operations write. -/
abbrev opsLogit_W : List (Ref sig .tc) := [main_c_4, main_v22, main_v23, main_c_5, main_v24, main_v25, main_v26, main_v27, main_v28, main_v29, main_v30]

/-- exp of the logistic function of the logit, and the source row times it. -/
abbrev opsAtt : List (HloOp τ sig (Elt F)) :=
  [ StableHlo.unary main_v30 main_v31 (Host.negf : (⟨S800000x1, .f32⟩ : BufTy).Contents (Elt F) → (⟨S800000x1, .f32⟩ : BufTy).Contents (Elt F)),
    StableHlo.unary main_v31 main_v32 (Host.exp : (⟨S800000x1, .f32⟩ : BufTy).Contents (Elt F) → (⟨S800000x1, .f32⟩ : BufTy).Contents (Elt F)),
    StableHlo.nullary main_cst_6 (constant S_ .f32 0x3F800000#32),
    StableHlo.unary main_cst_6 main_v33 (broadcastInDim S800000x1 ![] bcast_S_S800000x1 : (⟨S_, .f32⟩ : BufTy).Contents (Elt F) → (⟨S800000x1, .f32⟩ : BufTy).Contents (Elt F)),
    StableHlo.binary main_v33 main_v32 main_v34 (addf : (⟨S800000x1, .f32⟩ : BufTy).Contents (Elt F) → (⟨S800000x1, .f32⟩ : BufTy).Contents (Elt F) → (⟨S800000x1, .f32⟩ : BufTy).Contents (Elt F)),
    StableHlo.nullary main_cst_7 (constant S_ .f32 0x3F800000#32),
    StableHlo.unary main_cst_7 main_v35 (broadcastInDim S800000x1 ![] bcast_S_S800000x1 : (⟨S_, .f32⟩ : BufTy).Contents (Elt F) → (⟨S800000x1, .f32⟩ : BufTy).Contents (Elt F)),
    StableHlo.binary main_v35 main_v34 main_v36 (Host.divf : (⟨S800000x1, .f32⟩ : BufTy).Contents (Elt F) → (⟨S800000x1, .f32⟩ : BufTy).Contents (Elt F) → (⟨S800000x1, .f32⟩ : BufTy).Contents (Elt F)),
    StableHlo.unary main_v36 main_v37 (Host.exp : (⟨S800000x1, .f32⟩ : BufTy).Contents (Elt F) → (⟨S800000x1, .f32⟩ : BufTy).Contents (Elt F)),
    StableHlo.unary main_v37 main_v38 (broadcastInDim S800000x128 ![0, 1] bcast_S800000x1_S800000x128_0_1 : (⟨S800000x1, .f32⟩ : BufTy).Contents (Elt F) → (⟨S800000x128, .f32⟩ : BufTy).Contents (Elt F)),
    StableHlo.binary main_v9 main_v38 main_v39 (mulf : (⟨S800000x128, .f32⟩ : BufTy).Contents (Elt F) → (⟨S800000x128, .f32⟩ : BufTy).Contents (Elt F) → (⟨S800000x128, .f32⟩ : BufTy).Contents (Elt F)) ]
/-- The buffers those operations write. -/
abbrev opsAtt_W : List (Ref sig .tc) := [main_v31, main_v32, main_cst_6, main_v33, main_v34, main_cst_7, main_v35, main_v36, main_v37, main_v38, main_v39]

/-- The two scatter-adds along the target indices into zero accumulators. -/
abbrev opsScatter : List (HloOp τ sig (Elt F)) :=
  [ StableHlo.unary main_arg1 main_v40 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v40 main_v41 rfl shapeCasts_S1x800000_S800000,
    StableHlo.nullary main_cst_8 (constant S_ .f32 0x00000000#32),
    StableHlo.unary main_cst_8 main_v42 (broadcastInDim S50000x128 ![] bcast_S_S50000x128 : (⟨S_, .f32⟩ : BufTy).Contents (Elt F) → (⟨S50000x128, .f32⟩ : BufTy).Contents (Elt F)),
    StableHlo.unary main_v41 main_v43 (broadcastInDim S800000x1 ![0] bcast_S800000_S800000x1_0 : (⟨S800000, .i32⟩ : BufTy).Contents (Elt F) → (⟨S800000x1, .i32⟩ : BufTy).Contents (Elt F)),
    StableHlo.ternary main_v42 main_v43 main_v39 main_v44 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_arg1 main_v45 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v45 main_v46 rfl shapeCasts_S1x800000_S800000,
    StableHlo.nullary main_cst_9 (constant S_ .f32 0x00000000#32),
    StableHlo.unary main_cst_9 main_v47 (broadcastInDim S50000x1 ![] bcast_S_S50000x1 : (⟨S_, .f32⟩ : BufTy).Contents (Elt F) → (⟨S50000x1, .f32⟩ : BufTy).Contents (Elt F)),
    StableHlo.unary main_v46 main_v48 (broadcastInDim S800000x1 ![0] bcast_S800000_S800000x1_0 : (⟨S800000, .i32⟩ : BufTy).Contents (Elt F) → (⟨S800000x1, .i32⟩ : BufTy).Contents (Elt F)),
    StableHlo.ternary main_v47 main_v48 main_v37 main_v49 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)) ]
/-- The buffers those operations write. -/
abbrev opsScatter_W : List (Ref sig .tc) := [main_v40, main_v41, main_cst_8, main_v42, main_v43, main_v44, main_v45, main_v46, main_cst_9, main_v47, main_v48, main_v49]

/-- The quotient by the attention sum plus the small constant, and @relu's three operations. -/
abbrev opsTail : List (HloOp τ sig (Elt F)) :=
  [ StableHlo.nullary main_cst_10 (constant S_ .f32 0x358637BD#32),
    StableHlo.unary main_cst_10 main_v50 (broadcastInDim S50000x1 ![] bcast_S_S50000x1 : (⟨S_, .f32⟩ : BufTy).Contents (Elt F) → (⟨S50000x1, .f32⟩ : BufTy).Contents (Elt F)),
    StableHlo.binary main_v49 main_v50 main_v51 (addf : (⟨S50000x1, .f32⟩ : BufTy).Contents (Elt F) → (⟨S50000x1, .f32⟩ : BufTy).Contents (Elt F) → (⟨S50000x1, .f32⟩ : BufTy).Contents (Elt F)),
    StableHlo.unary main_v51 main_v52 (broadcastInDim S50000x128 ![0, 1] bcast_S50000x1_S50000x128_0_1 : (⟨S50000x1, .f32⟩ : BufTy).Contents (Elt F) → (⟨S50000x128, .f32⟩ : BufTy).Contents (Elt F)),
    StableHlo.binary main_v44 main_v52 main_v53 (Host.divf : (⟨S50000x128, .f32⟩ : BufTy).Contents (Elt F) → (⟨S50000x128, .f32⟩ : BufTy).Contents (Elt F) → (⟨S50000x128, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x128, .f32⟩) (broadcastInDim S50000x128 ![] bcast_S_S50000x128),
    StableHlo.TRef.binary (.of main_v53 : StableHlo.TRef sig ⟨S50000x128, .f32⟩) (.of main_call2_v0 : StableHlo.TRef sig ⟨S50000x128, .f32⟩) (.of main_v54 : StableHlo.TRef sig ⟨S50000x128, .f32⟩) maximumf ]
/-- The buffers those operations write. -/
abbrev opsTail_W : List (Ref sig .tc) := [main_cst_10, main_v50, main_v51, main_v52, main_v53, main_call2_cst, main_call2_v0, main_v54]

/-- The line is the seven stretches one after the other. -/
theorem ops_split : (RefRun.ops : List (HloOp τ sig (Elt F)))
    = opsBucket ++ (opsHidden ++ (opsLeaky ++ (opsLogit ++ (opsAtt ++ (opsScatter ++ opsTail))))) := rfl

/-- One operation's written buffer is in the stretch's list. -/
local macro "writes_mem" : tactic =>
  `(tactic| (simp only [nullary_writes, unary_writes, binary_writes, ternary_writes, reshape_writes,
      Finset.singleton_subset_iff, List.mem_toFinset]; exact List.mem_map_of_mem (by decide)))

set_option maxRecDepth 8192 in
theorem opsBucket_writes : (opsBucket : List (HloOp τ sig (Elt F))).Forall fun op =>
    op.writes ⊆ (opsBucket_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

set_option maxRecDepth 8192 in
theorem opsHidden_writes : (opsHidden : List (HloOp τ sig (Elt F))).Forall fun op =>
    op.writes ⊆ (opsHidden_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

set_option maxRecDepth 8192 in
theorem opsLeaky_writes : (opsLeaky : List (HloOp τ sig (Elt F))).Forall fun op =>
    op.writes ⊆ (opsLeaky_W.map (Proc.devRef (τ := τ) .tc)).toFinset := by
  simp only [List.Forall]
  exact ⟨by writes_mem, by writes_mem, by writes_mem, by writes_mem, by writes_mem, by writes_mem, by writes_mem, by writes_mem⟩

set_option maxRecDepth 8192 in
theorem opsLogit_writes : (opsLogit : List (HloOp τ sig (Elt F))).Forall fun op =>
    op.writes ⊆ (opsLogit_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem⟩

set_option maxRecDepth 8192 in
theorem opsAtt_writes : (opsAtt : List (HloOp τ sig (Elt F))).Forall fun op =>
    op.writes ⊆ (opsAtt_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem⟩

set_option maxRecDepth 8192 in
theorem opsScatter_writes : (opsScatter : List (HloOp τ sig (Elt F))).Forall fun op =>
    op.writes ⊆ (opsScatter_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem⟩

set_option maxRecDepth 8192 in
theorem opsTail_writes : (opsTail : List (HloOp τ sig (Elt F))).Forall fun op =>
    op.writes ⊆ (opsTail_W.map (Proc.devRef (τ := τ) .tc)).toFinset := by
  simp only [List.Forall]
  exact ⟨by writes_mem, by writes_mem, by writes_mem, by writes_mem, by writes_mem, by writes_mem, by writes_mem, by writes_mem⟩

end Line

/-! ## The contents after each stretch -/

section Stages

variable (V : Valuation τ sig (Elt Ideal))

/-- The six argument arrays in a valuation, at their literal types. -/
abbrev vx : SNH.Idx → EReal := V (Proc.devRef .tc main_arg0)
abbrev vei : IVec S2E 32 := V (Proc.devRef .tc main_arg1)
abbrev vdist : IVec SE 32 := V (Proc.devRef .tc main_arg2)
abbrev vW1 : SW1.Idx → EReal := V (Proc.devRef .tc main_arg3)
abbrev vW2 : SW2.Idx → EReal := V (Proc.devRef .tc main_arg4)
abbrev vtab : STab.Idx → EReal := V (Proc.devRef .tc main_arg5)

/-- The contents after the first stretch. -/
def U1 : Valuation τ sig (Elt Ideal) := after (opsBucket (F := Ideal)) (V)
/-- A buffer the stretch does not write keeps its contents through it. -/
theorem U1_keep (r : Ref sig .tc) (h : r ∉ opsBucket_W) : U1 V (Proc.devRef .tc r) = V (Proc.devRef .tc r) :=
  after_of_writes_sub opsBucket _ opsBucket_writes h
theorem U1_arg0 : U1 V (Proc.devRef .tc main_arg0) = V (Proc.devRef .tc main_arg0) :=
  U1_keep V main_arg0 (by decide)
theorem U1_arg1 : U1 V (Proc.devRef .tc main_arg1) = V (Proc.devRef .tc main_arg1) :=
  U1_keep V main_arg1 (by decide)
theorem U1_arg2 : U1 V (Proc.devRef .tc main_arg2) = V (Proc.devRef .tc main_arg2) :=
  U1_keep V main_arg2 (by decide)
theorem U1_arg3 : U1 V (Proc.devRef .tc main_arg3) = V (Proc.devRef .tc main_arg3) :=
  U1_keep V main_arg3 (by decide)
theorem U1_arg4 : U1 V (Proc.devRef .tc main_arg4) = V (Proc.devRef .tc main_arg4) :=
  U1_keep V main_arg4 (by decide)
theorem U1_arg5 : U1 V (Proc.devRef .tc main_arg5) = V (Proc.devRef .tc main_arg5) :=
  U1_keep V main_arg5 (by decide)

/-- The contents after the second stretch. -/
def U2 : Valuation τ sig (Elt Ideal) := after (opsHidden (F := Ideal)) (U1 V)
/-- A buffer the stretch does not write keeps its contents through it. -/
theorem U2_keep (r : Ref sig .tc) (h : r ∉ opsHidden_W) : U2 V (Proc.devRef .tc r) = U1 V (Proc.devRef .tc r) :=
  after_of_writes_sub opsHidden _ opsHidden_writes h
theorem U2_arg0 : U2 V (Proc.devRef .tc main_arg0) = V (Proc.devRef .tc main_arg0) :=
  (U2_keep V main_arg0 (by decide)).trans (U1_arg0 V)
theorem U2_arg1 : U2 V (Proc.devRef .tc main_arg1) = V (Proc.devRef .tc main_arg1) :=
  (U2_keep V main_arg1 (by decide)).trans (U1_arg1 V)
theorem U2_arg2 : U2 V (Proc.devRef .tc main_arg2) = V (Proc.devRef .tc main_arg2) :=
  (U2_keep V main_arg2 (by decide)).trans (U1_arg2 V)
theorem U2_arg3 : U2 V (Proc.devRef .tc main_arg3) = V (Proc.devRef .tc main_arg3) :=
  (U2_keep V main_arg3 (by decide)).trans (U1_arg3 V)
theorem U2_arg4 : U2 V (Proc.devRef .tc main_arg4) = V (Proc.devRef .tc main_arg4) :=
  (U2_keep V main_arg4 (by decide)).trans (U1_arg4 V)
theorem U2_arg5 : U2 V (Proc.devRef .tc main_arg5) = V (Proc.devRef .tc main_arg5) :=
  (U2_keep V main_arg5 (by decide)).trans (U1_arg5 V)

/-- The contents after the third stretch. -/
def U3 : Valuation τ sig (Elt Ideal) := after (opsLeaky (F := Ideal)) (U2 V)
/-- A buffer the stretch does not write keeps its contents through it. -/
theorem U3_keep (r : Ref sig .tc) (h : r ∉ opsLeaky_W) : U3 V (Proc.devRef .tc r) = U2 V (Proc.devRef .tc r) :=
  after_of_writes_sub opsLeaky _ opsLeaky_writes h
theorem U3_arg0 : U3 V (Proc.devRef .tc main_arg0) = V (Proc.devRef .tc main_arg0) :=
  (U3_keep V main_arg0 (by decide)).trans (U2_arg0 V)
theorem U3_arg1 : U3 V (Proc.devRef .tc main_arg1) = V (Proc.devRef .tc main_arg1) :=
  (U3_keep V main_arg1 (by decide)).trans (U2_arg1 V)
theorem U3_arg2 : U3 V (Proc.devRef .tc main_arg2) = V (Proc.devRef .tc main_arg2) :=
  (U3_keep V main_arg2 (by decide)).trans (U2_arg2 V)
theorem U3_arg3 : U3 V (Proc.devRef .tc main_arg3) = V (Proc.devRef .tc main_arg3) :=
  (U3_keep V main_arg3 (by decide)).trans (U2_arg3 V)
theorem U3_arg4 : U3 V (Proc.devRef .tc main_arg4) = V (Proc.devRef .tc main_arg4) :=
  (U3_keep V main_arg4 (by decide)).trans (U2_arg4 V)
theorem U3_arg5 : U3 V (Proc.devRef .tc main_arg5) = V (Proc.devRef .tc main_arg5) :=
  (U3_keep V main_arg5 (by decide)).trans (U2_arg5 V)

/-- The contents after the fourth stretch. -/
def U4 : Valuation τ sig (Elt Ideal) := after (opsLogit (F := Ideal)) (U3 V)
/-- A buffer the stretch does not write keeps its contents through it. -/
theorem U4_keep (r : Ref sig .tc) (h : r ∉ opsLogit_W) : U4 V (Proc.devRef .tc r) = U3 V (Proc.devRef .tc r) :=
  after_of_writes_sub opsLogit _ opsLogit_writes h
theorem U4_arg0 : U4 V (Proc.devRef .tc main_arg0) = V (Proc.devRef .tc main_arg0) :=
  (U4_keep V main_arg0 (by decide)).trans (U3_arg0 V)
theorem U4_arg1 : U4 V (Proc.devRef .tc main_arg1) = V (Proc.devRef .tc main_arg1) :=
  (U4_keep V main_arg1 (by decide)).trans (U3_arg1 V)
theorem U4_arg2 : U4 V (Proc.devRef .tc main_arg2) = V (Proc.devRef .tc main_arg2) :=
  (U4_keep V main_arg2 (by decide)).trans (U3_arg2 V)
theorem U4_arg3 : U4 V (Proc.devRef .tc main_arg3) = V (Proc.devRef .tc main_arg3) :=
  (U4_keep V main_arg3 (by decide)).trans (U3_arg3 V)
theorem U4_arg4 : U4 V (Proc.devRef .tc main_arg4) = V (Proc.devRef .tc main_arg4) :=
  (U4_keep V main_arg4 (by decide)).trans (U3_arg4 V)
theorem U4_arg5 : U4 V (Proc.devRef .tc main_arg5) = V (Proc.devRef .tc main_arg5) :=
  (U4_keep V main_arg5 (by decide)).trans (U3_arg5 V)

/-- The contents after the fifth stretch. -/
def U5 : Valuation τ sig (Elt Ideal) := after (opsAtt (F := Ideal)) (U4 V)
/-- A buffer the stretch does not write keeps its contents through it. -/
theorem U5_keep (r : Ref sig .tc) (h : r ∉ opsAtt_W) : U5 V (Proc.devRef .tc r) = U4 V (Proc.devRef .tc r) :=
  after_of_writes_sub opsAtt _ opsAtt_writes h
theorem U5_arg0 : U5 V (Proc.devRef .tc main_arg0) = V (Proc.devRef .tc main_arg0) :=
  (U5_keep V main_arg0 (by decide)).trans (U4_arg0 V)
theorem U5_arg1 : U5 V (Proc.devRef .tc main_arg1) = V (Proc.devRef .tc main_arg1) :=
  (U5_keep V main_arg1 (by decide)).trans (U4_arg1 V)
theorem U5_arg2 : U5 V (Proc.devRef .tc main_arg2) = V (Proc.devRef .tc main_arg2) :=
  (U5_keep V main_arg2 (by decide)).trans (U4_arg2 V)
theorem U5_arg3 : U5 V (Proc.devRef .tc main_arg3) = V (Proc.devRef .tc main_arg3) :=
  (U5_keep V main_arg3 (by decide)).trans (U4_arg3 V)
theorem U5_arg4 : U5 V (Proc.devRef .tc main_arg4) = V (Proc.devRef .tc main_arg4) :=
  (U5_keep V main_arg4 (by decide)).trans (U4_arg4 V)
theorem U5_arg5 : U5 V (Proc.devRef .tc main_arg5) = V (Proc.devRef .tc main_arg5) :=
  (U5_keep V main_arg5 (by decide)).trans (U4_arg5 V)

/-- The contents after the sixth stretch. -/
def U6 : Valuation τ sig (Elt Ideal) := after (opsScatter (F := Ideal)) (U5 V)
/-- A buffer the stretch does not write keeps its contents through it. -/
theorem U6_keep (r : Ref sig .tc) (h : r ∉ opsScatter_W) : U6 V (Proc.devRef .tc r) = U5 V (Proc.devRef .tc r) :=
  after_of_writes_sub opsScatter _ opsScatter_writes h
theorem U6_arg0 : U6 V (Proc.devRef .tc main_arg0) = V (Proc.devRef .tc main_arg0) :=
  (U6_keep V main_arg0 (by decide)).trans (U5_arg0 V)
theorem U6_arg1 : U6 V (Proc.devRef .tc main_arg1) = V (Proc.devRef .tc main_arg1) :=
  (U6_keep V main_arg1 (by decide)).trans (U5_arg1 V)
theorem U6_arg2 : U6 V (Proc.devRef .tc main_arg2) = V (Proc.devRef .tc main_arg2) :=
  (U6_keep V main_arg2 (by decide)).trans (U5_arg2 V)
theorem U6_arg3 : U6 V (Proc.devRef .tc main_arg3) = V (Proc.devRef .tc main_arg3) :=
  (U6_keep V main_arg3 (by decide)).trans (U5_arg3 V)
theorem U6_arg4 : U6 V (Proc.devRef .tc main_arg4) = V (Proc.devRef .tc main_arg4) :=
  (U6_keep V main_arg4 (by decide)).trans (U5_arg4 V)
theorem U6_arg5 : U6 V (Proc.devRef .tc main_arg5) = V (Proc.devRef .tc main_arg5) :=
  (U6_keep V main_arg5 (by decide)).trans (U5_arg5 V)

/-- The contents after the seventh stretch. -/
def U7 : Valuation τ sig (Elt Ideal) := after (opsTail (F := Ideal)) (U6 V)
/-- A buffer the stretch does not write keeps its contents through it. -/
theorem U7_keep (r : Ref sig .tc) (h : r ∉ opsTail_W) : U7 V (Proc.devRef .tc r) = U6 V (Proc.devRef .tc r) :=
  after_of_writes_sub opsTail _ opsTail_writes h
theorem U7_arg0 : U7 V (Proc.devRef .tc main_arg0) = V (Proc.devRef .tc main_arg0) :=
  (U7_keep V main_arg0 (by decide)).trans (U6_arg0 V)
theorem U7_arg1 : U7 V (Proc.devRef .tc main_arg1) = V (Proc.devRef .tc main_arg1) :=
  (U7_keep V main_arg1 (by decide)).trans (U6_arg1 V)
theorem U7_arg2 : U7 V (Proc.devRef .tc main_arg2) = V (Proc.devRef .tc main_arg2) :=
  (U7_keep V main_arg2 (by decide)).trans (U6_arg2 V)
theorem U7_arg3 : U7 V (Proc.devRef .tc main_arg3) = V (Proc.devRef .tc main_arg3) :=
  (U7_keep V main_arg3 (by decide)).trans (U6_arg3 V)
theorem U7_arg4 : U7 V (Proc.devRef .tc main_arg4) = V (Proc.devRef .tc main_arg4) :=
  (U7_keep V main_arg4 (by decide)).trans (U6_arg4 V)
theorem U7_arg5 : U7 V (Proc.devRef .tc main_arg5) = V (Proc.devRef .tc main_arg5) :=
  (U7_keep V main_arg5 (by decide)).trans (U6_arg5 V)

end Stages

end Cert.ReferenceIdeal.RefVal

end
-- ==== Proof.RArgs.lean ====
/-
  The reference program's six argument arrays on core c, each named at its literal type.
-/
import proofs.«425987_j59854664237659_2_alg».proof.ReferenceIdeal
import proofs.«425987_j59854664237659_2_alg».proof.Proof.Spec

noncomputable section

namespace Cert.ReferenceIdeal.Args

open Cert.ReferenceIdeal Cert.EdgeAttn Idealize.ShloMosaic Idealize.ShloMosaic.TcCoe Idealize.SL.Sem

variable (m : (ℓ : Loc nD τ sig) → Buf (Elt Ideal) ℓ)

/-- node features -/
abbrev ax (c : Dev nD) : SNH.Idx → EReal := m ((c.tc : Thread nD τ).loc main_arg0)
/-- edge endpoints: row 0 the sources, row 1 the targets -/
abbrev aei (c : Dev nD) : IVec S2E 32 := m ((c.tc : Thread nD τ).loc main_arg1)
/-- edge distances -/
abbrev adist (c : Dev nD) : IVec SE 32 := m ((c.tc : Thread nD τ).loc main_arg2)
/-- first weight matrix -/
abbrev aW1 (c : Dev nD) : SW1.Idx → EReal := m ((c.tc : Thread nD τ).loc main_arg3)
/-- second weight matrix -/
abbrev aW2 (c : Dev nD) : SW2.Idx → EReal := m ((c.tc : Thread nD τ).loc main_arg4)
/-- distance embedding table -/
abbrev atab (c : Dev nD) : STab.Idx → EReal := m ((c.tc : Thread nD τ).loc main_arg5)

end Cert.ReferenceIdeal.Args

end
-- ==== Proof.DimsFacts.lean ====
/-
  A row gather (jnp's x[idx] / jnp.take along axis 0) read at an index, and the accumulating row scatter
  (segment_sum) as a function of the rows it keeps: an update whose index is no row of the operand is dropped.
-/
import Idealize.ShloMosaic.PureOps
import Idealize.ShloMosaic.PureOps.Ideal
import Idealize.ShloMosaic.Lib.ValueIdx
import Idealize.ShloMosaic.Lib.StableHlo.Predicate

noncomputable section

namespace Cert.EdgeAttn

open Idealize.ShloMosaic Idealize.ShloMosaic.ValueIdx

/-- The dimension numbers of a row gather: operand [N, H], one start index per result row, slices [1, H]. -/
abbrev rowGather (N H n : ℕ) (wf : GatherDims.WF ⟨2, ![N, H]⟩ ⟨2, ![n, 1]⟩ ⟨2, ![n, H]⟩ [1] [0] [] [0] [] 1 ![1, H]) :
    GatherDims ⟨2, ![N, H]⟩ ⟨2, ![n, 1]⟩ ⟨2, ![n, H]⟩ where
  offsetDims := [1]
  collapsedSliceDims := [0]
  operandBatchingDims := []
  startIndicesBatchingDims := []
  startIndexMap := [0]
  indexVectorDim := 1
  sliceSizes := ![1, H]
  wf := wf

/-- Result row e of a row gather whose start index is the row r of the operand IS that row. -/
theorem gather_row {α : Type} (N H n : ℕ) (wf : GatherDims.WF ⟨2, ![N, H]⟩ ⟨2, ![n, 1]⟩ ⟨2, ![n, H]⟩ [1] [0] [] [0] [] 1 ![1, H])
    (x : (⟨2, ![N, H]⟩ : Shape).Idx → α) (idx : IVec ⟨2, ![n, 1]⟩ 32) (e : Fin n) (k : Fin H) (r : ℕ) (hr : r < N)
    (h : (idx (ix2 e (0 : Fin 1))).toInt = (r : ℤ)) :
    Host.gather (rowGather N H n wf) x idx (ix2 e k) = x (ix2 ⟨r, hr⟩ k) := by
  -- the read is the operand at the operand index; compare the two indices axis by axis
  unfold Host.gather
  congr 1
  funext a
  refine Fin.ext ?_
  match a with
  | ⟨0, _⟩ =>
    -- the row axis: collapsed and not batching, so only the clamped start counts
    show (rowGather N H n wf).start (ix2 e k) idx 0 + (rowGather N H n wf).batchCoord (ix2 e k) 0
      + (rowGather N H n wf).offCoord (ix2 e k) 0 = r
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowGather N H n wf).startIndexMap from List.mem_singleton.mpr rfl)]
    -- the start index of result row e is the word at (e, 0)
    have hsi : (rowGather N H n wf).siIdx (ix2 e k) ⟨List.idxOf (0 : Fin 2) (rowGather N H n wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi, h]
    -- r ≤ N − 1: the clamp into [0, N − 1] is the identity
    show min (r : ℤ).toNat (N - 1) = r
    rw [Int.toNat_natCast]
    omega
  | ⟨1, _⟩ =>
    -- the column axis: no start index, not batching; it is the one offset axis, read at k
    show (rowGather N H n wf).start (ix2 e k) idx 1 + (rowGather N H n wf).batchCoord (ix2 e k) 1
      + (rowGather N H n wf).offCoord (ix2 e k) 1 = k.val
    rw [GatherDims.batchCoord_eq_zero _ _ _ List.not_mem_nil]
    unfold GatherDims.start
    rw [dif_neg (show (1 : Fin 2) ∉ (rowGather N H n wf).startIndexMap from
      fun hm => absurd (List.mem_singleton.mp hm) (show (1 : Fin 2) ≠ 0 by decide))]
    simp only [Nat.add_zero, Nat.zero_add]
    rfl

/-- The dimension numbers of the row scatter: operand [N, H], one row index per update row. -/
abbrev rowScatter (N H n : ℕ) (wf : ScatterDims.WF ⟨2, ![N, H]⟩ ⟨2, ![n, 1]⟩ ⟨2, ![n, H]⟩ [1] [0] [0] 1) :
    ScatterDims ⟨2, ![N, H]⟩ ⟨2, ![n, 1]⟩ ⟨2, ![n, H]⟩ where
  updateWindowDims := [1]
  insertedWindowDims := [0]
  scatterDimsToOperandDims := [0]
  indexVectorDim := 1
  wf := wf

/-- On the row axis the landing position of the update at (e, k) is row e's index word read signed: the window
    coordinate there is zero (the row axis is the inserted one), and the start index is the word at (e, 0). -/
theorem rowScatter_axis0 (N H n : ℕ) (wf : ScatterDims.WF ⟨2, ![N, H]⟩ ⟨2, ![n, 1]⟩ ⟨2, ![n, H]⟩ [1] [0] [0] 1)
    (idx : IVec ⟨2, ![n, 1]⟩ 32) (e : Fin n) (k : Fin H) :
    (rowScatter N H n wf).start (ix2 e k) idx 0 + ((rowScatter N H n wf).window (ix2 e k) 0 : ℤ)
      = (idx (ix2 e (0 : Fin 1))).toInt := by
  have hw : (rowScatter N H n wf).window (ix2 e k) 0 = 0 := by
    unfold ScatterDims.window
    rw [dif_neg]
    intro hm
    have := (List.mem_filter.mp hm).2
    simp at this
  rw [hw]
  unfold ScatterDims.start
  rw [dif_pos (show (0 : Fin 2) ∈ (rowScatter N H n wf).scatterDimsToOperandDims from List.mem_singleton.mpr rfl)]
  have hsi : (rowScatter N H n wf).siIdx (ix2 e k) ⟨List.idxOf (0 : Fin 2) (rowScatter N H n wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  simp

/-- The accumulating row scatter depends on the update rows whose index is a row of the operand, and on no other. -/
theorem scatterAdd_congr_rows (N H n : ℕ) (wf : ScatterDims.WF ⟨2, ![N, H]⟩ ⟨2, ![n, 1]⟩ ⟨2, ![n, H]⟩ [1] [0] [0] 1)
    (x : (⟨2, ![N, H]⟩ : Shape).Idx → EReal) (idx : IVec ⟨2, ![n, 1]⟩ 32) (u u' : (⟨2, ![n, H]⟩ : Shape).Idx → EReal)
    (h : ∀ e : Fin n, (0 ≤ (idx (ix2 e (0 : Fin 1))).toInt ∧ (idx (ix2 e (0 : Fin 1))).toInt < (N : ℤ)) →
      ∀ k : Fin H, u (ix2 e k) = u' (ix2 e k)) :
    Ideal.hostScatterAdd (rowScatter N H n wf) x idx u = Ideal.hostScatterAdd (rowScatter N H n wf) x idx u' := by
  -- the two sums run over the same update indices; a summand that lands at i has its row index inside [0, N)
  funext i
  unfold Ideal.hostScatterAdd
  refine congrArg (x i + ·) (Finset.sum_congr rfl ?_)
  intro j hj
  have hres := (Finset.mem_filter.mp hj).2
  obtain ⟨e, k, rfl⟩ : ∃ (e : Fin n) (k : Fin H), j = ix2 e k := ⟨j 0, j 1, eq_ix2 j⟩
  apply h e _ k
  -- landing somewhere means every axis is in range; the row axis reads the index word
  unfold ScatterDims.resultIdx? at hres
  split at hres
  · next hall =>
    have h0 := hall 0
    rw [rowScatter_axis0] at h0
    exact h0
  · exact absurd hres (by simp)

end Cert.EdgeAttn

end
-- ==== Proof.IdxVec.lean ====
/-
  The target-index column both programs scatter along: row 1 of the edge endpoints, one index per edge.
-/
import Idealize.ShloMosaic.PureOps
import Idealize.ShloMosaic.Lib.ValueIdx
import Idealize.ShloMosaic.Lib.Pipeline.Value
import proofs.«425987_j59854664237659_2_alg».proof.Proof.Spec

noncomputable section

namespace Cert.EdgeAttn

open Idealize.ShloMosaic Idealize.ShloMosaic.ValueIdx

abbrev S1E : Shape := ⟨2, ![1, 800000]⟩

theorem slices_row0 : S2E.Slices ![0, 0] S1E := by decide
theorem slices_row1 : S2E.Slices ![1, 0] S1E := by decide
theorem casts_1E_E : S1E.ShapeCasts SE := by decide
theorem bcast_E_E1 : SE.BroadcastsInDim SE1 (![0] : Fin 1 → Fin SE1.rank) := by decide

/-- Row 0 (the source indices) and row 1 (the target indices) of the edge endpoints as vectors over the edges. -/
def srcRowVec (ei : IVec S2E 32) : IVec SE 32 := shapeCast SE (extractStridedSlice S1E ![0, 0] ei slices_row0) casts_1E_E
def tgtRowVec (ei : IVec S2E 32) : IVec SE 32 := shapeCast SE (extractStridedSlice S1E ![1, 0] ei slices_row1) casts_1E_E

/-- The target indices as the one-column index array the scatter takes. -/
def tgtVec (ei : IVec S2E 32) : IVec SE1 32 := broadcastInDim SE1 ![0] bcast_E_E1 (tgtRowVec ei)

/-- A slice of one row of the [2, E] array, viewed as a vector over the edges, reads that row's word at e:
    the reshape keeps the row-major position (0 · E + e = e), the slice shifts the row coordinate by its offset. -/
theorem rowVec_apply (ei : IVec S2E 32) (r : Fin 2) (off : Fin S2E.rank → Nat) (hoff0 : off 0 = r.val) (hoff1 : off 1 = 0)
    (hs : S2E.Slices off S1E) (e : Fin 800000) :
    shapeCast SE (extractStridedSlice S1E off ei hs) casts_1E_E (ix1 e) = ei (ix2 r e) := by
  refine (shapeCast_apply _ casts_1E_E (ix1 e) (ix2 (0 : Fin 1) e) ?_).trans ?_
  · rw [Shape.rowMajor_val_two, Shape.rowMajor_val_one]
    show (0 : ℕ) * 800000 + e.val = e.val
    omega
  · refine extractStridedSlice_apply off ei hs (ix2 (0 : Fin 1) e) (ix2 r e) fun a => ?_
    match a with
    | ⟨0, _⟩ => show r.val = off 0 + 0; omega
    | ⟨1, _⟩ => show e.val = off 1 + e.val; omega

theorem srcRowVec_apply (ei : IVec S2E 32) (e : Fin 800000) : srcRowVec ei (ix1 e) = srcIx ei e :=
  rowVec_apply ei (0 : Fin 2) ![0, 0] rfl rfl slices_row0 e

theorem tgtRowVec_apply (ei : IVec S2E 32) (e : Fin 800000) : tgtRowVec ei (ix1 e) = tgtIx ei e :=
  rowVec_apply ei (1 : Fin 2) ![1, 0] rfl rfl slices_row1 e

/-- A vector as an [n, 1] column reads, at (p, 0), the vector's entry p (the broadcast names axis 0). -/
theorem bcast_col_ix {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  refine broadcastInDim_apply _ h₁ v _ (ix1 p) fun a => ?_
  have ha : a = 0 := Subsingleton.elim _ _
  subst ha
  have hp := p.isLt
  split
  · next h1 => change n = 1 at h1; show p.val = 0; omega
  · rfl

theorem tgtVec_apply (ei : IVec S2E 32) (e : Fin 800000) : tgtVec ei (ix2 e (0 : Fin 1)) = tgtIx ei e :=
  (bcast_col_ix bcast_E_E1 (tgtRowVec ei) e).trans (tgtRowVec_apply ei e)

end Cert.EdgeAttn

end
-- ==== Proof.IntFacts.lean ====
/-
  Facts about 32-bit index words: jnp's floor division by 50, its index normalisation (v + N where v < 0) and
  jnp.take's in-bounds mask bit, on words in range.
-/
import Idealize.ShloMosaic.PureOps
import Idealize.ShloMosaic.Lib.StableHlo.Predicate

noncomputable section

namespace Cert.EdgeAttn

open Idealize.ShloMosaic

/-- The sign word of an i32 (0, 1 or -1). -/
def sgn (v : BitVec 32) : BitVec 32 := if v = 0 then 0 else if v.msb then -1 else 1

/-- Floor division by 50 as jnp spells it: the truncated quotient, less one where the signs differ and the remainder is not zero. -/
def fdiv50 (d : BitVec 32) : BitVec 32 :=
  Scalar.select (IntOp.andi (IntOp.cmpi .ne (sgn d) (sgn 50#32)) (IntOp.cmpi .ne (IntOp.remsi .host d 50#32) 0#32))
    (IntOp.subi (IntOp.divsi .host d 50#32) 1#32) (IntOp.divsi .host d 50#32)

/-- Index normalisation: v + N where v < 0. -/
def normIx (N v : BitVec 32) : BitVec 32 := Scalar.select (IntOp.cmpi .slt v 0#32) (IntOp.addi v N) v

/-- jnp.take's in-bounds bit: 0 ≤ v ≤ top. -/
def inb (top v : BitVec 32) : BitVec 1 := IntOp.andi (IntOp.cmpi .sge v 0#32) (IntOp.cmpi .sle v top)

/-- A word whose signed reading is non-negative has a clear sign bit: it is below 2³¹ and reads the same
    signed and unsigned. -/
theorem nonneg_word (v : BitVec 32) (h : 0 ≤ v.toInt) : v.toNat < 2 ^ 31 ∧ v.toInt = v.toNat := by
  have hlt := v.isLt
  rw [BitVec.toInt_eq_toNat_cond] at h ⊢
  by_cases hc : 2 * v.toNat < 2 ^ 32
  · rw [if_pos hc] at h ⊢; omega
  · rw [if_neg hc] at h; omega

/-- Fifty is neither zero nor minus one: the signed division by it meets no corner. -/
theorem no_corner50 (d : BitVec 32) : ¬ IntOp.SDivCorner d 50#32 := by
  intro hc; rcases hc with hc | ⟨_, hc⟩ <;> exact absurd hc (by decide)

/-- The truncated quotient of a non-negative word by 50 is the quotient of its value. -/
theorem divsi50 (d : BitVec 32) (hd : d.toNat < 2 ^ 31) :
    IntOp.divsi .host d 50#32 = BitVec.ofNat 32 (d.toNat / 50) := by
  have hm : d.msb = false := BitVec.msb_eq_false_iff_two_mul_lt.mpr (by omega)
  apply BitVec.eq_of_toNat_eq
  simp only [IntOp.divsi, if_neg (no_corner50 d), BitVec.sdiv_eq, hm, show (50#32 : BitVec 32).msb = false from by decide,
    BitVec.udiv_eq, BitVec.toNat_udiv, BitVec.toNat_ofNat, Nat.reducePow, Nat.reduceMod]
  omega

/-- The signed remainder of a non-negative word by 50 is the remainder of its value. -/
theorem remsi50 (d : BitVec 32) (hd : d.toNat < 2 ^ 31) :
    IntOp.remsi .host d 50#32 = BitVec.ofNat 32 (d.toNat % 50) := by
  have hm : d.msb = false := BitVec.msb_eq_false_iff_two_mul_lt.mpr (by omega)
  apply BitVec.eq_of_toNat_eq
  simp only [IntOp.remsi, if_neg (no_corner50 d), BitVec.srem_eq, hm, show (50#32 : BitVec 32).msb = false from by decide,
    BitVec.umod_eq, BitVec.toNat_umod, BitVec.toNat_ofNat, Nat.reducePow, Nat.reduceMod]
  omega

theorem sgn50 : sgn 50#32 = 1#32 := by decide

/-- The sign word of a positive word is one. -/
theorem sgn_pos (d : BitVec 32) (hz : d ≠ 0) (hd : d.toNat < 2 ^ 31) : sgn d = 1#32 := by
  have hm : d.msb = false := BitVec.msb_eq_false_iff_two_mul_lt.mpr (by omega)
  unfold sgn
  rw [if_neg hz, hm]; rfl

/-- On a non-negative word the floor correction never fires: either the word is zero, and so is its remainder,
    or its sign is that of 50. -/
theorem no_correction (d : BitVec 32) (hd : d.toNat < 2 ^ 31) :
    IntOp.andi (IntOp.cmpi .ne (sgn d) (sgn 50#32)) (IntOp.cmpi .ne (IntOp.remsi .host d 50#32) 0#32) = 0#1 := by
  by_cases hz : d = 0
  · have hr : IntOp.remsi .host d 50#32 = 0#32 := by rw [remsi50 d hd, hz]; rfl
    rw [hr]
    have : IntOp.cmpi .ne (0#32) (0#32) = 0#1 := by decide
    rw [this]; unfold IntOp.andi; exact BitVec.and_zero
  · rw [sgn_pos d hz hd, sgn50]
    have : IntOp.cmpi .ne (1#32) (1#32) = 0#1 := by decide
    rw [this]; unfold IntOp.andi; exact BitVec.zero_and

theorem toNat_of_range (N : ℕ) (hN : N < 2 ^ 31) (v : BitVec 32) (h : 0 ≤ v.toInt ∧ v.toInt < N) :
    v.toNat < N ∧ v.toInt = v.toNat := by
  obtain ⟨_, h2⟩ := nonneg_word v h.1
  refine ⟨?_, h2⟩
  have h3 := h.2
  rw [h2] at h3
  exact_mod_cast h3

theorem fdiv50_eq (d : BitVec 32) (h : 0 ≤ d.toInt ∧ d.toInt < 1000) : fdiv50 d = BitVec.ofNat 32 (d.toNat / 50) := by
  obtain ⟨hd, _⟩ := nonneg_word d h.1
  unfold fdiv50
  rw [no_correction d hd, divsi50 d hd]
  unfold Scalar.select
  rw [if_neg (by decide)]

theorem fdiv50_range (d : BitVec 32) (h : 0 ≤ d.toInt ∧ d.toInt < 1000) :
    0 ≤ (fdiv50 d).toInt ∧ (fdiv50 d).toInt < 20 ∧ (fdiv50 d).toNat = d.toNat / 50 := by
  obtain ⟨hlt, _⟩ := toNat_of_range 1000 (by decide) d h
  have hq : d.toNat / 50 < 20 := by omega
  have hn : (fdiv50 d).toNat = d.toNat / 50 := by
    rw [fdiv50_eq d h, BitVec.toNat_ofNat]; omega
  have hi : (fdiv50 d).toInt = ((fdiv50 d).toNat : ℤ) :=
    StableHlo.Predicate.toInt_eq_toNat_of_lt (by omega)
  refine ⟨?_, ?_, hn⟩ <;> rw [hi, hn] <;> omega

theorem normIx_of_range (N : ℕ) (hN : N < 2 ^ 31) (v : BitVec 32) (h : 0 ≤ v.toInt ∧ v.toInt < N) :
    normIx (BitVec.ofNat 32 N) v = v := by
  obtain ⟨hd, _⟩ := nonneg_word v h.1
  have hneg : ¬ IntOp.cmpi .slt v 0#32 = 1#1 := by
    rw [StableHlo.Predicate.slt_iff_toNat hd (by decide)]
    exact Nat.not_lt_zero _
  unfold normIx Scalar.select
  exact if_neg hneg

theorem inb_of_range (N : ℕ) (hN : 0 < N ∧ N < 2 ^ 31) (v : BitVec 32) (h : 0 ≤ v.toInt ∧ v.toInt < N) :
    inb (BitVec.ofNat 32 (N - 1)) v = 1#1 := by
  obtain ⟨hd, _⟩ := nonneg_word v h.1
  obtain ⟨hlt, _⟩ := toNat_of_range N hN.2 v h
  have htop : (BitVec.ofNat 32 (N - 1)).toNat = N - 1 := by
    rw [BitVec.toNat_ofNat]; omega
  have hge : IntOp.cmpi .sge v 0#32 = 1#1 :=
    (StableHlo.Predicate.sge_iff_toNat hd (by decide)).mpr (Nat.zero_le _)
  have hle : IntOp.cmpi .sle v (BitVec.ofNat 32 (N - 1)) = 1#1 :=
    (StableHlo.Predicate.sle_iff_toNat hd (by rw [htop]; omega)).mpr (by rw [htop]; omega)
  unfold inb
  rw [hge, hle]; rfl

end Cert.EdgeAttn

end
-- ==== Proof.RTerms.lean ====
/-
  The reference program's values as functions of its six argument arrays: the distance bucket, the two gathered
  feature rows, the hidden layer, the attention weight, the weighted source row and the node-wise normalisation,
  each the composition of the library operations the program applies, in the program's order; and each read at an
  index as the specification's closed form.
-/
import proofs.«425987_j59854664237659_2_alg».proof.Proof.Gen.ReferenceIdeal
import proofs.«425987_j59854664237659_2_alg».proof.Proof.Spec
import proofs.«425987_j59854664237659_2_alg».proof.Proof.IntFacts
import proofs.«425987_j59854664237659_2_alg».proof.Proof.DimsFacts
import proofs.«425987_j59854664237659_2_alg».proof.Proof.IdxVec
import Idealize.ShloMosaic.Lib.ValueIdx
import Idealize.ShloMosaic.Lib.Pipeline.Value
import Idealize.ShloMosaic.Lib.StableHlo.Predicate
import Idealize.ShloMosaic.PureOps.Ideal
import Idealize.ShloMosaic.PureOps.Ideal.Laws
import Idealize.ShloMosaic.Lib.IdealHost
import Idealize.ShloMosaic.Lib.StackMember

noncomputable section

namespace Cert.ReferenceIdeal.RefTerms

open Cert.ReferenceIdeal Cert.ReferenceIdeal.Facts₀ Cert.EdgeAttn Idealize.ShloMosaic Idealize.ShloMosaic.ValueIdx

/-! ## The program's values -/

/-- ⌊dist / 50⌋ as the program spells it: the truncated quotient, less one where the signs of the operands differ
    and the remainder is not zero. -/
def refBucket (dist : IVec SE 32) : IVec S800000 32 :=
  select
    (andi
      (cmpi .ne (signi dist) (broadcastInDim S800000 ![] bcast_S_S800000 (signi (id (constantI S_ 32 50#32)))))
      (cmpi .ne (Host.remsi dist (broadcastInDim S800000 ![] bcast_S_S800000 (id (constantI S_ 32 50#32))))
        (broadcastInDim S800000 ![] bcast_S_S800000 (constantI S_ 32 0#32))))
    (subi (Host.divsi dist (broadcastInDim S800000 ![] bcast_S_S800000 (id (constantI S_ 32 50#32))))
      (broadcastInDim S800000 ![] bcast_S_S800000 (constantI S_ 32 1#32)))
    (Host.divsi dist (broadcastInDim S800000 ![] bcast_S_S800000 (id (constantI S_ 32 50#32))))

/-- Row 0 (the sources) and row 1 (the targets) of the edge endpoints, as vectors over the edges. -/
def refRow0 (ei : IVec S2E 32) : IVec S800000 32 :=
  shapeCast S800000 (extractStridedSlice S1x800000 ![0, 0] ei slices_S2x800000_S1x800000_0_0) shapeCasts_S1x800000_S800000
def refRow1 (ei : IVec S2E 32) : IVec S800000 32 :=
  shapeCast S800000 (extractStridedSlice S1x800000 ![1, 0] ei slices_S2x800000_S1x800000_1_0) shapeCasts_S1x800000_S800000

/-- An index vector normalised (v + N where v < 0) and set up as the one-column start-index array of a row gather. -/
def normCol (N : BitVec 32) (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 N))) s)

/-- The source and the target feature row of every edge. -/
def refSrc (x : SNH.Idx → EReal) (ei : IVec S2E 32) : FVec Ideal S800000x128 .f32 :=
  Host.gather gather_S50000x128_S800000x1_S800000x128_1_0_n_n_0_1_1128 x (normCol 50000#32 (refRow0 ei))
def refTgt (x : SNH.Idx → EReal) (ei : IVec S2E 32) : FVec Ideal S800000x128 .f32 :=
  Host.gather gather_S50000x128_S800000x1_S800000x128_1_0_n_n_0_1_1128 x (normCol 50000#32 (refRow1 ei))

/-- The hidden pre-activation: the concatenated rows against the first weight matrix. -/
def refPre (x : SNH.Idx → EReal) (ei : IVec S2E 32) (W1 : SW1.Idx → EReal) : FVec Ideal S800000x128 .f32 :=
  Host.dotGeneral (F := Ideal) (φ₁ := .f32) (φ₂ := .f32) dot_S800000x256_S256x128_S800000x128_1_0_0_1_n_n none
    (concatenate S800000x256 1 [⟨S800000x128, refSrc x ei⟩, ⟨S800000x128, refTgt x ei⟩]
      concatenates_S800000x128_S800000x128_S800000x256_d1 : FVec Ideal S800000x256 .f32) (W1 : FVec Ideal S256x128 .f32)

/-- The hidden layer: leaky relu of the pre-activation. -/
def refHid (x : SNH.Idx → EReal) (ei : IVec S2E 32) (W1 : SW1.Idx → EReal) : FVec Ideal S800000x128 .f32 :=
  select
    (cmpf .oge (refPre x ei W1) (broadcastInDim S800000x128 ![] bcast_S_S800000x128 (constant (F := Ideal) S_ .f32 0x00000000#32)))
    (refPre x ei W1)
    (mulf (broadcastInDim S800000x128 ![] bcast_S_S800000x128 (id (constant (F := Ideal) S_ .f32 0x3E4CCCCD#32))) (refPre x ei W1))

/-- The distance embedding row of every edge. -/
def refEmb (dist : IVec SE 32) (tab : STab.Idx → EReal) : FVec Ideal S800000x128 .f32 :=
  Host.gather gather_S20x128_S800000x1_S800000x128_1_0_n_n_0_1_1128 tab (normCol 20#32 (refBucket dist))

/-- The attention logit: the hidden layer and the distance embedding, concatenated, against the second weight matrix. -/
def refLogit (x : SNH.Idx → EReal) (ei : IVec S2E 32) (dist : IVec SE 32) (W1 : SW1.Idx → EReal) (W2 : SW2.Idx → EReal)
    (tab : STab.Idx → EReal) : FVec Ideal S800000x1 .f32 :=
  Host.dotGeneral (F := Ideal) (φ₁ := .f32) (φ₂ := .f32) dot_S800000x256_S256x1_S800000x1_1_0_0_1_n_n none
    (concatenate S800000x256 1 [⟨S800000x128, refHid x ei W1⟩, ⟨S800000x128, refEmb dist tab⟩]
      concatenates_S800000x128_S800000x128_S800000x256_d1 : FVec Ideal S800000x256 .f32) (W2 : FVec Ideal S256x1 .f32)

/-- The attention weight: exp of the logistic function of the logit, 1 / (1 + exp (-a)) spelled out. -/
def refAtt (x : SNH.Idx → EReal) (ei : IVec S2E 32) (dist : IVec SE 32) (W1 : SW1.Idx → EReal) (W2 : SW2.Idx → EReal)
    (tab : STab.Idx → EReal) : FVec Ideal S800000x1 .f32 :=
  Host.exp
    (Host.divf (broadcastInDim S800000x1 ![] bcast_S_S800000x1 (constant (F := Ideal) S_ .f32 0x3F800000#32))
      (addf (broadcastInDim S800000x1 ![] bcast_S_S800000x1 (constant (F := Ideal) S_ .f32 0x3F800000#32))
        (Host.exp (Host.negf (refLogit x ei dist W1 W2 tab)))))

/-- The weighted source row. -/
def refSrcw (x : SNH.Idx → EReal) (ei : IVec S2E 32) (dist : IVec SE 32) (W1 : SW1.Idx → EReal) (W2 : SW2.Idx → EReal)
    (tab : STab.Idx → EReal) : FVec Ideal S800000x128 .f32 :=
  mulf (refSrc x ei) (broadcastInDim S800000x128 ![0, 1] bcast_S800000x1_S800000x128_0_1 (refAtt x ei dist W1 W2 tab))

/-- The node-wise normalisation and relu of the two accumulators. -/
def refTail (agg : FVec Ideal S50000x128 .f32) (attagg : FVec Ideal S50000x1 .f32) : FVec Ideal S50000x128 .f32 :=
  maximumf
    (Host.divf agg
      (broadcastInDim S50000x128 ![0, 1] bcast_S50000x1_S50000x128_0_1
        (addf attagg (broadcastInDim S50000x1 ![] bcast_S_S50000x1 (constant (F := Ideal) S_ .f32 0x358637BD#32)))))
    (broadcastInDim S50000x128 ![] bcast_S_S50000x128 (constant (F := Ideal) S_ .f32 0x00000000#32))

/-! ## Layout operations read at an index -/

/-- A column laid along the rows of a rectangle reads, at (p, q), the column's entry p. -/
theorem col_apply {α : Type} {n m : Nat} (h₂ : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h₂ v (ix2 p q) = v (ix2 p (0 : Fin 1)) := by
  refine broadcastInDim_apply _ h₂ v (ix2 p q) (ix2 p (0 : Fin 1)) fun a => ?_
  match a with
  | ⟨0, _⟩ =>
    show p.val = if n = 1 then 0 else p.val
    have := p.isLt
    split <;> omega
  | ⟨1, _⟩ =>
    show (0 : ℕ) = if (1 : ℕ) = 1 then 0 else q.val
    rw [if_pos rfl]

/-- A vector over the edges set up as a one-column array reads, at row e, the vector's entry e. -/
theorem vecCol_apply {α : Type} (v : S800000.Idx → α) (e : Fin 800000) :
    broadcastInDim S800000x1 ![0] bcast_S800000_S800000x1_0 v (ix2 e (0 : Fin 1)) = v (ix1 e) := by
  refine broadcastInDim_apply (![0] : Fin 1 → Fin S800000x1.rank) bcast_S800000_S800000x1_0 v (ix2 e (0 : Fin 1)) (ix1 e) fun a => ?_
  match a with
  | ⟨0, _⟩ =>
    have h1 : ¬ S800000.size (⟨0, by decide⟩ : Fin 1) = 1 := by decide
    rw [if_neg h1]
    rfl

/-- A sum over 256 positions is the sum over its lower half plus the sum over its upper half. -/
theorem sum_halves {M : Type} [AddCommMonoid M] (f : Fin 256 → M) :
    ∑ c : Fin 256, f c = (∑ k : Fin 128, f (lo k)) + ∑ k : Fin 128, f (hi k) :=
  Fin.sum_univ_add (a := 128) (b := 128) f

/-! ## The index words -/

theorem refBucket_apply (dist : IVec SE 32) (e : Fin 800000) : refBucket dist (ix1 e) = fdiv50 (dist (ix1 e)) := rfl

theorem refRow0_apply (ei : IVec S2E 32) (e : Fin 800000) : refRow0 ei (ix1 e) = srcIx ei e := srcRowVec_apply ei e

theorem refRow1_apply (ei : IVec S2E 32) (e : Fin 800000) : refRow1 ei (ix1 e) = tgtIx ei e := tgtRowVec_apply ei e

theorem normCol_apply (N : BitVec 32) (s : IVec S800000 32) (e : Fin 800000) :
    normCol N s (ix2 e (0 : Fin 1)) = normIx N (s (ix1 e)) := by
  unfold normCol
  rw [vecCol_apply]
  rfl

/-! ## The gathers -/

/-- A row of the node table gathered at a normalised in-range index word is that row. -/
theorem gatherX_apply (x : SNH.Idx → EReal) (s : IVec S800000 32) (e : Fin 800000)
    (hs : 0 ≤ (s (ix1 e)).toInt ∧ (s (ix1 e)).toInt < 50000) (k : Fin 128) :
    Host.gather gather_S50000x128_S800000x1_S800000x128_1_0_n_n_0_1_1128 x (normCol 50000#32 s) (ix2 e k)
      = xrow x (s (ix1 e)).toNat k := by
  obtain ⟨hlt, hint⟩ := toNat_of_range 50000 (by norm_num) (s (ix1 e)) hs
  have hidx : (normCol 50000#32 s (ix2 e (0 : Fin 1))).toInt = (((s (ix1 e)).toNat : ℕ) : ℤ) := by
    rw [normCol_apply, normIx_of_range 50000 (by norm_num) _ hs, hint]
  have hg := gather_row 50000 128 800000 gather_S50000x128_S800000x1_S800000x128_1_0_n_n_0_1_1128_wf x
    (normCol 50000#32 s) e k (s (ix1 e)).toNat hlt hidx
  simp only [xrow, dif_pos hlt]
  exact hg

/-- A row of the embedding table gathered at a normalised in-range index word is that row. -/
theorem gatherTab_apply (tab : STab.Idx → EReal) (s : IVec S800000 32) (e : Fin 800000)
    (hs : 0 ≤ (s (ix1 e)).toInt ∧ (s (ix1 e)).toInt < 20) (k : Fin 128) (hlt : (s (ix1 e)).toNat < 20) :
    Host.gather gather_S20x128_S800000x1_S800000x128_1_0_n_n_0_1_1128 tab (normCol 20#32 s) (ix2 e k)
      = tab (ix2 ⟨(s (ix1 e)).toNat, hlt⟩ k) := by
  obtain ⟨_, hint⟩ := toNat_of_range 20 (by norm_num) (s (ix1 e)) hs
  have hidx : (normCol 20#32 s (ix2 e (0 : Fin 1))).toInt = (((s (ix1 e)).toNat : ℕ) : ℤ) := by
    rw [normCol_apply, normIx_of_range 20 (by norm_num) _ hs, hint]
  exact gather_row 20 128 800000 gather_S20x128_S800000x1_S800000x128_1_0_n_n_0_1_1128_wf tab
    (normCol 20#32 s) e k (s (ix1 e)).toNat hlt hidx

/-! ## The two concatenations and the two contractions -/

/-- The concatenation of two 128-wide row blocks reads the first block at a column of the lower half … -/
theorem cat_lo (A B : FVec Ideal S800000x128 .f32) (e : Fin 800000) (k : Fin 128) :
    concatenate S800000x256 1 [⟨S800000x128, A⟩, ⟨S800000x128, B⟩] concatenates_S800000x128_S800000x128_S800000x256_d1
      (ix2 e (lo k)) = A (ix2 e k) := by
  refine concatenate_pair_apply_left (1 : Fin S800000x256.rank) A B concatenates_S800000x128_S800000x128_S800000x256_d1
    (ix2 e (lo k)) rfl (ix2 e k) fun b => ?_
  match b with
  | ⟨0, _⟩ => rfl
  | ⟨1, _⟩ => rfl

/-- … and the second block at a column of the upper half. -/
theorem cat_hi (A B : FVec Ideal S800000x128 .f32) (e : Fin 800000) (k : Fin 128) :
    concatenate S800000x256 1 [⟨S800000x128, A⟩, ⟨S800000x128, B⟩] concatenates_S800000x128_S800000x128_S800000x256_d1
      (ix2 e (hi k)) = B (ix2 e k) := by
  refine concatenate_pair_apply_right (1 : Fin S800000x256.rank) A B concatenates_S800000x128_S800000x128_S800000x256_d1
    (ix2 e (hi k)) rfl rfl (ix2 e k) (fun b hb => ?_) ?_
  · match b with
    | ⟨0, _⟩ => rfl
    | ⟨1, _⟩ => exact absurd rfl hb
  · show k.val + 128 = 128 + k.val
    omega

/-- The first contraction at (e, j): the 256-long sum, split in its halves. -/
theorem dot1_apply (A B : FVec Ideal S800000x128 .f32) (W1 : SW1.Idx → EReal) (e : Fin 800000) (j : Fin 128) :
    Host.dotGeneral (F := Ideal) (φ₁ := .f32) (φ₂ := .f32) dot_S800000x256_S256x128_S800000x128_1_0_0_1_n_n none
      (concatenate S800000x256 1 [⟨S800000x128, A⟩, ⟨S800000x128, B⟩] concatenates_S800000x128_S800000x128_S800000x256_d1)
      W1 (ix2 e j)
      = (∑ k : Fin 128, A (ix2 e k) * W1 (ix2 (lo k) j)) + ∑ k : Fin 128, B (ix2 e k) * W1 (ix2 (hi k) j) := by
  refine (StackMember.dotGeneral_plain_apply (m := 800000) (n := 128) (k := 256) (φ₁ := .f32) (φ₂ := .f32) none
    (concatenate S800000x256 1 [⟨S800000x128, A⟩, ⟨S800000x128, B⟩] concatenates_S800000x128_S800000x128_S800000x256_d1)
    W1 e j).trans ?_
  rw [sum_halves]
  congr 1
  · exact Finset.sum_congr rfl fun k _ => by rw [cat_lo]
  · exact Finset.sum_congr rfl fun k _ => by rw [cat_hi]

/-- The second contraction at (e, 0). -/
theorem dot2_apply (A B : FVec Ideal S800000x128 .f32) (W2 : SW2.Idx → EReal) (e : Fin 800000) :
    Host.dotGeneral (F := Ideal) (φ₁ := .f32) (φ₂ := .f32) dot_S800000x256_S256x1_S800000x1_1_0_0_1_n_n none
      (concatenate S800000x256 1 [⟨S800000x128, A⟩, ⟨S800000x128, B⟩] concatenates_S800000x128_S800000x128_S800000x256_d1)
      W2 (ix2 e (0 : Fin 1))
      = (∑ k : Fin 128, A (ix2 e k) * W2 (ix2 (lo k) (0 : Fin 1))) + ∑ k : Fin 128, B (ix2 e k) * W2 (ix2 (hi k) (0 : Fin 1)) := by
  refine (StackMember.dotGeneral_plain_apply (m := 800000) (n := 1) (k := 256) (φ₁ := .f32) (φ₂ := .f32) none
    (concatenate S800000x256 1 [⟨S800000x128, A⟩, ⟨S800000x128, B⟩] concatenates_S800000x128_S800000x128_S800000x256_d1)
    W2 e (0 : Fin 1)).trans ?_
  rw [sum_halves]
  congr 1
  · exact Finset.sum_congr rfl fun k _ => by rw [cat_lo]
  · exact Finset.sum_congr rfl fun k _ => by rw [cat_hi]

/-! ## The values read at an index -/

variable (x : SNH.Idx → EReal) (ei : IVec S2E 32) (dist : IVec SE 32) (W1 : SW1.Idx → EReal) (W2 : SW2.Idx → EReal)
  (tab : STab.Idx → EReal)

/-- The gathered source row of an edge whose source index is a row of the node table. -/
theorem refSrc_apply (e : Fin 800000) (hs : 0 ≤ (srcIx ei e).toInt ∧ (srcIx ei e).toInt < 50000) (k : Fin 128) :
    refSrc x ei (ix2 e k) = xrow x (srcIx ei e).toNat k := by
  have hg := gatherX_apply x (refRow0 ei) e (by rw [refRow0_apply]; exact hs) k
  rw [refRow0_apply] at hg
  exact hg

/-- The gathered target row of an edge whose target index is a row of the node table. -/
theorem refTgt_apply (e : Fin 800000) (ht : 0 ≤ (tgtIx ei e).toInt ∧ (tgtIx ei e).toInt < 50000) (k : Fin 128) :
    refTgt x ei (ix2 e k) = xrow x (tgtIx ei e).toNat k := by
  have hg := gatherX_apply x (refRow1 ei) e (by rw [refRow1_apply]; exact ht) k
  rw [refRow1_apply] at hg
  exact hg

/-- The hidden pre-activation of such an edge. -/
theorem refPre_apply (e : Fin 800000) (hs : 0 ≤ (srcIx ei e).toInt ∧ (srcIx ei e).toInt < 50000)
    (ht : 0 ≤ (tgtIx ei e).toInt ∧ (tgtIx ei e).toInt < 50000) (j : Fin 128) :
    refPre x ei W1 (ix2 e j) = hid W1 (xrow x (srcIx ei e).toNat) (xrow x (tgtIx ei e).toNat) j := by
  unfold refPre hid
  rw [dot1_apply]
  congr 1
  · exact Finset.sum_congr rfl fun k _ => by rw [refSrc_apply x ei e hs k]
  · exact Finset.sum_congr rfl fun k _ => by rw [refTgt_apply x ei e ht k]

/-- The hidden layer is the leaky relu of the pre-activation, entry by entry. -/
theorem refHid_apply (e : Fin 800000) (j : Fin 128) : refHid x ei W1 (ix2 e j) = leaky (refPre x ei W1 (ix2 e j)) := rfl

/-- The distance embedding row of an edge whose distance lies in [0, 1000) is the table's row ⌊dist / 50⌋. -/
theorem refEmb_apply (e : Fin 800000) (hd : 0 ≤ (dist (ix1 e)).toInt ∧ (dist (ix1 e)).toInt < 1000)
    (hb : (dist (ix1 e)).toNat / 50 < 20) (k : Fin 128) :
    refEmb dist tab (ix2 e k) = tab (ix2 ⟨(dist (ix1 e)).toNat / 50, hb⟩ k) := by
  obtain ⟨h0, h20, hn⟩ := fdiv50_range (dist (ix1 e)) hd
  have hlt : (refBucket dist (ix1 e)).toNat < 20 := by rw [refBucket_apply, hn]; exact hb
  unfold refEmb
  rw [gatherTab_apply tab (refBucket dist) e ⟨h0, h20⟩ k hlt]
  exact congrArg (fun r : Fin 20 => tab (ix2 r k)) (Fin.ext hn)

/-- The attention logit of an edge under the index preconditions. -/
theorem refLogit_apply (hin : InRange ei dist) (e : Fin 800000) (ht : TgtOK ei e) :
    refLogit x ei dist W1 W2 tab (ix2 e (0 : Fin 1))
      = (∑ j : Fin 128, leaky (hid W1 (xrow x (srcIx ei e).toNat) (xrow x (tgtIx ei e).toNat) j) * W2 (ix2 (lo j) (0 : Fin 1)))
        + dscore tab W2 (bucket dist e) := by
  have hb : (dist (ix1 e)).toNat / 50 < 20 := by
    obtain ⟨_, h20, hn⟩ := fdiv50_range (dist (ix1 e)) (hin.2 e)
    have hi : (fdiv50 (dist (ix1 e))).toInt = (((fdiv50 (dist (ix1 e))).toNat : ℕ) : ℤ) :=
      (toNat_of_range 20 (by norm_num) _ ⟨(fdiv50_range (dist (ix1 e)) (hin.2 e)).1, h20⟩).2
    rw [hi, hn] at h20
    exact_mod_cast h20
  unfold refLogit
  rw [dot2_apply]
  congr 1
  · exact Finset.sum_congr rfl fun j _ => by rw [refHid_apply, refPre_apply x ei W1 e (hin.1 e) ht j]
  · have hb' : bucket dist e < 20 := hb
    rw [dscore, dif_pos hb']
    exact Finset.sum_congr rfl fun k _ =>
      congrArg (· * W2 (ix2 (hi k) (0 : Fin 1))) (refEmb_apply dist tab e (hin.2 e) hb k)

theorem refAtt_apply (hin : InRange ei dist) (e : Fin 800000) (ht : TgtOK ei e) :
    refAtt x ei dist W1 W2 tab (ix2 e (0 : Fin 1)) = attEdge x ei dist W1 W2 tab e := by
  have h1 : refAtt x ei dist W1 W2 tab (ix2 e (0 : Fin 1))
      = Ideal.exp (Ideal.div (Ideal.ofBits .f32 0x3F800000#32)
          (Ideal.ofBits .f32 0x3F800000#32 + Ideal.exp (-(refLogit x ei dist W1 W2 tab (ix2 e (0 : Fin 1)))))) := rfl
  rw [h1, Ideal.ofBits_one_f32, refLogit_apply x ei dist W1 W2 tab hin e ht]
  rfl

theorem refSrcw_apply (hin : InRange ei dist) (e : Fin 800000) (ht : TgtOK ei e) (k : Fin 128) :
    refSrcw x ei dist W1 W2 tab (ix2 e k) = srcwEdge x ei dist W1 W2 tab e k := by
  show refSrc x ei (ix2 e k)
      * broadcastInDim S800000x128 ![0, 1] bcast_S800000x1_S800000x128_0_1 (refAtt x ei dist W1 W2 tab) (ix2 e k) = _
  rw [col_apply, refSrc_apply x ei e (hin.1 e) k, refAtt_apply x ei dist W1 W2 tab hin e ht]
  rfl

theorem refTail_apply (agg : FVec Ideal S50000x128 .f32) (attagg : FVec Ideal S50000x1 .f32) (n : Fin 50000) (h : Fin 128) :
    refTail agg attagg (ix2 n h) = normOut agg attagg n h := by
  show max (Ideal.div (agg (ix2 n h))
      (broadcastInDim S50000x128 ![0, 1] bcast_S50000x1_S50000x128_0_1
        (addf attagg (broadcastInDim S50000x1 ![] bcast_S_S50000x1 (constant (F := Ideal) S_ .f32 0x358637BD#32))) (ix2 n h)))
      (Ideal.ofBits .f32 0x00000000#32) = _
  rw [col_apply]
  rfl

end Cert.ReferenceIdeal.RefTerms

end
-- ==== Proof.RVals.lean ====
/-
  The reference program's values after its run, read as the specification's terms.

  The buffer contents after each of the seven stretches of the straight line are composed: within one stretch a
  buffer's contents are the composition of that stretch's operations over the contents before it, and a buffer that
  a stretch does not write keeps its contents through it. Composing the seven gives each result of the run as the
  term of the argument arrays that the specification reads index by index.
-/
import proofs.«425987_j59854664237659_2_alg».proof.Proof.RRun
import proofs.«425987_j59854664237659_2_alg».proof.Proof.RSegs
import proofs.«425987_j59854664237659_2_alg».proof.Proof.RArgs
import proofs.«425987_j59854664237659_2_alg».proof.Proof.Spec
import proofs.«425987_j59854664237659_2_alg».proof.Proof.DimsFacts
import proofs.«425987_j59854664237659_2_alg».proof.Proof.IdxVec
import proofs.«425987_j59854664237659_2_alg».proof.Proof.RTerms

noncomputable section

namespace Cert.ReferenceIdeal.RefVal

open Cert.ReferenceIdeal Cert.ReferenceIdeal.Gen Cert.ReferenceIdeal.Args Cert.ReferenceIdeal.RefTerms Cert.EdgeAttn
open Idealize.ShloMosaic Idealize.ShloMosaic.TcCoe Idealize.SL.Sem Idealize.ShloMosaic.StableHlo Idealize.ShloMosaic.ValueIdx

section Stages

variable (V : Valuation τ sig (Elt Ideal))

/-! ## Each stretch's results as terms of the arguments -/

set_option maxRecDepth 8192 in
/-- The distance bucket. -/
theorem U1_v0 : U1 V (Proc.devRef .tc main_v0) = refBucket (vdist V) := by
  unfold U1
  dsimp only [opsBucket]
  after_results
  rfl

theorem U2_v0 : U2 V (Proc.devRef .tc main_v0) = refBucket (vdist V) :=
  (U2_keep V main_v0 (by decide)).trans (U1_v0 V)
theorem U3_v0 : U3 V (Proc.devRef .tc main_v0) = refBucket (vdist V) :=
  (U3_keep V main_v0 (by decide)).trans (U2_v0 V)

set_option maxRecDepth 8192 in
/-- The source feature row of every edge. -/
theorem U2_v9 : U2 V (Proc.devRef .tc main_v9) = refSrc (vx V) (vei V) := by
  unfold U2
  dsimp only [opsHidden]
  after_results
  rw [U1_arg0, U1_arg1]
  rfl

theorem U3_v9 : U3 V (Proc.devRef .tc main_v9) = refSrc (vx V) (vei V) :=
  (U3_keep V main_v9 (by decide)).trans (U2_v9 V)
theorem U4_v9 : U4 V (Proc.devRef .tc main_v9) = refSrc (vx V) (vei V) :=
  (U4_keep V main_v9 (by decide)).trans (U3_v9 V)

set_option maxRecDepth 8192 in
set_option maxHeartbeats 1000000 in
/-- The hidden pre-activation. -/
theorem U2_v20 : U2 V (Proc.devRef .tc main_v20) = refPre (vx V) (vei V) (vW1 V) := by
  unfold U2
  dsimp only [opsHidden]
  after_results
  rw [U1_arg0, U1_arg1, U1_arg3]
  rfl

set_option maxRecDepth 8192 in
/-- The hidden layer. -/
theorem U3_v21 : U3 V (Proc.devRef .tc main_v21) = refHid (vx V) (vei V) (vW1 V) := by
  unfold U3
  dsimp only [opsLeaky]
  after_results
  rw [U2_v20]
  rfl

set_option maxRecDepth 8192 in
set_option maxHeartbeats 1000000 in
/-- The attention logit. -/
theorem U4_v30 : U4 V (Proc.devRef .tc main_v30) = refLogit (vx V) (vei V) (vdist V) (vW1 V) (vW2 V) (vtab V) := by
  unfold U4
  dsimp only [opsLogit]
  after_results
  rw [U3_v21, U3_v0, U3_arg4, U3_arg5]
  unfold refLogit refEmb normCol
  rfl

set_option maxRecDepth 8192 in
/-- The attention weight. -/
theorem U5_v37 : U5 V (Proc.devRef .tc main_v37) = refAtt (vx V) (vei V) (vdist V) (vW1 V) (vW2 V) (vtab V) := by
  unfold U5
  dsimp only [opsAtt]
  after_results
  rw [U4_v30]
  rfl

set_option maxRecDepth 8192 in
/-- The weighted source row. -/
theorem U5_v39 : U5 V (Proc.devRef .tc main_v39) = refSrcw (vx V) (vei V) (vdist V) (vW1 V) (vW2 V) (vtab V) := by
  unfold U5
  dsimp only [opsAtt]
  after_results
  rw [U4_v30, U4_v9]
  rfl

/-- The zero constant broadcast to an accumulator is the accumulator that is zero everywhere. -/
theorem zero_bcast {T : Shape} (h : S_.BroadcastsInDim T ![]) :
    (broadcastInDim T ![] h (constant (F := Ideal) S_ .f32 0x00000000#32) : T.Idx → EReal) = fun _ => zeroF := by
  funext j
  rw [broadcastInDim_scalar_apply]
  rfl

/-- The program's accumulating scatter of update rows along the target column of the edge endpoints into the
    zero accumulator is the specification's row scatter along the target index vector: the same dimension
    numbers, the same index array, the zero accumulator by the lemma above. -/
theorem agg_form (ei : IVec S2E 32) (u : SEH.Idx → EReal) :
    Host.scatterAdd (F := Ideal) (φ := .f32) scatter_S50000x128_S800000x1_S800000x128_1_0_0_1
        (broadcastInDim S50000x128 ![] bcast_S_S50000x128 (constant (F := Ideal) S_ .f32 0x00000000#32))
        (broadcastInDim S800000x1 ![0] bcast_S800000_S800000x1_0
          (shapeCast S800000 (extractStridedSlice S1x800000 ![1, 0] ei slices_S2x800000_S1x800000_1_0) shapeCasts_S1x800000_S800000))
        u
      = Ideal.hostScatterAdd (rowScatter 50000 128 800000 Gen.scatter_S50000x128_S800000x1_S800000x128_1_0_0_1_wf)
          (fun _ => zeroF) (tgtVec ei) u := by
  rw [zero_bcast]
  rfl

theorem attagg_form (ei : IVec S2E 32) (u : SE1.Idx → EReal) :
    Host.scatterAdd (F := Ideal) (φ := .f32) scatter_S50000x1_S800000x1_S800000x1_1_0_0_1
        (broadcastInDim S50000x1 ![] bcast_S_S50000x1 (constant (F := Ideal) S_ .f32 0x00000000#32))
        (broadcastInDim S800000x1 ![0] bcast_S800000_S800000x1_0
          (shapeCast S800000 (extractStridedSlice S1x800000 ![1, 0] ei slices_S2x800000_S1x800000_1_0) shapeCasts_S1x800000_S800000))
        u
      = Ideal.hostScatterAdd (rowScatter 50000 1 800000 Gen.scatter_S50000x1_S800000x1_S800000x1_1_0_0_1_wf)
          (fun _ => zeroF) (tgtVec ei) u := by
  rw [zero_bcast]
  rfl

set_option maxRecDepth 8192 in
/-- The node accumulator of the weighted source rows. -/
theorem U6_v44 : U6 V (Proc.devRef .tc main_v44)
    = Ideal.hostScatterAdd (rowScatter 50000 128 800000 Gen.scatter_S50000x128_S800000x1_S800000x128_1_0_0_1_wf)
        (fun _ => zeroF) (tgtVec (vei V)) (U5 V (Proc.devRef .tc main_v39)) := by
  unfold U6
  dsimp only [opsScatter]
  after_results
  rw [U5_arg1]
  exact agg_form _ _

set_option maxRecDepth 8192 in
/-- The node accumulator of the attention weights. -/
theorem U6_v49 : U6 V (Proc.devRef .tc main_v49)
    = Ideal.hostScatterAdd (rowScatter 50000 1 800000 Gen.scatter_S50000x1_S800000x1_S800000x1_1_0_0_1_wf)
        (fun _ => zeroF) (tgtVec (vei V)) (U5 V (Proc.devRef .tc main_v37)) := by
  unfold U6
  dsimp only [opsScatter]
  after_results
  rw [U5_arg1]
  exact attagg_form _ _

/-- At a literal buffer whose type is the value's, the transport of contents along that equation is the identity. -/
theorem toBuf_v54 (h1 h2 h3) (v : (⟨S50000x128, .f32⟩ : BufTy).Contents (Elt Ideal)) :
    (TRef.of (sig := sig) (T := ⟨S50000x128, .f32⟩) main_v54 h1 h2 h3).toBuf v = v := rfl
theorem ofBuf_v53 (h1 h2 h3) (v : (⟨S50000x128, .f32⟩ : BufTy).Contents (Elt Ideal)) :
    (TRef.of (sig := sig) (T := ⟨S50000x128, .f32⟩) main_v53 h1 h2 h3).ofBuf v = v := rfl
theorem toBuf_call2_v0 (h1 h2 h3) (v : (⟨S50000x128, .f32⟩ : BufTy).Contents (Elt Ideal)) :
    (TRef.of (sig := sig) (T := ⟨S50000x128, .f32⟩) main_call2_v0 h1 h2 h3).toBuf v = v := rfl
theorem ofBuf_call2_v0 (h1 h2 h3) (v : (⟨S50000x128, .f32⟩ : BufTy).Contents (Elt Ideal)) :
    (TRef.of (sig := sig) (T := ⟨S50000x128, .f32⟩) main_call2_v0 h1 h2 h3).ofBuf v = v := rfl
theorem toBuf_call2_cst (h1 h2 h3) (v : (⟨S_, .f32⟩ : BufTy).Contents (Elt Ideal)) :
    (TRef.of (sig := sig) (T := ⟨S_, .f32⟩) main_call2_cst h1 h2 h3).toBuf v = v := rfl
theorem ofBuf_call2_cst (h1 h2 h3) (v : (⟨S_, .f32⟩ : BufTy).Contents (Elt Ideal)) :
    (TRef.of (sig := sig) (T := ⟨S_, .f32⟩) main_call2_cst h1 h2 h3).ofBuf v = v := rfl

/-- The quotient of an accumulator by the attention sum plus the small constant, rectified, is the tail term. -/
theorem tail_form (a : FVec Ideal S50000x128 .f32) (b : FVec Ideal S50000x1 .f32) :
    maximumf
        (Host.divf a (broadcastInDim S50000x128 ![0, 1] bcast_S50000x1_S50000x128_0_1
          (addf b (broadcastInDim S50000x1 ![] bcast_S_S50000x1 (constant (F := Ideal) S_ .f32 0x358637BD#32)))))
        (broadcastInDim S50000x128 ![] bcast_S_S50000x128 (constant (F := Ideal) S_ .f32 0x00000000#32))
      = refTail a b := rfl

set_option maxRecDepth 8192 in
/-- The result: the normalisation and rectifier of the two accumulators. -/
theorem U7_v54 : U7 V (Proc.devRef .tc main_v54)
    = refTail (U6 V (Proc.devRef .tc main_v44)) (U6 V (Proc.devRef .tc main_v49)) := by
  unfold U7
  dsimp only [opsTail]
  after_results
  rw [toBuf_v54, ofBuf_v53, ofBuf_call2_v0, toBuf_call2_v0, ofBuf_call2_cst, toBuf_call2_cst]
  exact tail_form _ _

end Stages

/-! ## The run's values -/

variable (m : (ℓ : Loc nD τ sig) → Buf (Elt Ideal) ℓ)

/-- The reference's value at buffer b after its run on core d. -/
def RV (d : Dev nD) (b : Ref sig .tc) :=
  StableHlo.after (RefRun.ops (F := Ideal)) (StableHlo.launchContents m d) (Proc.devRef .tc b)

abbrev rSrcw (d : Dev nD) : SEH.Idx → EReal := RV m d main_v39
abbrev rAtt (d : Dev nD) : SE1.Idx → EReal := RV m d main_v37
abbrev rAgg (d : Dev nD) : SNH.Idx → EReal := RV m d main_v44
abbrev rAttagg (d : Dev nD) : SN1.Idx → EReal := RV m d main_v49
abbrev rOut (d : Dev nD) : SNH.Idx → EReal := RV m d main_v54

/-- The run's value is the contents after the seventh stretch, from the launch contents. -/
theorem RV_eq (d : Dev nD) (b : Ref sig .tc) : RV m d b = U7 (StableHlo.launchContents m d) (Proc.devRef .tc b) := by
  unfold RV U7 U6 U5 U4 U3 U2 U1
  rw [ops_split, after_append, after_append, after_append, after_append, after_append, after_append]

theorem srcw_eq (d : Dev nD) : rSrcw m d = refSrcw (ax m d) (aei m d) (adist m d) (aW1 m d) (aW2 m d) (atab m d) :=
  (RV_eq m d main_v39).trans ((U7_keep _ main_v39 (by decide)).trans ((U6_keep _ main_v39 (by decide)).trans (U5_v39 _)))

theorem att_eq (d : Dev nD) : rAtt m d = refAtt (ax m d) (aei m d) (adist m d) (aW1 m d) (aW2 m d) (atab m d) :=
  (RV_eq m d main_v37).trans ((U7_keep _ main_v37 (by decide)).trans ((U6_keep _ main_v37 (by decide)).trans (U5_v37 _)))

theorem r_srcw (d : Dev nD) (hin : InRange (aei m d) (adist m d)) (e : Fin 800000) (ht : TgtOK (aei m d) e) (k : Fin 128) :
    rSrcw m d (ix2 e k) = srcwEdge (ax m d) (aei m d) (adist m d) (aW1 m d) (aW2 m d) (atab m d) e k := by
  rw [srcw_eq]
  exact refSrcw_apply _ _ _ _ _ _ hin e ht k

theorem r_att (d : Dev nD) (hin : InRange (aei m d) (adist m d)) (e : Fin 800000) (ht : TgtOK (aei m d) e) :
    rAtt m d (ix2 e (0 : Fin 1)) = attEdge (ax m d) (aei m d) (adist m d) (aW1 m d) (aW2 m d) (atab m d) e := by
  rw [att_eq]
  exact refAtt_apply _ _ _ _ _ _ hin e ht

theorem r_agg (d : Dev nD) : rAgg m d
    = Ideal.hostScatterAdd (rowScatter 50000 128 800000 Gen.scatter_S50000x128_S800000x1_S800000x128_1_0_0_1_wf)
        (fun _ => zeroF) (tgtVec (aei m d)) (rSrcw m d) := by
  have h39 : rSrcw m d = U5 (StableHlo.launchContents m d) (Proc.devRef .tc main_v39) :=
    (RV_eq m d main_v39).trans ((U7_keep _ main_v39 (by decide)).trans (U6_keep _ main_v39 (by decide)))
  rw [h39]
  exact (RV_eq m d main_v44).trans ((U7_keep _ main_v44 (by decide)).trans (U6_v44 _))

theorem r_attagg (d : Dev nD) : rAttagg m d
    = Ideal.hostScatterAdd (rowScatter 50000 1 800000 Gen.scatter_S50000x1_S800000x1_S800000x1_1_0_0_1_wf)
        (fun _ => zeroF) (tgtVec (aei m d)) (rAtt m d) := by
  have h37 : rAtt m d = U5 (StableHlo.launchContents m d) (Proc.devRef .tc main_v37) :=
    (RV_eq m d main_v37).trans ((U7_keep _ main_v37 (by decide)).trans (U6_keep _ main_v37 (by decide)))
  rw [h37]
  exact (RV_eq m d main_v49).trans ((U7_keep _ main_v49 (by decide)).trans (U6_v49 _))

theorem r_out (d : Dev nD) (n : Fin 50000) (h : Fin 128) :
    rOut m d (ix2 n h) = normOut (rAgg m d) (rAttagg m d) n h := by
  have e : rOut m d = refTail (rAgg m d) (rAttagg m d) := by
    unfold rOut rAgg rAttagg
    rw [RV_eq, RV_eq, RV_eq, U7_keep _ main_v44 (by decide), U7_keep _ main_v49 (by decide)]
    exact U7_v54 _
  rw [e]
  exact refTail_apply _ _ n h

theorem r_arg0 (d : Dev nD) : RV m d main_arg0 = m ((d.tc : Thread nD τ).loc main_arg0) :=
  (RV_eq m d main_arg0).trans (U7_arg0 _)
theorem r_arg1 (d : Dev nD) : RV m d main_arg1 = m ((d.tc : Thread nD τ).loc main_arg1) :=
  (RV_eq m d main_arg1).trans (U7_arg1 _)
theorem r_arg2 (d : Dev nD) : RV m d main_arg2 = m ((d.tc : Thread nD τ).loc main_arg2) :=
  (RV_eq m d main_arg2).trans (U7_arg2 _)
theorem r_arg3 (d : Dev nD) : RV m d main_arg3 = m ((d.tc : Thread nD τ).loc main_arg3) :=
  (RV_eq m d main_arg3).trans (U7_arg3 _)
theorem r_arg4 (d : Dev nD) : RV m d main_arg4 = m ((d.tc : Thread nD τ).loc main_arg4) :=
  (RV_eq m d main_arg4).trans (U7_arg4 _)
theorem r_arg5 (d : Dev nD) : RV m d main_arg5 = m ((d.tc : Thread nD τ).loc main_arg5) :=
  (RV_eq m d main_arg5).trans (U7_arg5 _)

end Cert.ReferenceIdeal.RefVal

end
-- ==== Proof.KPay.lean ====
/-
  The two kernels' arithmetic read at an index, at the extended reals: one row's attention weight and its
  weighted source row (first kernel); the normalised, rectified quotient (second kernel).
-/
import proofs.«425987_j59854664237659_2_alg».proof.Proof.Gen.KernelIdeal.Skeleton
import proofs.«425987_j59854664237659_2_alg».proof.Proof.Spec
import Idealize.ShloMosaic.PureOps.Ideal.Laws
import Idealize.ShloMosaic.Lib.Pipeline.Value
import Idealize.ShloMosaic.Lib.ValueLayout

noncomputable section

namespace Cert.KernelIdeal.Pay

open Cert.KernelIdeal Cert.KernelIdeal.Gen Cert.EdgeAttn
open Idealize.ShloMosaic Idealize.ShloMosaic.TcCoe Idealize.ShloMosaic.ValueIdx Idealize.SL.Sem

/-! ## The 128-deep product's operand indices, axis by axis -/

/-- Row axis of the left operand: the output's row. -/
theorem lhs_mm_0 (j : S4000x128.Idx) (k : dot_S4000x128_S128x128_S4000x128_1_0_0_1_n_n.contr.Idx) :
    (dot_S4000x128_S128x128_S4000x128_1_0_0_1_n_n.lhsIdx j k 0 : ℕ) = j 0 := by
  simp [DotDims.lhsIdx, dot_S4000x128_S128x128_S4000x128_1_0_0_1_n_n]; rfl
/-- Column axis of the left operand: the contracted coordinate. -/
theorem lhs_mm_1 (j : S4000x128.Idx) (k : dot_S4000x128_S128x128_S4000x128_1_0_0_1_n_n.contr.Idx) :
    (dot_S4000x128_S128x128_S4000x128_1_0_0_1_n_n.lhsIdx j k 1 : ℕ) = k ⟨0, by decide⟩ := by
  simp [DotDims.lhsIdx, dot_S4000x128_S128x128_S4000x128_1_0_0_1_n_n]; rfl
/-- Row axis of the right operand: the contracted coordinate. -/
theorem rhs_mm_0 (j : S4000x128.Idx) (k : dot_S4000x128_S128x128_S4000x128_1_0_0_1_n_n.contr.Idx) :
    (dot_S4000x128_S128x128_S4000x128_1_0_0_1_n_n.rhsIdx j k 0 : ℕ) = k ⟨0, by decide⟩ := by
  simp [DotDims.rhsIdx, dot_S4000x128_S128x128_S4000x128_1_0_0_1_n_n]; rfl
/-- Column axis of the right operand: the output's column. -/
theorem rhs_mm_1 (j : S4000x128.Idx) (k : dot_S4000x128_S128x128_S4000x128_1_0_0_1_n_n.contr.Idx) :
    (dot_S4000x128_S128x128_S4000x128_1_0_0_1_n_n.rhsIdx j k 1 : ℕ) = j 1 := by
  simp [DotDims.rhsIdx, dot_S4000x128_S128x128_S4000x128_1_0_0_1_n_n]; rfl

/-- A 4000×128 by 128×128 product accumulated into zero, at (p, j): Σ_k A[p,k] · B[k,j]. -/
theorem mm_apply (A : FVec Ideal S4000x128 .bf16) (B : FVec Ideal S128x128 .bf16) (p : Fin 4000) (j : Fin 128) :
    matmul dot_S4000x128_S128x128_S4000x128_1_0_0_1_n_n none A B (constant (F := Ideal) S4000x128 .f32 0x00000000#32) (ix2 p j)
      = ∑ k : Fin 128, A (ix2 p k) * B (ix2 k j) := by
  show FloatOps.matmul _ none A B _ (ix2 p j) = _
  rw [Ideal.matmul_constant_zero_apply,
    ← Equiv.sum_comp (contrEquiv1 dot_S4000x128_S128x128_S4000x128_1_0_0_1_n_n 128 rfl rfl).symm]
  refine Finset.sum_congr rfl fun c _ => ?_
  have hc := contrEquiv1_symm_val dot_S4000x128_S128x128_S4000x128_1_0_0_1_n_n 128 rfl rfl c
  have hl : dot_S4000x128_S128x128_S4000x128_1_0_0_1_n_n.lhsIdx (ix2 p j)
      ((contrEquiv1 dot_S4000x128_S128x128_S4000x128_1_0_0_1_n_n 128 rfl rfl).symm c) = ix2 p c := by
    funext ax; apply Fin.ext
    match ax with
    | ⟨0, _⟩ => exact lhs_mm_0 _ _
    | ⟨1, _⟩ => exact (lhs_mm_1 _ _).trans hc
  have hr : dot_S4000x128_S128x128_S4000x128_1_0_0_1_n_n.rhsIdx (ix2 p j)
      ((contrEquiv1 dot_S4000x128_S128x128_S4000x128_1_0_0_1_n_n 128 rfl rfl).symm c) = ix2 c j := by
    funext ax; apply Fin.ext
    match ax with
    | ⟨0, _⟩ => exact (rhs_mm_0 _ _).trans hc
    | ⟨1, _⟩ => exact rhs_mm_1 _ _
  rw [hl, hr]

/-! ## Layout operations of the two kernels, read at an index -/

/-- A length-a vector cast to an a×1 column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the 128 lanes of a 4000×128 array, at row p: Σ_k src[p,k]. -/
theorem lanesum_apply (src : FVec Ideal S4000x128 .f32) (hφ : FKind.Formats .f32)
    (hacc : (0x00000000#32 : BitVec 32) = 0x00000000#32) (p : Fin 4000) :
    multiReduction (F := Ideal) .add [1] S4000 src 0x00000000#32 reduces_S4000x128_S4000 hφ hacc (ix1 p)
      = ∑ k : Fin 128, src (ix2 p k) := by
  refine (Ideal.multiReduction_add_single src 0x00000000#32 reduces_S4000x128_S4000 hφ hacc (ix1 p)).trans ?_
  refine Finset.sum_congr rfl fun k _ => congrArg src ?_
  funext ax
  match ax with
  | ⟨0, _⟩ => rfl
  | ⟨1, _⟩ => rfl

/-- The exponential and the logistic function act lane by lane. -/
theorem exp_apply {s : Shape} {φ : FTy} (a : FVec Ideal s φ) (i : s.Idx) : exp a i = Ideal.exp (a i) := rfl
theorem logistic_apply {s : Shape} {φ : FTy} (a : FVec Ideal s φ) (i : s.Idx) : logistic a i = Ideal.logistic (a i) := rfl

/-- The attention store's payload at row p: exp (logistic (Σ_j leaky (x0[p,:]·x3[:,j] + x1[p,:]·x4[:,j]) · x5[0,j] + x2[p,0])). -/
theorem pay2_apply (x0 x1 : Vec Ideal S4000x128 .f32) (x2 : Vec Ideal S4000x1 .f32) (x3 x4 : Vec Ideal S128x128 .bf16)
    (x5 : Vec Ideal S1x128 .f32) (p : Fin 4000) :
    k0_pay2 (F := Ideal) x0 x1 x2 x3 x4 x5 (ix2 p (0 : Fin 1)) = attRows x0 x1 x2 x3 x4 x5 p := by
  unfold k0_pay2 k0_pay1
  simp only [shapeCast_self]
  rw [exp_apply, logistic_apply, addf_apply, shapeCast_a_a1_apply, lanesum_apply]
  unfold attRows attOf
  refine congrArg (fun s => Ideal.exp (Ideal.logistic (s + x2 (ix2 p (0 : Fin 1))))) ?_
  refine Finset.sum_congr rfl fun j _ => ?_
  rw [mulf_apply, select_apply, cmpf_apply, mulf_apply, addf_apply, broadcast_apply, broadcast_apply,
    broadcastTo_1b_ab_apply, mm_apply, mm_apply]
  simp only [truncf_apply]
  rfl

/-- The weighted-source store's payload at (p, q): the source feature times the row's attention weight. -/
theorem pay3_apply (x0 x1 : Vec Ideal S4000x128 .f32) (x2 : Vec Ideal S4000x1 .f32) (x3 x4 : Vec Ideal S128x128 .bf16)
    (x5 : Vec Ideal S1x128 .f32) (p : Fin 4000) (q : Fin 128) :
    k0_pay3 (F := Ideal) x0 x1 x2 x3 x4 x5 (ix2 p q) = x0 (ix2 p q) * attRows x0 x1 x2 x3 x4 x5 p := by
  unfold k0_pay3 k0_pay1
  simp only [shapeCast_self]
  rw [mulf_apply, broadcastTo_a1_ab_apply, pay2_apply]

/-- The normalising kernel's payload at (p, q): max (x0[p,q] / (x1[p,0] + ε), 0). -/
theorem pay1_apply (x0 : Vec Ideal S2000x128 .f32) (x1 : Vec Ideal S2000x1 .f32) (p : Fin 2000) (q : Fin 128) :
    k1_pay1 (F := Ideal) x0 x1 (ix2 p q) = max (Ideal.div (x0 (ix2 p q)) (x1 (ix2 p (0 : Fin 1)) + epsF)) zeroF := by
  unfold k1_pay1
  simp only [shapeCast_self]
  rw [maximumf_apply, divf_apply, broadcastTo_a1_ab_apply, addf_apply, broadcast_apply, broadcast_apply]
  rfl

end Cert.KernelIdeal.Pay

end
-- ==== Proof.KBufs.lean ====
/-
  The arrays at the kernel program's region boundaries on core c, each named at its literal type: what the first
  region reads (gathered source and target features, gathered distance scores, the weight blocks), what it
  leaves (weighted source rows, attention weights), what the second region reads (the two node accumulators)
  and what it leaves (the result).
-/
import proofs.«425987_j59854664237659_2_alg».proof.Proof.Gen.KernelIdeal.Frame
import proofs.«425987_j59854664237659_2_alg».proof.Proof.Spec

noncomputable section

namespace Cert.KernelIdeal.Bufs

open Cert.KernelIdeal Cert.KernelIdeal.Gen Cert.EdgeAttn
open Idealize.ShloMosaic Idealize.ShloMosaic.TcCoe Idealize.SL.Sem

variable (m : (ℓ : Loc nD τ sig) → Buf (Elt Ideal) ℓ) (ρ : Dev nD → PrngReg)

/-- gathered source features, as region 0 finds them -/
abbrev srcA (c : Dev nD) : SEH.Idx → EReal := V7 (F := Ideal) m ρ c main_v5
/-- gathered target features -/
abbrev tgtA (c : Dev nD) : SEH.Idx → EReal := V7 (F := Ideal) m ρ c main_v6
/-- gathered distance scores -/
abbrev dscA (c : Dev nD) : SE1.Idx → EReal := V7 (F := Ideal) m ρ c main_v9
/-- rows 0..127 of the first weight matrix -/
abbrev wtopA (c : Dev nD) : SHH.Idx → EReal := V7 (F := Ideal) m ρ c main_v11
/-- rows 128..255 of the first weight matrix -/
abbrev wbotA (c : Dev nD) : SHH.Idx → EReal := V7 (F := Ideal) m ρ c main_v13
/-- rows 0..127 of the second weight matrix, as a row -/
abbrev w2rA (c : Dev nD) : S1H.Idx → EReal := V7 (F := Ideal) m ρ c main_v15
/-- weighted source rows, as region 0 leaves them -/
abbrev srcwA (c : Dev nD) : SEH.Idx → EReal := W8 (F := Ideal) m ρ c (Proc.devRef .tc main_v16_0)
/-- attention weights, as region 0 leaves them -/
abbrev attA (c : Dev nD) : SE1.Idx → EReal := W8 (F := Ideal) m ρ c (Proc.devRef .tc main_v16_1)
/-- the feature accumulator, as region 1 finds it -/
abbrev aggA (c : Dev nD) : SNH.Idx → EReal := V9 (F := Ideal) m ρ c main_v19
/-- the weight accumulator, as region 1 finds it -/
abbrev attaggA (c : Dev nD) : SN1.Idx → EReal := V9 (F := Ideal) m ρ c main_v22
/-- the result, as region 1 leaves it -/
abbrev outA (c : Dev nD) : SNH.Idx → EReal := W10 (F := Ideal) m ρ c (Proc.devRef .tc main_v23)

end Cert.KernelIdeal.Bufs

end
-- ==== Proof.KArr0.lean ====
/-
  The first region's two output arrays after its 200 grid points, element by element: edge row e = 4000·t + p
  is written by point t alone, from rows p of the blocks at t.
-/
import proofs.«425987_j59854664237659_2_alg».proof.Proof.Gen.KernelIdeal.Frame
import proofs.«425987_j59854664237659_2_alg».proof.Proof.KPay
import proofs.«425987_j59854664237659_2_alg».proof.Proof.Spec
import proofs.«425987_j59854664237659_2_alg».proof.Proof.KBufs
import Idealize.ShloMosaic.Lib.Pipeline.Value

set_option maxRecDepth 16384

noncomputable section

namespace Cert.KernelIdeal.Arr0

open Cert.KernelIdeal Cert.KernelIdeal.Gen Cert.EdgeAttn
open Idealize.ShloMosaic Idealize.ShloMosaic.TcCoe Idealize.ShloMosaic.ValueIdx Idealize.SL.Sem
open Cert.KernelIdeal.Bufs

section Blocks

/-- The body reads and writes its staging buffers whole: every access starts at offset (0, 0). -/
theorem zero_offsets : (![0, 0] : Fin 2 → Nat) = fun _ => 0 := funext fun a => by fin_cases a <;> rfl

/-- The block index maps, decided over the 200 grid points: the three edge-row inputs and the two outputs sit at
    block (t, 0) at point t; the three weight inputs sit at block (0, 0) at every point. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

-- the arrays as the region finds them
variable (V : (c : Dev nD) → (b : Ref sig .tc) → Buf (Elt Ideal) ((c : Thread nD τ).loc b))

/-! ## Each input block, read where it lies in its array

An element (y₀, y₁) of a block sits in the array at (block index × block size + y) on each axis: for the 4000-row
blocks at point t that is row 4000·t + y₀; a weight block is its whole array. -/

/-- Row y₀ of the source-feature block at point t is row 4000·t + y₀ of the gathered source features. -/
theorem src_block_apply (c : Dev nD) (t : Fin cfg0.N) (y : S4000x128.Idx) (i : S800000x128.Idx)
    (h0 : (i 0).val = 4000 * t.val + (y 0).val) (h1 : (i 1).val = (y 1).val) :
    (iblk0 (F := Ideal) V c 0 t : Vec Ideal S4000x128 .f32) y = (V c main_v5 : S800000x128.Idx → EReal) i := by
  obtain ⟨e0, e1, -⟩ := block_index t
  unfold iblk0
  rw [View.read_apply]
  show V c main_v5 _ = V c main_v5 _
  congr 1
  funext a
  apply Fin.ext
  match a with
  | ⟨0, _⟩ => show win0_0.index t 0 * 4000 + 1 * (y 0).val = (i 0).val; rw [e0, h0]; omega
  | ⟨1, _⟩ => show win0_0.index t 1 * 128 + 1 * (y 1).val = (i 1).val; rw [e1, h1]; omega

/-- Row y₀ of the target-feature block at point t is row 4000·t + y₀ of the gathered target features. -/
theorem tgt_block_apply (c : Dev nD) (t : Fin cfg0.N) (y : S4000x128.Idx) (i : S800000x128.Idx)
    (h0 : (i 0).val = 4000 * t.val + (y 0).val) (h1 : (i 1).val = (y 1).val) :
    (iblk0 (F := Ideal) V c 1 t : Vec Ideal S4000x128 .f32) y = (V c main_v6 : S800000x128.Idx → EReal) i := by
  obtain ⟨-, -, e0, e1, -⟩ := block_index t
  unfold iblk0
  rw [View.read_apply]
  show V c main_v6 _ = V c main_v6 _
  congr 1
  funext a
  apply Fin.ext
  match a with
  | ⟨0, _⟩ => show win0_1.index t 0 * 4000 + 1 * (y 0).val = (i 0).val; rw [e0, h0]; omega
  | ⟨1, _⟩ => show win0_1.index t 1 * 128 + 1 * (y 1).val = (i 1).val; rw [e1, h1]; omega

/-- Row y₀ of the distance-score block at point t is row 4000·t + y₀ of the gathered distance scores. -/
theorem dsc_block_apply (c : Dev nD) (t : Fin cfg0.N) (y : S4000x1.Idx) (i : S800000x1.Idx)
    (h0 : (i 0).val = 4000 * t.val + (y 0).val) (h1 : (i 1).val = (y 1).val) :
    (iblk0 (F := Ideal) V c 2 t : Vec Ideal S4000x1 .f32) y = (V c main_v9 : S800000x1.Idx → EReal) i := by
  obtain ⟨-, -, -, -, e0, e1, -⟩ := block_index t
  unfold iblk0
  rw [View.read_apply]
  show V c main_v9 _ = V c main_v9 _
  congr 1
  funext a
  apply Fin.ext
  match a with
  | ⟨0, _⟩ => show win0_2.index t 0 * 4000 + 1 * (y 0).val = (i 0).val; rw [e0, h0]; omega
  | ⟨1, _⟩ => show win0_2.index t 1 * 1 + 1 * (y 1).val = (i 1).val; rw [e1, h1]; omega

/-- The block of the first weight matrix's upper half is that whole 128×128 array, at every point. -/
theorem wtop_block_apply (c : Dev nD) (t : Fin cfg0.N) (y : S128x128.Idx) :
    (iblk0 (F := Ideal) V c 3 t : Vec Ideal S128x128 .bf16) y = (V c main_v11 : S128x128.Idx → EReal) y := by
  obtain ⟨-, -, -, -, -, -, e0, e1, -⟩ := block_index t
  unfold iblk0
  rw [View.read_apply]
  show V c main_v11 _ = V c main_v11 _
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- The block of the first weight matrix's lower half is that whole 128×128 array, at every point. -/
theorem wbot_block_apply (c : Dev nD) (t : Fin cfg0.N) (y : S128x128.Idx) :
    (iblk0 (F := Ideal) V c 4 t : Vec Ideal S128x128 .bf16) y = (V c main_v13 : S128x128.Idx → EReal) y := by
  obtain ⟨-, -, -, -, -, -, -, -, e0, e1, -⟩ := block_index t
  unfold iblk0
  rw [View.read_apply]
  show V c main_v13 _ = V c main_v13 _
  congr 1
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega

/-- The block of the second weight matrix's row is that whole 1×128 array, at every point. -/
theorem w2r_block_apply (c : Dev nD) (t : Fin cfg0.N) (y : S1x128.Idx) :
    (iblk0 (F := Ideal) V c 5 t : Vec Ideal S1x128 .f32) y = (V c main_v15 : S1x128.Idx → EReal) y := by
  obtain ⟨-, -, -, -, -, -, -, -, -, -, e0, e1, -⟩ := block_index t
  unfold iblk0
  rw [View.read_apply]
  show V c main_v15 _ = V c main_v15 _
  congr 1
  funext a
  apply Fin.ext
  match a with
  | ⟨0, _⟩ => show win0_5.index t 0 * 1 + 1 * (y 0).val = (y 0).val; rw [e0]; omega
  | ⟨1, _⟩ => show win0_5.index t 1 * 128 + 1 * (y 1).val = (y 1).val; rw [e1]; omega

/-! ## One row's attention weight reads only that row -/

/-- The attention weight of row p reads row p of the two feature arrays, entry (p, 0) of the score array, and the
    weight arrays whole: two families of arrays that agree on those entries give the same weight. -/
theorem attRows_congr {R R' : ℕ} (A0 A1 : (⟨2, ![R, 128]⟩ : Shape).Idx → EReal) (A2 : (⟨2, ![R, 1]⟩ : Shape).Idx → EReal)
    (B0 B1 : (⟨2, ![R', 128]⟩ : Shape).Idx → EReal) (B2 : (⟨2, ![R', 1]⟩ : Shape).Idx → EReal)
    (A3 A4 B3 B4 : SHH.Idx → EReal) (A5 B5 : S1H.Idx → EReal) (p : Fin R) (p' : Fin R')
    (h0 : ∀ k : Fin 128, A0 (ix2 p k) = B0 (ix2 p' k)) (h1 : ∀ k : Fin 128, A1 (ix2 p k) = B1 (ix2 p' k))
    (h2 : A2 (ix2 p (0 : Fin 1)) = B2 (ix2 p' (0 : Fin 1)))
    (h3 : ∀ y, A3 y = B3 y) (h4 : ∀ y, A4 y = B4 y) (h5 : ∀ y, A5 y = B5 y) :
    attRows A0 A1 A2 A3 A4 A5 p = attRows B0 B1 B2 B3 B4 B5 p' := by
  unfold attRows
  simp only [h0, h1, h2, h3, h4, h5]

/-- The attention weight of array row r, from the arrays as the region finds them. -/
abbrev attArr (c : Dev nD) (r : Fin 800000) : EReal :=
  attRows (R := 800000) (V c main_v5) (V c main_v6) (V c main_v9) (V c main_v11) (V c main_v13) (V c main_v15) r

/-- Source feature times the row's attention weight, over arrays of literal types. -/
abbrev srcwOf (A0 A1 : SEH.Idx → EReal) (A2 : SE1.Idx → EReal) (A3 A4 : SHH.Idx → EReal) (A5 : S1H.Idx → EReal) : SEH.Idx → EReal :=
  fun i => A0 i * attRows A0 A1 A2 A3 A4 A5 (i 0)

/-- The row's attention weight, over arrays of literal types. -/
abbrev attOfArr (A0 A1 : SEH.Idx → EReal) (A2 : SE1.Idx → EReal) (A3 A4 : SHH.Idx → EReal) (A5 : S1H.Idx → EReal) : SE1.Idx → EReal :=
  fun i => attRows A0 A1 A2 A3 A4 A5 (i 0)

/-- What the weighted-source array ends holding: entry (e, k) is the source feature (e, k) times row e's weight. -/
abbrev srcwFinal (c : Dev nD) : S800000x128.Idx → EReal :=
  srcwOf (V c main_v5) (V c main_v6) (V c main_v9) (V c main_v11) (V c main_v13) (V c main_v15)

/-- What the attention array ends holding: entry (e, 0) is row e's weight. -/
abbrev attFinal (c : Dev nD) : S800000x1.Idx → EReal :=
  attOfArr (V c main_v5) (V c main_v6) (V c main_v9) (V c main_v11) (V c main_v13) (V c main_v15)

/-- Row p of the blocks at point t carries the attention weight of array row r = 4000·t + p. -/
theorem att_at_point (c : Dev nD) (t : Fin cfg0.N) (p : Fin 4000) (r : Fin 800000) (hr : r.val = 4000 * t.val + p.val) :
    attRows (R := 4000) (iblk0 (F := Ideal) V c 0 t) (iblk0 (F := Ideal) V c 1 t) (iblk0 (F := Ideal) V c 2 t) (iblk0 (F := Ideal) V c 3 t) (iblk0 (F := Ideal) V c 4 t) (iblk0 (F := Ideal) V c 5 t) p
      = attArr V c r :=
  attRows_congr _ _ _ _ _ _ _ _ _ _ _ _ p r
    (fun k => src_block_apply V c t (ix2 p k) (ix2 r k) hr rfl)
    (fun k => tgt_block_apply V c t (ix2 p k) (ix2 r k) hr rfl)
    (dsc_block_apply V c t (ix2 p (0 : Fin 1)) (ix2 r (0 : Fin 1)) hr rfl)
    (fun y => wtop_block_apply V c t y) (fun y => wbot_block_apply V c t y) (fun y => w2r_block_apply V c t y)

/-! ## What point t writes back -/

/-- Point t writes back block t of the weighted-source closed form: at (p, q) the stored product is the source
    block's entry times the block row's weight, which are array entry (4000·t + p, q) and array row 4000·t + p's weight. -/
theorem srcw_flushed (c : Dev nD) (t : Fin cfg0.N) :
    (dat0 V c).flushed 6 t = ((cfg0.win 6).blk t).view.read (Elt Ideal) (srcwFinal V c) := by
  show (cfg0.win 6).cut (grid0.coords t) ((dat0 V c).after 6 t) = _
  rw [after0_6]
  unfold out0_6
  rw [View.canon_unit_zero zero_offsets]
  simp only [View.ld_unit_zero (S := S4000x128) zero_offsets, View.ld_unit_zero (S := S4000x1) zero_offsets,
    View.ld_unit_zero (S := S128x128) zero_offsets, View.ld_unit_zero (S := S1x128) zero_offsets]
  obtain ⟨-, -, -, -, -, -, -, -, -, -, -, -, e0, e1, -⟩ := block_index t
  have hN : t.val < 200 := t.isLt
  funext j
  obtain ⟨p, q, rfl⟩ : ∃ (p : Fin 4000) (q : Fin 128), j = ix2 p q := ⟨j 0, j 1, eq_ix2 j⟩
  have hemb : ((cfg0.win 6).blk t).view.emb (ix2 p q) = (ix2 (⟨4000 * t.val + p.val, by omega⟩ : Fin 800000) q : S800000x128.Idx) := by
    funext a
    apply Fin.ext
    match a with
    | ⟨0, _⟩ => show win0_6.index t 0 * 4000 + 1 * p.val = 4000 * t.val + p.val; rw [e0]; omega
    | ⟨1, _⟩ => show win0_6.index t 1 * 128 + 1 * q.val = q.val; rw [e1]; omega
  show k0_pay3 (F := Ideal) (iblk0 V c 0 t) (iblk0 V c 1 t) (iblk0 V c 2 t) (iblk0 V c 3 t) (iblk0 V c 4 t) (iblk0 V c 5 t) (ix2 p q)
    = srcwFinal V c (((cfg0.win 6).blk t).view.emb (ix2 p q))
  rw [hemb]
  refine (Pay.pay3_apply _ _ _ _ _ _ p q).trans ?_
  show _ * _ = _ * _
  rw [att_at_point V c t p ⟨4000 * t.val + p.val, by omega⟩ rfl,
    src_block_apply V c t (ix2 p q) (ix2 (⟨4000 * t.val + p.val, by omega⟩ : Fin 800000) q) rfl rfl]

/-- Point t writes back block t of the attention closed form: at (p, 0) the stored value is the block row's weight,
    which is array row 4000·t + p's. -/
theorem att_flushed (c : Dev nD) (t : Fin cfg0.N) :
    (dat0 V c).flushed 7 t = ((cfg0.win 7).blk t).view.read (Elt Ideal) (attFinal V c) := by
  show (cfg0.win 7).cut (grid0.coords t) ((dat0 V c).after 7 t) = _
  rw [after0_7]
  unfold out0_7
  rw [View.canon_unit_zero zero_offsets]
  simp only [View.ld_unit_zero (S := S4000x128) zero_offsets, View.ld_unit_zero (S := S4000x1) zero_offsets,
    View.ld_unit_zero (S := S128x128) zero_offsets, View.ld_unit_zero (S := S1x128) zero_offsets]
  obtain ⟨-, -, -, -, -, -, -, -, -, -, -, -, -, -, e0, e1⟩ := block_index t
  have hN : t.val < 200 := t.isLt
  funext j
  obtain ⟨p, q, rfl⟩ : ∃ (p : Fin 4000) (q : Fin 1), j = ix2 p q := ⟨j 0, j 1, eq_ix2 j⟩
  obtain rfl : q = 0 := Subsingleton.elim _ _
  have hemb : ((cfg0.win 7).blk t).view.emb (ix2 p (0 : Fin 1)) = (ix2 (⟨4000 * t.val + p.val, by omega⟩ : Fin 800000) (0 : Fin 1) : S800000x1.Idx) := by
    funext a
    apply Fin.ext
    match a with
    | ⟨0, _⟩ => show win0_7.index t 0 * 4000 + 1 * p.val = 4000 * t.val + p.val; rw [e0]; omega
    | ⟨1, _⟩ => show win0_7.index t 1 * 1 + 1 * 0 = 0; rw [e1]
  show k0_pay2 (F := Ideal) (iblk0 V c 0 t) (iblk0 V c 1 t) (iblk0 V c 2 t) (iblk0 V c 3 t) (iblk0 V c 4 t) (iblk0 V c 5 t) (ix2 p (0 : Fin 1))
    = attFinal V c (((cfg0.win 7).blk t).view.emb (ix2 p (0 : Fin 1)))
  rw [hemb]
  refine (Pay.pay2_apply _ _ _ _ _ _ p).trans ?_
  exact att_at_point V c t p ⟨4000 * t.val + p.val, by omega⟩ rfl

/-! ## The cover: row e lies in point e / 4000's block -/

/-- An index of the weighted-source array is in point t's block iff each coordinate is in the block's range. -/
theorem mem_srcw_block (t : Fin cfg0.N) (i : S800000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v16_0).slice (win0_6.rect t)).set ↔ _
  rw [View.set_slice_whole, Rect.mem_set_unit]
  exact Iff.rfl

/-- An index of the attention array is in point t's block iff each coordinate is in the block's range. -/
theorem mem_att_block (t : Fin cfg0.N) (i : S800000x1.Idx) :
    i ∈ ((cfg0.win 7).blk t).view.set ↔ ∀ a : Fin 2, win0_7.index t a * S4000x1.size a ≤ (i a).val ∧ (i a).val < win0_7.index t a * S4000x1.size a + S4000x1.size a := by
  show i ∈ ((View.whole main_v16_1).slice (win0_7.rect t)).set ↔ _
  rw [View.set_slice_whole, Rect.mem_set_unit]
  exact Iff.rfl

/-- Every entry (e, k) of the weighted-source array is written back by point e / 4000: 4000·(e / 4000) ≤ e < 4000·(e / 4000) + 4000. -/
theorem srcw_cover (i : S800000x128.Idx) : ∃ t : Fin cfg0.N, (cfg0.win 6).flush t = true ∧ i ∈ ((cfg0.win 6).blk t).view.set := by
  have hi0 : (i 0).val < 800000 := (i 0).isLt
  have hi1 : (i 1).val < 128 := (i 1).isLt
  refine ⟨⟨(i 0).val / 4000, by show (i 0).val / 4000 < 200; omega⟩, flush0_6 _, ?_⟩
  rw [mem_srcw_block]
  obtain ⟨-, -, -, -, -, -, -, -, -, -, -, -, e0, e1, -⟩ := block_index ⟨(i 0).val / 4000, by show (i 0).val / 4000 < 200; omega⟩
  intro a
  match a with
  | ⟨0, _⟩ => show win0_6.index _ (0 : Fin 2) * 4000 ≤ (i 0).val ∧ (i 0).val < win0_6.index _ (0 : Fin 2) * 4000 + 4000; rw [e0]; show (i 0).val / 4000 * 4000 ≤ _ ∧ _ < (i 0).val / 4000 * 4000 + 4000; omega
  | ⟨1, _⟩ => show win0_6.index _ (1 : Fin 2) * 128 ≤ (i 1).val ∧ (i 1).val < win0_6.index _ (1 : Fin 2) * 128 + 128; rw [e1]; omega

/-- Every entry (e, 0) of the attention array is written back by point e / 4000. -/
theorem att_cover (i : S800000x1.Idx) : ∃ t : Fin cfg0.N, (cfg0.win 7).flush t = true ∧ i ∈ ((cfg0.win 7).blk t).view.set := by
  have hi0 : (i 0).val < 800000 := (i 0).isLt
  have hi1 : (i 1).val < 1 := (i 1).isLt
  refine ⟨⟨(i 0).val / 4000, by show (i 0).val / 4000 < 200; omega⟩, flush0_7 _, ?_⟩
  rw [mem_att_block]
  obtain ⟨-, -, -, -, -, -, -, -, -, -, -, -, -, -, e0, e1⟩ := block_index ⟨(i 0).val / 4000, by show (i 0).val / 4000 < 200; omega⟩
  intro a
  match a with
  | ⟨0, _⟩ => show win0_7.index _ (0 : Fin 2) * 4000 ≤ (i 0).val ∧ (i 0).val < win0_7.index _ (0 : Fin 2) * 4000 + 4000; rw [e0]; show (i 0).val / 4000 * 4000 ≤ _ ∧ _ < (i 0).val / 4000 * 4000 + 4000; omega
  | ⟨1, _⟩ => show win0_7.index _ (1 : Fin 2) * 1 ≤ (i 1).val ∧ (i 1).val < win0_7.index _ (1 : Fin 2) * 1 + 1; rw [e1]; omega

/-! ## The arrays after the 200 points -/

/-- Every point writes back its block of one closed form and the blocks cover the array: the weighted-source array
    ends holding that closed form. -/
theorem srcw_array (c : Dev nD) : (dat0 V c).arrAt 6 cfg0.N = srcwFinal V c :=
  (dat0 V c).arrAt_eq_of_cover 6 (srcwFinal V c) (fun t _ => srcw_flushed V c t) srcw_cover

/-- Likewise the attention array. -/
theorem att_array (c : Dev nD) : (dat0 V c).arrAt 7 cfg0.N = attFinal V c :=
  (dat0 V c).arrAt_eq_of_cover 7 (attFinal V c) (fun t _ => att_flushed V c t) att_cover

end Blocks

variable (m : (ℓ : Loc nD τ sig) → Buf (Elt Ideal) ℓ) (ρ : Dev nD → PrngReg)

/-- The weighted source rows after region 0. -/
theorem srcw_value (c : Dev nD) (e : Fin 800000) (k : Fin 128) :
    srcwA m ρ c (ix2 e k)
      = srcA m ρ c (ix2 e k) * attRows (srcA m ρ c) (tgtA m ρ c) (dscA m ρ c) (wtopA m ρ c) (wbotA m ρ c) (w2rA m ρ c) e := by
  have h : W8 (F := Ideal) m ρ c (Proc.devRef .tc main_v16_0) = (dat0 (V7 m ρ) c).arrAt 6 cfg0.N := W8_arr m ρ c 6
  exact congrFun (h.trans (srcw_array (V7 m ρ) c)) (ix2 e k)

/-- The attention weights after region 0. -/
theorem att_value (c : Dev nD) (e : Fin 800000) :
    attA m ρ c (ix2 e (0 : Fin 1))
      = attRows (srcA m ρ c) (tgtA m ρ c) (dscA m ρ c) (wtopA m ρ c) (wbotA m ρ c) (w2rA m ρ c) e := by
  have h : W8 (F := Ideal) m ρ c (Proc.devRef .tc main_v16_1) = (dat0 (V7 m ρ) c).arrAt 7 cfg0.N := W8_arr m ρ c 7
  exact congrFun (h.trans (att_array (V7 m ρ) c)) (ix2 e (0 : Fin 1))

end Cert.KernelIdeal.Arr0

end
-- ==== Proof.KArgs.lean ====
/-
  The kernel program's six argument arrays on core c, each named at its literal type.
-/
import proofs.«425987_j59854664237659_2_alg».proof.KernelIdeal
import proofs.«425987_j59854664237659_2_alg».proof.Proof.Spec

noncomputable section

namespace Cert.KernelIdeal.Args

open Cert.KernelIdeal Cert.EdgeAttn Idealize.ShloMosaic Idealize.ShloMosaic.TcCoe Idealize.SL.Sem

variable (m : (ℓ : Loc nD τ sig) → Buf (Elt Ideal) ℓ)

/-- node features -/
abbrev ax (c : Dev nD) : SNH.Idx → EReal := m ((c.tc : Thread nD τ).loc main_arg0)
/-- edge endpoints: row 0 the sources, row 1 the targets -/
abbrev aei (c : Dev nD) : IVec S2E 32 := m ((c.tc : Thread nD τ).loc main_arg1)
/-- edge distances -/
abbrev adist (c : Dev nD) : IVec SE 32 := m ((c.tc : Thread nD τ).loc main_arg2)
/-- first weight matrix -/
abbrev aW1 (c : Dev nD) : SW1.Idx → EReal := m ((c.tc : Thread nD τ).loc main_arg3)
/-- second weight matrix -/
abbrev aW2 (c : Dev nD) : SW2.Idx → EReal := m ((c.tc : Thread nD τ).loc main_arg4)
/-- distance embedding table -/
abbrev atab (c : Dev nD) : STab.Idx → EReal := m ((c.tc : Thread nD τ).loc main_arg5)

end Cert.KernelIdeal.Args

end
-- ==== Proof.KHostIdx.lean ====
/-
  The two gathered feature arrays the first region reads: row e of the source array is the node row the
  edge's source index names (every source index is a row: the precondition); row e of the target array is the
  node row its target index names wherever that index is a row.
-/
import proofs.«425987_j59854664237659_2_alg».proof.Proof.Gen.KernelIdeal.Frame
import proofs.«425987_j59854664237659_2_alg».proof.Proof.Spec
import proofs.«425987_j59854664237659_2_alg».proof.Proof.KArgs
import proofs.«425987_j59854664237659_2_alg».proof.Proof.KBufs
import proofs.«425987_j59854664237659_2_alg».proof.Proof.IntFacts
import proofs.«425987_j59854664237659_2_alg».proof.Proof.DimsFacts
import proofs.«425987_j59854664237659_2_alg».proof.Proof.IdxVec
import Idealize.ShloMosaic.Lib.StableHlo.Run
import Idealize.ShloMosaic.Lib.Pipeline.Value

set_option maxRecDepth 16384

noncomputable section

namespace Cert.KernelIdeal.HostIdx

open Cert.KernelIdeal Cert.KernelIdeal.Gen Cert.EdgeAttn
open Idealize.ShloMosaic Idealize.ShloMosaic.TcCoe Idealize.ShloMosaic.ValueIdx Idealize.SL.Sem
open Cert.KernelIdeal.Args
open Cert.KernelIdeal.Bufs

variable (m : (ℓ : Loc nD τ sig) → Buf (Elt Ideal) ℓ) (ρ : Dev nD → PrngReg)

/-! ## A fold by `and` whose every word is 1 -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A reduce by `and` from 1 is 1 at `j` when every operand word that reduces into `j` is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine foldl_andi_one x _ fun i hi => hx i ?_
  have := (List.mem_filter.mp hi).2
  simpa using this

/-! ## jnp.take of rows, read at an index -/

/-- The index column jnp.take gathers along: each index normalised (v + 50000 where v < 0), one per row. -/
abbrev idxCol (iv : IVec S800000 32) : IVec S800000x1 32 :=
  broadcastInDim S800000x1 ![0] bcast_S800000_S800000x1_0
    (select (cmpi .slt iv (broadcastInDim S800000 ![] bcast_S_S800000 (constantI S_ 32 0#32)))
      (addi iv (broadcastInDim S800000 ![] bcast_S_S800000 (constantI S_ 32 50000#32))) iv)

/-- The in-bounds mask of jnp.take: per row, 0 ≤ index ≤ 49999, reduced by `and` over the unit axis. -/
abbrev inbMask (iv : IVec S800000 32) : IVec S800000 1 :=
  Host.reduce IntOp.andi
    (andi (cmpi .sge (idxCol iv) (broadcastInDim S800000x1 ![] bcast_S_S800000x1 (constantI S_ 32 0#32)))
      (cmpi .sle (idxCol iv) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- jnp.take of the rows `iv` names out of `x`: the gathered row where the index is in bounds, NaN elsewhere. -/
def takeRows (x : S50000x128.Idx → EReal) (iv : IVec S800000 32) : S800000x128.Idx → EReal :=
  select (broadcastInDim S800000x128 ![0] bcast_S800000_S800000x128_0 (inbMask iv))
    (Host.gather gather_S50000x128_S800000x1_S800000x128_1_0_n_n_0_1_1128 x (idxCol iv))
    (broadcastInDim S800000x128 ![] bcast_S_S800000x128 (constant (F := Ideal) S_ .f32 0x7FC00000#32))

/-- Row e of the index column is edge e's index, normalised. -/
theorem idxCol_apply (iv : IVec S800000 32) (e : Fin 800000) :
    idxCol iv (ix2 e (0 : Fin 1)) = normIx 50000#32 (iv (ix1 e)) := by
  refine (broadcastInDim_apply _ _ _ (ix2 e (0 : Fin 1)) (ix1 e) (fun a => ?_)).trans rfl
  match a with
  | ⟨0, _⟩ => rfl

/-- An index in [0, 50000) is its own normal form. -/
theorem idxCol_of_range (iv : IVec S800000 32) (e : Fin 800000)
    (h : 0 ≤ (iv (ix1 e)).toInt ∧ (iv (ix1 e)).toInt < 50000) : idxCol iv (ix2 e (0 : Fin 1)) = iv (ix1 e) := by
  rw [idxCol_apply]
  exact normIx_of_range 50000 (by norm_num) _ h

/-- The mask bit of a row whose index is in [0, 50000) is 1. -/
theorem inbMask_of_range (iv : IVec S800000 32) (e : Fin 800000)
    (h : 0 ≤ (iv (ix1 e)).toInt ∧ (iv (ix1 e)).toInt < 50000) : inbMask iv (ix1 e) = 1#1 := by
  refine reduce_andi_one _ _ _ _ _ rfl fun i hi => ?_
  have h0 : ((i 0 : Fin 800000) : ℕ) = e :=
    (reducesTo_S800000x1_S800000_d1.drop_apply_val_of_eq i 0 0).symm.trans
      (congrArg (fun j : S800000.Idx => ((j 0 : Fin 800000) : ℕ)) hi)
  have h1 : @Eq (Fin 1) (i 1) 0 := Subsingleton.elim _ _
  have hi' : i = ix2 e (0 : Fin 1) := by
    rw [eq_ix2 i]
    exact congrArg₂ ix2 (Fin.ext h0) h1
  subst hi'
  show inb 49999#32 (idxCol iv (ix2 e (0 : Fin 1))) = 1#1
  rw [idxCol_of_range iv e h]
  exact inb_of_range 50000 (by norm_num) _ h

/-- jnp.take at (e, k), the index of row e in [0, 50000): the node row that index names. -/
theorem takeRows_apply (x : S50000x128.Idx → EReal) (iv : IVec S800000 32) (e : Fin 800000) (k : Fin 128)
    (h : 0 ≤ (iv (ix1 e)).toInt ∧ (iv (ix1 e)).toInt < 50000) :
    takeRows x iv (ix2 e k) = xrow x (iv (ix1 e)).toNat k := by
  obtain ⟨hlt, heq⟩ := toNat_of_range 50000 (by norm_num) _ h
  have hm : broadcastInDim S800000x128 ![0] bcast_S800000_S800000x128_0 (inbMask iv) (ix2 e k) = 1#1 := by
    refine (broadcastInDim_apply _ _ _ (ix2 e k) (ix1 e) (fun a => ?_)).trans (inbMask_of_range iv e h)
    match a with
    | ⟨0, _⟩ => rfl
  unfold takeRows
  rw [select_apply, hm]
  show Host.gather (rowGather 50000 128 800000 _) x (idxCol iv) (ix2 e k) = _
  rw [gather_row 50000 128 800000 _ x (idxCol iv) e k (iv (ix1 e)).toNat hlt (by rw [idxCol_of_range iv e h]; exact heq)]
  simp only [xrow, dif_pos hlt]

/-! ## The fold through the host stretches, read at the buffers the two gathers depend on

Each stretch is a fold of its operations over a valuation `V`; read at one buffer it is either what the stretch's
operations compute there from `V`, or `V` itself where no operation of the stretch writes that buffer. -/

/-- Two transports along one equation and back cancel. -/
theorem cast_cast_id {A B : Sort _} (h1 : B = A) (h2 : A = B) (v : A) : cast h1 (cast h2 v) = v := by
  cases h2; rfl

/-- The buffers on the two gathers' paths, each with the type of the tensor value it holds. -/
abbrev t5 : StableHlo.TRef sig ⟨S800000x128, .f32⟩ := .of main_v5
abbrev t6 : StableHlo.TRef sig ⟨S800000x128, .f32⟩ := .of main_v6
abbrev t1 : StableHlo.TRef sig ⟨S800000, .i32⟩ := .of main_v1
abbrev t3 : StableHlo.TRef sig ⟨S800000, .i32⟩ := .of main_v3
abbrev ta0 : StableHlo.TRef sig ⟨S50000x128, .f32⟩ := .of main_arg0

/-- Reading a buffer's contents at the value's type changes nothing. -/
theorem ofBuf5 (x : (Proc.devRef (τ := τ) .tc main_v5).ty.Contents (Elt Ideal)) : t5.ofBuf x = x := rfl
theorem ofBuf6 (x : (Proc.devRef (τ := τ) .tc main_v6).ty.Contents (Elt Ideal)) : t6.ofBuf x = x := rfl
theorem ofBuf1 (x : (Proc.devRef (τ := τ) .tc main_v1).ty.Contents (Elt Ideal)) : t1.ofBuf x = x := rfl
theorem ofBuf3 (x : (Proc.devRef (τ := τ) .tc main_v3).ty.Contents (Elt Ideal)) : t3.ofBuf x = x := rfl
theorem ofBufa0 (x : (Proc.devRef (τ := τ) .tc main_arg0).ty.Contents (Elt Ideal)) : ta0.ofBuf x = x := rfl

section Fold
variable (V : Valuation τ sig (Elt Ideal))

open StableHlo in
/-- No operation of the last stretch before the region writes either gathered array. -/
theorem keep6_v5 : StableHlo.after (hostOps0_6 (F := Ideal)) V (Proc.devRef .tc main_v5) = V (Proc.devRef .tc main_v5) := by
  dsimp only [hostOps0_6]; after_results_simp
open StableHlo in
theorem keep6_v6 : StableHlo.after (hostOps0_6 (F := Ideal)) V (Proc.devRef .tc main_v6) = V (Proc.devRef .tc main_v6) := by
  dsimp only [hostOps0_6]; after_results_simp
open StableHlo in
/-- Nor does the take of the distance scores … -/
theorem keep5_v5 : StableHlo.after (hostOps0_5 (F := Ideal)) V (Proc.devRef .tc main_v5) = V (Proc.devRef .tc main_v5) := by
  dsimp only [hostOps0_5]; after_results_simp
open StableHlo in
theorem keep5_v6 : StableHlo.after (hostOps0_5 (F := Ideal)) V (Proc.devRef .tc main_v6) = V (Proc.devRef .tc main_v6) := by
  dsimp only [hostOps0_5]; after_results_simp
open StableHlo in
/-- … nor the contraction of the embedding table. -/
theorem keep4_v5 : StableHlo.after (hostOps0_4 (F := Ideal)) V (Proc.devRef .tc main_v5) = V (Proc.devRef .tc main_v5) := by
  dsimp only [hostOps0_4]; after_results_simp
open StableHlo in
theorem keep4_v6 : StableHlo.after (hostOps0_4 (F := Ideal)) V (Proc.devRef .tc main_v6) = V (Proc.devRef .tc main_v6) := by
  dsimp only [hostOps0_4]; after_results_simp
open StableHlo in
/-- The take along the targets writes neither the gathered sources, nor the node features. -/
theorem keep3_v5 : StableHlo.after (hostOps0_3 (F := Ideal)) V (Proc.devRef .tc main_v5) = V (Proc.devRef .tc main_v5) := by
  dsimp only [hostOps0_3]; after_results_simp
open StableHlo in
/-- The take along the sources writes neither the target index vector nor the node features. -/
theorem keep2_v3 : StableHlo.after (hostOps0_2 (F := Ideal)) V (Proc.devRef .tc main_v3) = V (Proc.devRef .tc main_v3) := by
  dsimp only [hostOps0_2]; after_results_simp
open StableHlo in
theorem keep2_a0 : StableHlo.after (hostOps0_2 (F := Ideal)) V (Proc.devRef .tc main_arg0) = V (Proc.devRef .tc main_arg0) := by
  dsimp only [hostOps0_2]; after_results_simp
open StableHlo in
/-- The floor division writes neither index vector nor the node features. -/
theorem keep1_v1 : StableHlo.after (hostOps0_1 (F := Ideal)) V (Proc.devRef .tc main_v1) = V (Proc.devRef .tc main_v1) := by
  dsimp only [hostOps0_1]; after_results_simp
open StableHlo in
theorem keep1_v3 : StableHlo.after (hostOps0_1 (F := Ideal)) V (Proc.devRef .tc main_v3) = V (Proc.devRef .tc main_v3) := by
  dsimp only [hostOps0_1]; after_results_simp
open StableHlo in
theorem keep1_a0 : StableHlo.after (hostOps0_1 (F := Ideal)) V (Proc.devRef .tc main_arg0) = V (Proc.devRef .tc main_arg0) := by
  dsimp only [hostOps0_1]; after_results_simp
open StableHlo in
/-- The first stretch does not write the node features. -/
theorem keep0_a0 : StableHlo.after (hostOps0 (F := Ideal)) V (Proc.devRef .tc main_arg0) = V (Proc.devRef .tc main_arg0) := by
  dsimp only [hostOps0]; after_results_simp

open StableHlo in
/-- The first stretch leaves in main_v1 the source row of the edge endpoints as a vector over the edges … -/
theorem after0_v1 : t1.ofBuf (StableHlo.after (hostOps0 (F := Ideal)) V (Proc.devRef .tc main_v1))
    = srcRowVec (V (Proc.devRef .tc main_arg1)) := by
  dsimp only [hostOps0]
  after_results_simp
  rfl

open StableHlo in
/-- … and in main_v3 the target row. -/
theorem after0_v3 : t3.ofBuf (StableHlo.after (hostOps0 (F := Ideal)) V (Proc.devRef .tc main_v3))
    = tgtRowVec (V (Proc.devRef .tc main_arg1)) := by
  dsimp only [hostOps0]
  after_results_simp
  rfl

set_option maxHeartbeats 1600000 in
open StableHlo in
/-- The take along the sources leaves in main_v5 the rows of the node features main_v1 names. -/
theorem after2_v5 : t5.ofBuf (StableHlo.after (hostOps0_2 (F := Ideal)) V (Proc.devRef .tc main_v5))
    = takeRows (ta0.ofBuf (V (Proc.devRef .tc main_arg0))) (t1.ofBuf (V (Proc.devRef .tc main_v1))) := by
  dsimp only [hostOps0_2]
  after_results_simp
  unfold takeRows
  dsimp only [idxCol, inbMask, StableHlo.TRef.ofBuf, StableHlo.TRef.toBuf]
  simp only [cast_cast_id]

set_option maxHeartbeats 1600000 in
open StableHlo in
/-- The take along the targets leaves in main_v6 the rows main_v3 names. -/
theorem after3_v6 : t6.ofBuf (StableHlo.after (hostOps0_3 (F := Ideal)) V (Proc.devRef .tc main_v6))
    = takeRows (ta0.ofBuf (V (Proc.devRef .tc main_arg0))) (t3.ofBuf (V (Proc.devRef .tc main_v3))) := by
  dsimp only [hostOps0_3]
  after_results_simp
  unfold takeRows
  dsimp only [idxCol, inbMask, StableHlo.TRef.ofBuf, StableHlo.TRef.toBuf]
  simp only [cast_cast_id]

end Fold

/-! ## The two gathered arrays as terms of the argument arrays -/

/-- The gathered source features are jnp.take of the node features along row 0 of the edge endpoints. -/
theorem srcA_eq (c : Dev nD) : srcA m ρ c = takeRows (ax m c) (srcRowVec (aei m c)) := by
  have a0 : ta0.ofBuf (W2 (F := Ideal) m ρ c (Proc.devRef .tc main_arg0)) = ax m c :=
    (ofBufa0 _).trans ((keep1_a0 (W1 m ρ c)).trans (keep0_a0 (W0 m ρ c)))
  have i1 : t1.ofBuf (W2 (F := Ideal) m ρ c (Proc.devRef .tc main_v1)) = srcRowVec (aei m c) :=
    (congrArg t1.ofBuf (keep1_v1 (W1 m ρ c))).trans (after0_v1 (W0 m ρ c))
  have f5 : srcA m ρ c = t5.ofBuf (W3 (F := Ideal) m ρ c (Proc.devRef .tc main_v5)) :=
    ((keep6_v5 (W6 m ρ c)).trans ((keep5_v5 (W5 m ρ c)).trans ((keep4_v5 (W4 m ρ c)).trans (keep3_v5 (W3 m ρ c))))).trans
      (ofBuf5 _).symm
  exact f5.trans ((after2_v5 (W2 m ρ c)).trans (congrArg₂ takeRows a0 i1))

/-- The gathered target features are jnp.take of the node features along row 1 of the edge endpoints. -/
theorem tgtA_eq (c : Dev nD) : tgtA m ρ c = takeRows (ax m c) (tgtRowVec (aei m c)) := by
  have a0 : ta0.ofBuf (W3 (F := Ideal) m ρ c (Proc.devRef .tc main_arg0)) = ax m c :=
    (ofBufa0 _).trans ((keep2_a0 (W2 m ρ c)).trans ((keep1_a0 (W1 m ρ c)).trans (keep0_a0 (W0 m ρ c))))
  have i3 : t3.ofBuf (W3 (F := Ideal) m ρ c (Proc.devRef .tc main_v3)) = tgtRowVec (aei m c) :=
    (congrArg t3.ofBuf ((keep2_v3 (W2 m ρ c)).trans (keep1_v3 (W1 m ρ c)))).trans (after0_v3 (W0 m ρ c))
  have f6 : tgtA m ρ c = t6.ofBuf (W4 (F := Ideal) m ρ c (Proc.devRef .tc main_v6)) :=
    ((keep6_v6 (W6 m ρ c)).trans ((keep5_v6 (W5 m ρ c)).trans (keep4_v6 (W4 m ρ c)))).trans (ofBuf6 _).symm
  exact f6.trans ((after3_v6 (W3 m ρ c)).trans (congrArg₂ takeRows a0 i3))

/-! ## The claims -/

theorem v5_row (c : Dev nD) (hin : InRange (aei m c) (adist m c)) (e : Fin 800000) (k : Fin 128) :
    srcA m ρ c (ix2 e k) = xrow (ax m c) (srcIx (aei m c) e).toNat k := by
  rw [congrFun (srcA_eq m ρ c) (ix2 e k),
    takeRows_apply _ _ e k (by rw [srcRowVec_apply]; exact hin.1 e), srcRowVec_apply]

theorem v6_row (c : Dev nD) (e : Fin 800000) (ht : TgtOK (aei m c) e) (k : Fin 128) :
    tgtA m ρ c (ix2 e k) = xrow (ax m c) (tgtIx (aei m c) e).toNat k := by
  rw [congrFun (tgtA_eq m ρ c) (ix2 e k),
    takeRows_apply _ _ e k (by rw [tgtRowVec_apply]; exact ht), tgtRowVec_apply]

end Cert.KernelIdeal.HostIdx

end
-- ==== Proof.KHostDe.lean ====
/-
  The gathered distance scores the first region reads: entry e is the embedding row of the edge's bucket
  contracted with the lower half of the second weight matrix (every bucket is a row of the table: the precondition).
-/
import proofs.«425987_j59854664237659_2_alg».proof.Proof.Gen.KernelIdeal.Frame
import proofs.«425987_j59854664237659_2_alg».proof.Proof.Spec
import proofs.«425987_j59854664237659_2_alg».proof.Proof.KArgs
import proofs.«425987_j59854664237659_2_alg».proof.Proof.KBufs
import proofs.«425987_j59854664237659_2_alg».proof.Proof.IntFacts
import proofs.«425987_j59854664237659_2_alg».proof.Proof.DimsFacts
import Idealize.ShloMosaic.Lib.StableHlo.Run
import Idealize.ShloMosaic.Lib.Pipeline.Value
import Idealize.ShloMosaic.PureOps.Ideal.Laws
import Idealize.ShloMosaic.Lib.StackMember
import Idealize.ShloMosaic.Lib.ValueLayout

set_option maxRecDepth 16384

noncomputable section

namespace Cert.KernelIdeal.HostDe

open Cert.KernelIdeal Cert.KernelIdeal.Gen Cert.EdgeAttn
open Idealize.ShloMosaic Idealize.ShloMosaic.TcCoe Idealize.ShloMosaic.ValueIdx Idealize.SL.Sem
open Cert.KernelIdeal.Args
open Cert.KernelIdeal.Bufs

variable (m : (ℓ : Loc nD τ sig) → Buf (Elt Ideal) ℓ) (ρ : Dev nD → PrngReg)

/-! ## The three vector terms of the host stretches -/

/-- jnp's floor division of a vector of words by the scalar word `c`: the truncated quotient, less one where the
    signs differ and the remainder is not zero. -/
def fdivVec (d : IVec S800000 32) (c : IVec S_ 32) : IVec S800000 32 :=
  select
    (andi (cmpi .ne (signi d) (broadcastInDim S800000 ![] bcast_S_S800000 (signi c)))
      (cmpi .ne (Host.remsi d (broadcastInDim S800000 ![] bcast_S_S800000 c))
        (broadcastInDim S800000 ![] bcast_S_S800000 (constantI S_ 32 0#32))))
    (subi (Host.divsi d (broadcastInDim S800000 ![] bcast_S_S800000 c))
      (broadcastInDim S800000 ![] bcast_S_S800000 (constantI S_ 32 1#32)))
    (Host.divsi d (broadcastInDim S800000 ![] bcast_S_S800000 c))

/-- jnp.take's start indices: the words normalised (v + N where v < 0), as a one-column array. -/
def takeIdx (N : BitVec 32) (b : IVec S800000 32) : IVec S800000x1 32 :=
  broadcastInDim S800000x1 ![0] bcast_S800000_S800000x1_0
    (select (cmpi .slt b (broadcastInDim S800000 ![] bcast_S_S800000 (constantI S_ 32 0#32)))
      (addi b (broadcastInDim S800000 ![] bcast_S_S800000 (constantI S_ 32 N))) b)

/-- jnp.take's in-bounds mask: per row, the conjunction over the one column of 0 ≤ index ≤ top. -/
def takeMask (top : BitVec 32) (i2 : IVec S800000x1 32) : IVec S800000 1 :=
  Host.reduce IntOp.andi
    (andi (cmpi .sge i2 (broadcastInDim S800000x1 ![] bcast_S_S800000x1 (constantI S_ 32 0#32)))
      (cmpi .sle i2 (broadcastInDim S800000x1 ![0, 1] bcast_S1x1_S800000x1_0_1
        (broadcastInDim S1x1 ![1] bcast_S1_S1x1_1 (constantI S1 32 top)))))
    (constantI S_ 1 1#1) reducesTo_S800000x1_S800000_d1 h_S_

/-- jnp.take of the 20 bucket scores at the bucket words `b`: the gathered row where the index is in bounds, NaN elsewhere. -/
def takeDs (w : S20x1.Idx → EReal) (b : IVec S800000 32) : S800000x1.Idx → EReal :=
  select (broadcastInDim S800000x1 ![0] bcast_S800000_S800000x1_0 (takeMask 19#32 (takeIdx 20#32 b)))
    (Host.gather gather_S20x1_S800000x1_S800000x1_1_0_n_n_0_1_11 w (takeIdx 20#32 b))
    (broadcastInDim S800000x1 ![] bcast_S_S800000x1 (constant (F := Ideal) S_ .f32 0x7FC00000#32))

/-- The 20 bucket scores: the embedding table contracted with rows 128..255 of the second weight matrix. -/
def dsTab (tab : S20x128.Idx → EReal) (W2 : S256x1.Idx → EReal) : S20x1.Idx → EReal :=
  Host.dotGeneral (F := Ideal) (φ₁ := .f32) (φ₂ := .f32) dot_S20x128_S128x1_S20x1_1_0_0_1_n_n none tab
    (extractStridedSlice S128x1 ![128, 0] W2 slices_S256x1_S128x1_128_0)

/-! ## The terms read at an edge -/

/-- The floor-division term at edge e is the scalar floor division of the edge's word. -/
theorem fdivVec_apply (d : IVec S800000 32) (e : Fin 800000) :
    fdivVec d (constantI S_ 32 50#32) (ix1 e) = fdiv50 (d (ix1 e)) := rfl

/-- The start index of edge e is the edge's word, normalised. -/
theorem takeIdx_apply (N : BitVec 32) (b : IVec S800000 32) (e : Fin 800000) :
    takeIdx N b (ix2 e (0 : Fin 1)) = normIx N (b (ix1 e)) := by
  unfold takeIdx
  rw [broadcastInDim_apply _ _ _ (ix2 e (0 : Fin 1)) (ix1 e) (fun a => by match a with | ⟨0, _⟩ => rfl)]
  rfl

/-- A vector kept as one column reads, at (e, 0), the vector at e. -/
theorem col_apply {α : Type} (v : S800000.Idx → α) (e : Fin 800000) :
    broadcastInDim S800000x1 ![0] bcast_S800000_S800000x1_0 v (ix2 e (0 : Fin 1)) = v (ix1 e) :=
  broadcastInDim_apply _ _ _ (ix2 e (0 : Fin 1)) (ix1 e) (fun a => by match a with | ⟨0, _⟩ => rfl)

/-- A conjunction of ones from one is one. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  generalize ((List.finRange s.numel).map s.rowMajor.symm).filter (fun i => h.drop i = j) = l
  induction l with
  | nil => rfl
  | cons a l ih => rw [List.foldl_cons, hx a]; exact ih

/-- The in-bounds mask at edge e is one when every start index lies in [0, top]. -/
theorem takeMask_one (top : BitVec 32) (i2 : IVec S800000x1 32) (h : ∀ i, inb top (i2 i) = 1#1) (e : Fin 800000) :
    takeMask top i2 (ix1 e) = 1#1 :=
  reduce_andi_one _ _ _ _ _ h rfl

/-- jnp.take at edge e, every bucket word a row of the table: the table's row. -/
theorem takeDs_apply (w : S20x1.Idx → EReal) (b : IVec S800000 32)
    (hb : ∀ p : Fin 800000, 0 ≤ (b (ix1 p)).toInt ∧ (b (ix1 p)).toInt < 20) (e : Fin 800000) (r : ℕ) (hr : r < 20)
    (hre : (b (ix1 e)).toInt = (r : ℤ)) :
    takeDs w b (ix2 e (0 : Fin 1)) = w (ix2 ⟨r, hr⟩ (0 : Fin 1)) := by
  have hidx : ∀ p : Fin 800000, takeIdx 20#32 b (ix2 p (0 : Fin 1)) = b (ix1 p) := fun p => by
    rw [takeIdx_apply]; exact normIx_of_range 20 (by norm_num) _ (hb p)
  have hall : ∀ i, inb 19#32 (takeIdx 20#32 b i) = 1#1 := fun i => by
    obtain ⟨p, q, rfl⟩ : ∃ (p : Fin 800000) (q : Fin 1), i = ix2 p q := ⟨i 0, i 1, eq_ix2 i⟩
    obtain rfl : q = 0 := Subsingleton.elim _ _
    rw [hidx]
    exact inb_of_range 20 (by norm_num) _ (hb p)
  unfold takeDs
  rw [select_apply, col_apply, takeMask_one _ _ hall, select_one]
  exact gather_row 20 1 800000 _ w _ e (0 : Fin 1) r hr (by rw [hidx]; exact hre)

/-- Bucket r's score is the contraction of the table's row r with rows 128..255 of the second weight matrix. -/
theorem dsTab_apply (tab : S20x128.Idx → EReal) (W2 : S256x1.Idx → EReal) (r : Fin 20) :
    dsTab tab W2 (ix2 r (0 : Fin 1)) = ∑ k : Fin 128, tab (ix2 r k) * W2 (ix2 (hi k) (0 : Fin 1)) := by
  unfold dsTab
  rw [show dot_S20x128_S128x1_S20x1_1_0_0_1_n_n = DotDims.plain 20 128 1 from rfl,
    StackMember.dotGeneral_plain_apply]
  refine Finset.sum_congr rfl fun k _ => ?_
  rw [slice2_axis0_eq]
  rfl

/-! ## The fold through the host stretches, read at the buffers the score depends on -/

/-- Two transports along one equation and back cancel. -/
theorem cast_cast_id {A B : Sort _} (h1 : B = A) (h2 : A = B) (v : A) : cast h1 (cast h2 v) = v := by
  cases h2; rfl

/-- The buffers on the score's path, each with the type of the tensor value it holds. -/
abbrev t9 : StableHlo.TRef sig ⟨S800000x1, .f32⟩ := .of main_v9
abbrev t8 : StableHlo.TRef sig ⟨S20x1, .f32⟩ := .of main_v8
abbrev t4 : StableHlo.TRef sig ⟨S800000, .i32⟩ := .of main_v4
abbrev tc : StableHlo.TRef sig ⟨S_, .i32⟩ := .of main_c
abbrev ta2 : StableHlo.TRef sig ⟨S800000, .i32⟩ := .of main_arg2
abbrev ta4 : StableHlo.TRef sig ⟨S256x1, .f32⟩ := .of main_arg4
abbrev ta5 : StableHlo.TRef sig ⟨S20x128, .f32⟩ := .of main_arg5

/-- Reading a buffer's contents at the value's type changes nothing. -/
theorem ofBuf9 (x : (Proc.devRef (τ := τ) .tc main_v9).ty.Contents (Elt Ideal)) : t9.ofBuf x = x := rfl
theorem ofBuf8 (x : (Proc.devRef (τ := τ) .tc main_v8).ty.Contents (Elt Ideal)) : t8.ofBuf x = x := rfl
theorem ofBuf4 (x : (Proc.devRef (τ := τ) .tc main_v4).ty.Contents (Elt Ideal)) : t4.ofBuf x = x := rfl
theorem ofBufc (x : (Proc.devRef (τ := τ) .tc main_c).ty.Contents (Elt Ideal)) : tc.ofBuf x = x := rfl
theorem ofBufa2 (x : (Proc.devRef (τ := τ) .tc main_arg2).ty.Contents (Elt Ideal)) : ta2.ofBuf x = x := rfl
theorem ofBufa4 (x : (Proc.devRef (τ := τ) .tc main_arg4).ty.Contents (Elt Ideal)) : ta4.ofBuf x = x := rfl
theorem ofBufa5 (x : (Proc.devRef (τ := τ) .tc main_arg5).ty.Contents (Elt Ideal)) : ta5.ofBuf x = x := rfl

/-- A stretch leaves a buffer none of its operations writes as it was. -/
local macro "host_keeps" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

section Fold
variable (V : Valuation τ sig (Elt Ideal))

theorem keep6_v9 : StableHlo.after (hostOps0_6 (F := Ideal)) V (Proc.devRef .tc main_v9) = V (Proc.devRef .tc main_v9) := by
  host_keeps hostOps0_6
theorem keep4_v4 : StableHlo.after (hostOps0_4 (F := Ideal)) V (Proc.devRef .tc main_v4) = V (Proc.devRef .tc main_v4) := by
  host_keeps hostOps0_4
theorem keep3_v4 : StableHlo.after (hostOps0_3 (F := Ideal)) V (Proc.devRef .tc main_v4) = V (Proc.devRef .tc main_v4) := by
  host_keeps hostOps0_3
theorem keep3_a4 : StableHlo.after (hostOps0_3 (F := Ideal)) V (Proc.devRef .tc main_arg4) = V (Proc.devRef .tc main_arg4) := by
  host_keeps hostOps0_3
theorem keep3_a5 : StableHlo.after (hostOps0_3 (F := Ideal)) V (Proc.devRef .tc main_arg5) = V (Proc.devRef .tc main_arg5) := by
  host_keeps hostOps0_3
theorem keep2_v4 : StableHlo.after (hostOps0_2 (F := Ideal)) V (Proc.devRef .tc main_v4) = V (Proc.devRef .tc main_v4) := by
  host_keeps hostOps0_2
theorem keep2_a4 : StableHlo.after (hostOps0_2 (F := Ideal)) V (Proc.devRef .tc main_arg4) = V (Proc.devRef .tc main_arg4) := by
  host_keeps hostOps0_2
theorem keep2_a5 : StableHlo.after (hostOps0_2 (F := Ideal)) V (Proc.devRef .tc main_arg5) = V (Proc.devRef .tc main_arg5) := by
  host_keeps hostOps0_2
theorem keep1_a4 : StableHlo.after (hostOps0_1 (F := Ideal)) V (Proc.devRef .tc main_arg4) = V (Proc.devRef .tc main_arg4) := by
  host_keeps hostOps0_1
theorem keep1_a5 : StableHlo.after (hostOps0_1 (F := Ideal)) V (Proc.devRef .tc main_arg5) = V (Proc.devRef .tc main_arg5) := by
  host_keeps hostOps0_1
theorem keep0_a2 : StableHlo.after (hostOps0 (F := Ideal)) V (Proc.devRef .tc main_arg2) = V (Proc.devRef .tc main_arg2) := by
  host_keeps hostOps0
theorem keep0_a4 : StableHlo.after (hostOps0 (F := Ideal)) V (Proc.devRef .tc main_arg4) = V (Proc.devRef .tc main_arg4) := by
  host_keeps hostOps0
theorem keep0_a5 : StableHlo.after (hostOps0 (F := Ideal)) V (Proc.devRef .tc main_arg5) = V (Proc.devRef .tc main_arg5) := by
  host_keeps hostOps0

/-- The first stretch leaves the divisor word 50. -/
theorem after0_c : tc.ofBuf (StableHlo.after (hostOps0 (F := Ideal)) V (Proc.devRef .tc main_c)) = constantI S_ 32 50#32 := by
  dsimp only [hostOps0]
  after_results
  rfl

/-- The floor-division stretch leaves the bucket words. -/
theorem after1_v4 : t4.ofBuf (StableHlo.after (hostOps0_1 (F := Ideal)) V (Proc.devRef .tc main_v4))
    = fdivVec (ta2.ofBuf (V (Proc.devRef .tc main_arg2))) (tc.ofBuf (V (Proc.devRef .tc main_c))) := by
  dsimp only [hostOps0_1]
  after_results_simp
  unfold fdivVec
  dsimp only [StableHlo.TRef.ofBuf, StableHlo.TRef.toBuf]
  simp only [cast_cast_id, id_eq]

/-- The contraction stretch leaves the 20 bucket scores. -/
theorem after4_v8 : t8.ofBuf (StableHlo.after (hostOps0_4 (F := Ideal)) V (Proc.devRef .tc main_v8))
    = dsTab (ta5.ofBuf (V (Proc.devRef .tc main_arg5))) (ta4.ofBuf (V (Proc.devRef .tc main_arg4))) := by
  dsimp only [hostOps0_4]
  after_results
  rfl

set_option maxHeartbeats 1600000 in
/-- The take stretch leaves the gathered scores. -/
theorem after5_v9 : t9.ofBuf (StableHlo.after (hostOps0_5 (F := Ideal)) V (Proc.devRef .tc main_v9))
    = takeDs (t8.ofBuf (V (Proc.devRef .tc main_v8))) (t4.ofBuf (V (Proc.devRef .tc main_v4))) := by
  dsimp only [hostOps0_5]
  after_results_simp
  unfold takeDs takeMask takeIdx
  dsimp only [StableHlo.TRef.ofBuf, StableHlo.TRef.toBuf]
  simp only [cast_cast_id]

end Fold

/-- The gathered distance scores the first region reads, as one term of the argument arrays. -/
theorem dscA_eq (c : Dev nD) :
    dscA m ρ c = takeDs (dsTab (atab m c) (aW2 m c)) (fdivVec (adist m c) (constantI S_ 32 50#32)) := by
  have a5 : ta5.ofBuf (W4 (F := Ideal) m ρ c (Proc.devRef .tc main_arg5)) = atab m c :=
    (ofBufa5 _).trans ((keep3_a5 (W3 m ρ c)).trans ((keep2_a5 (W2 m ρ c)).trans ((keep1_a5 (W1 m ρ c)).trans (keep0_a5 (W0 m ρ c)))))
  have a4 : ta4.ofBuf (W4 (F := Ideal) m ρ c (Proc.devRef .tc main_arg4)) = aW2 m c :=
    (ofBufa4 _).trans ((keep3_a4 (W3 m ρ c)).trans ((keep2_a4 (W2 m ρ c)).trans ((keep1_a4 (W1 m ρ c)).trans (keep0_a4 (W0 m ρ c)))))
  have a2 : ta2.ofBuf (W1 (F := Ideal) m ρ c (Proc.devRef .tc main_arg2)) = adist m c :=
    (ofBufa2 _).trans (keep0_a2 (W0 m ρ c))
  have ac : tc.ofBuf (W1 (F := Ideal) m ρ c (Proc.devRef .tc main_c)) = constantI S_ 32 50#32 := after0_c (W0 m ρ c)
  have k4 : W5 (F := Ideal) m ρ c (Proc.devRef .tc main_v4) = W2 m ρ c (Proc.devRef .tc main_v4) :=
    (keep4_v4 (W4 m ρ c)).trans ((keep3_v4 (W3 m ρ c)).trans (keep2_v4 (W2 m ρ c)))
  have f4 : t4.ofBuf (W5 (F := Ideal) m ρ c (Proc.devRef .tc main_v4)) = fdivVec (adist m c) (constantI S_ 32 50#32) :=
    (congrArg t4.ofBuf k4).trans ((after1_v4 (W1 m ρ c)).trans (congrArg₂ fdivVec a2 ac))
  have f8 : t8.ofBuf (W5 (F := Ideal) m ρ c (Proc.devRef .tc main_v8)) = dsTab (atab m c) (aW2 m c) :=
    (after4_v8 (W4 m ρ c)).trans (congrArg₂ dsTab a5 a4)
  have f9 : dscA m ρ c = t9.ofBuf (W6 (F := Ideal) m ρ c (Proc.devRef .tc main_v9)) :=
    (keep6_v9 (W6 m ρ c)).trans (ofBuf9 _).symm
  exact f9.trans ((after5_v9 (W5 m ρ c)).trans (congrArg₂ takeDs f8 f4))

/-! ## The claim -/

theorem v9_val (c : Dev nD) (hin : InRange (aei m c) (adist m c)) (e : Fin 800000) :
    dscA m ρ c (ix2 e (0 : Fin 1))
      = dscore (atab m c) (aW2 m c) (bucket (adist m c) e) := by
  have hf := fun p : Fin 800000 => fdiv50_range ((adist m c) (ix1 p)) (hin.2 p)
  have hb : ∀ p : Fin 800000, 0 ≤ (fdivVec (adist m c) (constantI S_ 32 50#32) (ix1 p)).toInt
      ∧ (fdivVec (adist m c) (constantI S_ 32 50#32) (ix1 p)).toInt < 20 := fun p => by
    rw [fdivVec_apply]; exact ⟨(hf p).1, (hf p).2.1⟩
  have hn := toNat_of_range 20 (by norm_num) (fdiv50 ((adist m c) (ix1 e))) ⟨(hf e).1, (hf e).2.1⟩
  have hr : bucket (adist m c) e < 20 := by
    have := hn.1; rw [(hf e).2.2] at this; exact this
  have hre : (fdivVec (adist m c) (constantI S_ 32 50#32) (ix1 e)).toInt = ((bucket (adist m c) e : ℕ) : ℤ) := by
    rw [fdivVec_apply, hn.2, (hf e).2.2]; rfl
  rw [congrFun (dscA_eq m ρ c) (ix2 e (0 : Fin 1)), takeDs_apply _ _ hb e _ hr hre, dsTab_apply]
  simp only [dscore, dif_pos hr]

end Cert.KernelIdeal.HostDe

end
-- ==== Proof.KHostW.lean ====
/-
  The weight blocks the first region reads (the two halves of the first weight matrix, the upper half of the
  second as a row), and the two node accumulators the second region reads: the accumulating row scatters of the
  first region's outputs along the target indices.
-/
import proofs.«425987_j59854664237659_2_alg».proof.Proof.Gen.KernelIdeal.Frame
import proofs.«425987_j59854664237659_2_alg».proof.Proof.Spec
import proofs.«425987_j59854664237659_2_alg».proof.Proof.KArgs
import proofs.«425987_j59854664237659_2_alg».proof.Proof.KBufs
import proofs.«425987_j59854664237659_2_alg».proof.Proof.DimsFacts
import proofs.«425987_j59854664237659_2_alg».proof.Proof.IdxVec
import Idealize.ShloMosaic.Lib.StableHlo.Run
import Idealize.ShloMosaic.Lib.Pipeline.Value
import Idealize.ShloMosaic.Lib.ValueLayout

set_option maxRecDepth 16384

noncomputable section

namespace Cert.KernelIdeal.HostW

open Cert.KernelIdeal Cert.KernelIdeal.Gen Cert.EdgeAttn
open Idealize.ShloMosaic Idealize.ShloMosaic.TcCoe Idealize.ShloMosaic.ValueIdx Idealize.SL.Sem
open Cert.KernelIdeal.Args
open Cert.KernelIdeal.Bufs

variable (m : (ℓ : Loc nD τ sig) → Buf (Elt Ideal) ℓ) (ρ : Dev nD → PrngReg)

/-! ## What a stretch of host operations leaves at one buffer, over any contents the stretch starts from -/

section Ops
variable (V : Valuation τ sig (Elt Ideal))

/-- The last stretch before the first region writes the upper weight block as the slice of rows 0..127 of the
    first weight matrix, narrowed. -/
theorem ops6_v11 :
    @Eq (FVec Ideal S128x128 .bf16) (StableHlo.after hostOps0_6 V (Proc.devRef .tc main_v11))
      (truncf (F := Ideal) .bf16 (extractStridedSlice S128x128 ![0, 0] (V (Proc.devRef .tc main_arg3)) slices_S256x128_S128x128_0_0) bitsLt_bf16_f32) := by
  after_results

/-- Likewise the lower weight block: rows 128..255. -/
theorem ops6_v13 :
    @Eq (FVec Ideal S128x128 .bf16) (StableHlo.after hostOps0_6 V (Proc.devRef .tc main_v13))
      (truncf (F := Ideal) .bf16 (extractStridedSlice S128x128 ![128, 0] (V (Proc.devRef .tc main_arg3)) slices_S256x128_S128x128_128_0) bitsLt_bf16_f32) := by
  after_results

/-- And the row of the second weight matrix: its rows 0..127, transposed. -/
theorem ops6_v15 :
    @Eq (FVec Ideal S1x128 .f32) (StableHlo.after hostOps0_6 V (Proc.devRef .tc main_v15))
      (transpose S1x128 [1, 0] (extractStridedSlice S128x1 ![0, 0] (V (Proc.devRef .tc main_arg4)) slices_S256x1_S128x1_0_0) transposes_S128x1_S1x128_1_0) := by
  after_results

end Ops

/-! ## Buffers no operation of a stretch writes keep their contents across it -/

/-- Closes `after ops V b = V b` for a literal stretch `ops` none of whose operations writes `b`: each
    operation writes one buffer, a reference other than `b`. -/
local macro "stretch_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The first weight matrix is an argument: no stretch before the first region writes it. -/
theorem W6_arg3 (c : Dev nD) :
    W6 (F := Ideal) m ρ c (Proc.devRef .tc main_arg3) = m ((c : Thread nD τ).loc main_arg3) :=
  calc W6 (F := Ideal) m ρ c (Proc.devRef .tc main_arg3)
    _ = W5 m ρ c (Proc.devRef .tc main_arg3) := by stretch_keeps hostOps0_5
    _ = W4 m ρ c (Proc.devRef .tc main_arg3) := by stretch_keeps hostOps0_4
    _ = W3 m ρ c (Proc.devRef .tc main_arg3) := by stretch_keeps hostOps0_3
    _ = W2 m ρ c (Proc.devRef .tc main_arg3) := by stretch_keeps hostOps0_2
    _ = W1 m ρ c (Proc.devRef .tc main_arg3) := by stretch_keeps hostOps0_1
    _ = W0 m ρ c (Proc.devRef .tc main_arg3) := by stretch_keeps hostOps0
    _ = m ((c : Thread nD τ).loc main_arg3) := rfl

/-- Nor the second weight matrix. -/
theorem W6_arg4 (c : Dev nD) :
    W6 (F := Ideal) m ρ c (Proc.devRef .tc main_arg4) = m ((c : Thread nD τ).loc main_arg4) :=
  calc W6 (F := Ideal) m ρ c (Proc.devRef .tc main_arg4)
    _ = W5 m ρ c (Proc.devRef .tc main_arg4) := by stretch_keeps hostOps0_5
    _ = W4 m ρ c (Proc.devRef .tc main_arg4) := by stretch_keeps hostOps0_4
    _ = W3 m ρ c (Proc.devRef .tc main_arg4) := by stretch_keeps hostOps0_3
    _ = W2 m ρ c (Proc.devRef .tc main_arg4) := by stretch_keeps hostOps0_2
    _ = W1 m ρ c (Proc.devRef .tc main_arg4) := by stretch_keeps hostOps0_1
    _ = W0 m ρ c (Proc.devRef .tc main_arg4) := by stretch_keeps hostOps0
    _ = m ((c : Thread nD τ).loc main_arg4) := rfl

/-! ## The three weight blocks read at an index -/

theorem v11_val (c : Dev nD) (k j : Fin 128) :
    wtopA m ρ c (ix2 k j) = aW1 m c (ix2 (lo k) j) := by
  have e : wtopA m ρ c
      = truncf (F := Ideal) .bf16 (extractStridedSlice S128x128 ![0, 0] (aW1 m c) slices_S256x128_S128x128_0_0) bitsLt_bf16_f32 :=
    (ops6_v11 (W6 (F := Ideal) m ρ c)).trans (by rw [W6_arg3])
  rw [e]
  -- narrowing is the identity on the extended reals; the slice shifts the row by its offset 0
  exact slice2_axis0_apply 0 (aW1 m c) slices_S256x128_S128x128_0_0 k j (lo k) (Nat.zero_add _).symm

theorem v13_val (c : Dev nD) (k j : Fin 128) :
    wbotA m ρ c (ix2 k j) = aW1 m c (ix2 (hi k) j) := by
  have e : wbotA m ρ c
      = truncf (F := Ideal) .bf16 (extractStridedSlice S128x128 ![128, 0] (aW1 m c) slices_S256x128_S128x128_128_0) bitsLt_bf16_f32 :=
    (ops6_v13 (W6 (F := Ideal) m ρ c)).trans (by rw [W6_arg3])
  rw [e]
  -- narrowing is the identity on the extended reals; the slice shifts the row by its offset 128
  exact slice2_axis0_apply 128 (aW1 m c) slices_S256x128_S128x128_128_0 k j (hi k) rfl

theorem v15_val (c : Dev nD) (j : Fin 128) :
    w2rA m ρ c (ix2 (0 : Fin 1) j) = aW2 m c (ix2 (lo j) (0 : Fin 1)) := by
  have e : w2rA m ρ c
      = transpose S1x128 [1, 0] (extractStridedSlice S128x1 ![0, 0] (aW2 m c) slices_S256x1_S128x1_0_0) transposes_S128x1_S1x128_1_0 :=
    (ops6_v15 (W6 (F := Ideal) m ρ c)).trans (by rw [W6_arg4])
  rw [e]
  -- the transposed row at (0, j) is the column at (j, 0); the slice shifts the row by its offset 0
  exact (transpose_ix2_apply _ transposes_S128x1_S1x128_1_0 (0 : Fin 1) j).trans
    (slice2_axis0_apply 0 (aW2 m c) slices_S256x1_S128x1_0_0 j (0 : Fin 1) (lo j) (Nat.zero_add _).symm)

/-! ## The second host stretch at the two accumulators, over any contents it starts from -/

section Ops1
variable (V : Valuation τ sig (Elt Ideal))

/-- The feature accumulator is the accumulating scatter, into the broadcast of the constant 0 and along the
    column of the index vector, of what the stretch finds in the first region's first output. -/
theorem ops1_v19 :
    @Eq (FVec Ideal S50000x128 .f32) (StableHlo.after hostOps1 V (Proc.devRef .tc main_v19))
      (Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 (V (Proc.devRef .tc main_v3)))
        (V (Proc.devRef .tc main_v16_0))) := by
  after_results

/-- The weight accumulator likewise, of the first region's second output. -/
theorem ops1_v22 :
    @Eq (FVec Ideal S50000x1 .f32) (StableHlo.after hostOps1 V (Proc.devRef .tc main_v22))
      (Host.scatterAdd (F := Ideal) scatter_S50000x1_S800000x1_S800000x1_1_0_0_1
        (broadcastInDim S50000x1 ![] bcast_S_S50000x1 (constant (F := Ideal) S_ .f32 0x00000000#32))
        (broadcastInDim S800000x1 ![0] bcast_S800000_S800000x1_0 (V (Proc.devRef .tc main_v3)))
        (V (Proc.devRef .tc main_v16_1))) := by
  after_results

/-- The first stretch writes the target index vector: row 1 of the edge endpoints, as a vector over the edges. -/
theorem ops0_v3 :
    @Eq (IVec S800000 32) (StableHlo.after hostOps0 V (Proc.devRef .tc main_v3))
      (shapeCast S800000 (extractStridedSlice S1x800000 ![1, 0] (V (Proc.devRef .tc main_arg1)) slices_S2x800000_S1x800000_1_0)
        shapeCasts_S1x800000_S800000) := by
  after_results
  rfl

end Ops1

/-- The target index vector is written in the first stretch and by nothing after it, up to the second stretch:
    the first region's windows are other arrays. -/
theorem W8_v3 (c : Dev nD) :
    @Eq (IVec S800000 32) (W8 (F := Ideal) m ρ c (Proc.devRef .tc main_v3)) (tgtRowVec (aei m c)) :=
  calc W8 (F := Ideal) m ρ c (Proc.devRef .tc main_v3)
    _ = W7 m ρ c (Proc.devRef .tc main_v3) := W8_of_ne m ρ c main_v3 (by decide)
    _ = W6 m ρ c (Proc.devRef .tc main_v3) := by stretch_keeps hostOps0_6
    _ = W5 m ρ c (Proc.devRef .tc main_v3) := by stretch_keeps hostOps0_5
    _ = W4 m ρ c (Proc.devRef .tc main_v3) := by stretch_keeps hostOps0_4
    _ = W3 m ρ c (Proc.devRef .tc main_v3) := by stretch_keeps hostOps0_3
    _ = W2 m ρ c (Proc.devRef .tc main_v3) := by stretch_keeps hostOps0_2
    _ = W1 m ρ c (Proc.devRef .tc main_v3) := by stretch_keeps hostOps0_1
    _ = tgtRowVec (aei m c) := ops0_v3 (W0 (F := Ideal) m ρ c)

/-- The broadcast of the float constant 0 is the constant array of zeros. -/
theorem zeros_eq {T : Shape} (h : S_.BroadcastsInDim T ![]) :
    broadcastInDim T ![] h (constant (F := Ideal) S_ .f32 0x00000000#32) = fun _ => zeroF :=
  funext fun _ => rfl

/-- The feature accumulator: zeros plus, at each node row, the sum of the weighted source rows of the edges whose
    target index is that row. -/
theorem agg_eq (c : Dev nD) :
    aggA m ρ c
      = Ideal.hostScatterAdd (rowScatter 50000 128 800000 Gen.scatter_S50000x128_S800000x1_S800000x128_1_0_0_1_wf)
          (fun _ => zeroF) (tgtVec (aei m c)) (srcwA m ρ c) := by
  refine (ops1_v19 (W8 (F := Ideal) m ρ c)).trans ?_
  rw [W8_v3, zeros_eq]
  rfl

/-- The weight accumulator, likewise. -/
theorem attagg_eq (c : Dev nD) :
    attaggA m ρ c
      = Ideal.hostScatterAdd (rowScatter 50000 1 800000 Gen.scatter_S50000x1_S800000x1_S800000x1_1_0_0_1_wf)
          (fun _ => zeroF) (tgtVec (aei m c)) (attA m ρ c) := by
  refine (ops1_v22 (W8 (F := Ideal) m ρ c)).trans ?_
  rw [W8_v3, zeros_eq]
  rfl

end Cert.KernelIdeal.HostW

end
-- ==== Proof.SpecLemmas.lean ====
/-
  One row's attention weight depends on the arrays it reads only through that row of the features and scores and
  through the weight blocks: the congruence that turns the region's input arrays into the argument arrays.
-/
import proofs.«425987_j59854664237659_2_alg».proof.Proof.Spec

noncomputable section

namespace Cert.EdgeAttn

open Idealize.ShloMosaic Idealize.ShloMosaic.ValueIdx

theorem attRows_congr {R : ℕ} (A0 A1 : (⟨2, ![R, 128]⟩ : Shape).Idx → EReal) (A2 : (⟨2, ![R, 1]⟩ : Shape).Idx → EReal)
    (A3 A4 : SHH.Idx → EReal) (A5 : S1H.Idx → EReal) (s t : Fin 128 → EReal) (d : EReal)
    (W1 : SW1.Idx → EReal) (W2 : SW2.Idx → EReal) (p : Fin R)
    (h0 : ∀ k : Fin 128, A0 (ix2 p k) = s k) (h1 : ∀ k : Fin 128, A1 (ix2 p k) = t k) (h2 : A2 (ix2 p (0 : Fin 1)) = d)
    (h3 : ∀ k j : Fin 128, A3 (ix2 k j) = W1 (ix2 (lo k) j)) (h4 : ∀ k j : Fin 128, A4 (ix2 k j) = W1 (ix2 (hi k) j))
    (h5 : ∀ j : Fin 128, A5 (ix2 (0 : Fin 1) j) = W2 (ix2 (lo j) (0 : Fin 1))) :
    attRows A0 A1 A2 A3 A4 A5 p = attOf ((∑ j : Fin 128, leaky (hid W1 s t j) * W2 (ix2 (lo j) (0 : Fin 1))) + d) := by
  simp only [attRows, hid, h0, h1, h2, h3, h4, h5]

theorem attEdge_eq (x : SNH.Idx → EReal) (ei : IVec S2E 32) (dist : IVec SE 32) (W1 : SW1.Idx → EReal) (W2 : SW2.Idx → EReal)
    (tab : STab.Idx → EReal) (e : Fin 800000) :
    attEdge x ei dist W1 W2 tab e
      = attOf ((∑ j : Fin 128, leaky (hid W1 (xrow x (srcIx ei e).toNat) (xrow x (tgtIx ei e).toNat) j) * W2 (ix2 (lo j) (0 : Fin 1)))
          + dscore tab W2 (bucket dist e)) := rfl

end Cert.EdgeAttn

end
-- ==== Proof.KEdge.lean ====
/-
  The first region's outputs, edge by edge, in terms of the argument arrays: for an edge whose target index is a
  row of the node table, its weighted source row and its attention weight are the specification's — the gathered
  arrays are the node rows the indices name, the gathered score the bucket's embedding row contracted with the lower
  half of the second weight matrix, the weight blocks the halves of the first weight matrix and the upper half of
  the second.
-/
import proofs.«425987_j59854664237659_2_alg».proof.Proof.KArr0
import proofs.«425987_j59854664237659_2_alg».proof.Proof.KHostIdx
import proofs.«425987_j59854664237659_2_alg».proof.Proof.KHostDe
import proofs.«425987_j59854664237659_2_alg».proof.Proof.KHostW
import proofs.«425987_j59854664237659_2_alg».proof.Proof.SpecLemmas

noncomputable section

namespace Cert.KernelIdeal.Edge

open Cert.KernelIdeal Cert.KernelIdeal.Gen Cert.EdgeAttn
open Idealize.ShloMosaic Idealize.ShloMosaic.TcCoe Idealize.ShloMosaic.ValueIdx Idealize.SL.Sem
open Cert.KernelIdeal.Args
open Cert.KernelIdeal.Bufs

variable (m : (ℓ : Loc nD τ sig) → Buf (Elt Ideal) ℓ) (ρ : Dev nD → PrngReg)

/-- One row's attention weight over the region's input arrays is the edge's attention weight over the arguments. -/
theorem attRows_eq (c : Dev nD) (hin : InRange (aei m c) (adist m c)) (e : Fin 800000) (ht : TgtOK (aei m c) e) :
    attRows (srcA m ρ c) (tgtA m ρ c) (dscA m ρ c) (wtopA m ρ c) (wbotA m ρ c) (w2rA m ρ c) e
      = attEdge (ax m c) (aei m c) (adist m c) (aW1 m c) (aW2 m c) (atab m c) e := by
  rw [attEdge_eq]
  exact attRows_congr (srcA m ρ c) (tgtA m ρ c) (dscA m ρ c) (wtopA m ρ c) (wbotA m ρ c) (w2rA m ρ c)
    (xrow (ax m c) (srcIx (aei m c) e).toNat) (xrow (ax m c) (tgtIx (aei m c) e).toNat) (dscore (atab m c) (aW2 m c) (bucket (adist m c) e))
    (aW1 m c) (aW2 m c) e
    (fun k => HostIdx.v5_row m ρ c hin e k) (fun k => HostIdx.v6_row m ρ c e ht k) (HostDe.v9_val m ρ c hin e)
    (fun k j => HostW.v11_val m ρ c k j) (fun k j => HostW.v13_val m ρ c k j) (fun j => HostW.v15_val m ρ c j)

theorem k_att (c : Dev nD) (hin : InRange (aei m c) (adist m c)) (e : Fin 800000) (ht : TgtOK (aei m c) e) :
    attA m ρ c (ix2 e (0 : Fin 1)) = attEdge (ax m c) (aei m c) (adist m c) (aW1 m c) (aW2 m c) (atab m c) e := by
  rw [Arr0.att_value m ρ c e, attRows_eq m ρ c hin e ht]

theorem k_srcw (c : Dev nD) (hin : InRange (aei m c) (adist m c)) (e : Fin 800000) (ht : TgtOK (aei m c) e) (k : Fin 128) :
    srcwA m ρ c (ix2 e k) = srcwEdge (ax m c) (aei m c) (adist m c) (aW1 m c) (aW2 m c) (atab m c) e k := by
  rw [Arr0.srcw_value m ρ c e k, attRows_eq m ρ c hin e ht, HostIdx.v5_row m ρ c hin e k]
  rfl

end Cert.KernelIdeal.Edge

end
-- ==== Proof.KArr1.lean ====
/-
  The second region's output array after its 25 grid points, element by element: node row n = 2000·t + p is
  written by point t alone.
-/
import proofs.«425987_j59854664237659_2_alg».proof.Proof.Gen.KernelIdeal.Frame
import proofs.«425987_j59854664237659_2_alg».proof.Proof.KPay
import proofs.«425987_j59854664237659_2_alg».proof.Proof.Spec
import proofs.«425987_j59854664237659_2_alg».proof.Proof.KBufs
import Idealize.ShloMosaic.Lib.Pipeline.Value

set_option maxRecDepth 16384

noncomputable section

namespace Cert.KernelIdeal.Arr1

open Cert.KernelIdeal Cert.KernelIdeal.Gen Cert.EdgeAttn
open Idealize.ShloMosaic Idealize.ShloMosaic.TcCoe Idealize.ShloMosaic.ValueIdx Idealize.SL.Sem
open Cert.KernelIdeal.Bufs

variable (m : (ℓ : Loc nD τ sig) → Buf (Elt Ideal) ℓ) (ρ : Dev nD → PrngReg)

/-- The zero offsets of a whole-block access. -/
theorem hz : (![0, 0] : Fin 2 → Nat) = fun _ => 0 := funext fun a => by fin_cases a <;> rfl

/-- The node-wise quotient as one function of the two accumulator arrays, index by index. -/
def G (a0 : S50000x128.Idx → EReal) (a1 : S50000x1.Idx → EReal) : S50000x128.Idx → EReal :=
  fun i => max (Ideal.div (a0 i) (a1 (ix2 (i 0) (0 : Fin 1)) + epsF)) zeroF

/-- The three windows' block indices over the grid: each moves with the point along the rows and stays at
    column block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The second kernel's payload at any index of a block: the quotient by the row's weight plus ε, rectified. -/
theorem point_value (x0 : Vec Ideal S2000x128 .f32) (x1 : Vec Ideal S2000x1 .f32) (j : S2000x128.Idx) :
    k1_pay1 (F := Ideal) x0 x1 j = max (Ideal.div (x0 j) (x1 (ix2 (j 0) (0 : Fin 1)) + epsF)) zeroF := by
  obtain ⟨p, q, rfl⟩ : ∃ (p : Fin 2000) (q : Fin 128), j = ix2 p q := ⟨j 0, j 1, eq_ix2 j⟩
  exact Pay.pay1_apply x0 x1 p q

section AnyEntry
variable (V : (c : Dev nD) → (b : Ref sig .tc) → Buf (Elt Ideal) ((c : Thread nD τ).loc b))

/-- Point t's block of the feature accumulator, read where the output's block sits. -/
theorem iblk_agg (c : Dev nD) (t : Fin cfg1.N) (j : S2000x128.Idx) :
    (iblk1 V c 0 t : Vec Ideal S2000x128 .f32) j
      = (V c main_v19 : S50000x128.Idx → EReal) (((cfg1.win 2).blk t).view.emb j) := by
  obtain ⟨e00, e01, e10, e11, e20, e21⟩ := idx_facts t
  show (V c main_v19 : S50000x128.Idx → EReal) (((cfg1.win 0).blk t).view.emb j) = _
  refine congrArg (V c main_v19 : S50000x128.Idx → EReal) ?_
  funext a; apply Fin.ext
  match a with
  | ⟨0, _⟩ => show win1_0.index t (0 : Fin 2) * 2000 + 1 * (j 0).val = win1_2.index t (0 : Fin 2) * 2000 + 1 * (j 0).val; omega
  | ⟨1, _⟩ => show win1_0.index t (1 : Fin 2) * 128 + 1 * (j 1).val = win1_2.index t (1 : Fin 2) * 128 + 1 * (j 1).val; omega

/-- Point t's block of the weight accumulator, read at the row where the output's block sits. -/
theorem iblk_attagg (c : Dev nD) (t : Fin cfg1.N) (j : S2000x128.Idx) :
    (iblk1 V c 1 t : Vec Ideal S2000x1 .f32) (ix2 (j 0) (0 : Fin 1))
      = (V c main_v22 : S50000x1.Idx → EReal) (ix2 ((((cfg1.win 2).blk t).view.emb j) 0) (0 : Fin 1)) := by
  obtain ⟨e00, e01, e10, e11, e20, e21⟩ := idx_facts t
  show (V c main_v22 : S50000x1.Idx → EReal) (((cfg1.win 1).blk t).view.emb (ix2 (j 0) (0 : Fin 1))) = _
  refine congrArg (V c main_v22 : S50000x1.Idx → EReal) ?_
  funext a; apply Fin.ext
  match a with
  | ⟨0, _⟩ => show win1_1.index t (0 : Fin 2) * 2000 + 1 * (j 0).val = win1_2.index t (0 : Fin 2) * 2000 + 1 * (j 0).val; omega
  | ⟨1, _⟩ => show win1_1.index t (1 : Fin 2) * 1 + 1 * 0 = 0; omega

/-- What point t writes back is block t of the node-wise quotient of the two accumulators as the region finds them. -/
theorem flushed_eq (c : Dev nD) (t : Fin cfg1.N) :
    (dat1 V c).flushed 2 t
      = ((cfg1.win 2).blk t).view.read (Elt Ideal) (G (V c main_v19) (V c main_v22)) := by
  show (cfg1.win 2).cut (grid1.coords t) ((dat1 V c).after 2 t) = _
  rw [after1_2]
  unfold out1_2
  rw [View.canon_unit_zero hz]
  simp only [View.ld_unit_zero (S := S2000x128) hz, View.ld_unit_zero (S := S2000x1) hz]
  funext j
  show k1_pay1 (F := Ideal) (iblk1 V c 0 t) (iblk1 V c 1 t) j
    = G (V c main_v19) (V c main_v22) (((cfg1.win 2).blk t).view.emb j)
  rw [point_value, iblk_agg V c t j, iblk_attagg V c t j]
  rfl

/-- An index of the result is in point t's block iff each coordinate is in the block's range on its axis. -/
theorem mem_blk (t : Fin cfg1.N) (i : S50000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v23).slice (win1_2.rect t)).set ↔ _
  rw [View.set_slice_whole, Rect.mem_set_unit]
  exact Iff.rfl

/-- Node row n lies in the block of point n / 2000: the 25 blocks of 2000 rows cover the 50000 rows. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨e00, e01, e10, e11, e20, e21⟩ := idx_facts t
  refine ⟨t, flush1_2 t, ?_⟩
  rw [mem_blk]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 128 ≤ (i 1).val ∧ (i 1).val < win1_2.index t (1 : Fin 2) * 128 + 128
    omega

/-- The result array after the 25 points is the node-wise quotient of the two accumulators as the region finds them. -/
theorem final (c : Dev nD) : (dat1 V c).arrAt 2 cfg1.N = G (V c main_v19) (V c main_v22) :=
  (dat1 V c).arrAt_eq_of_cover 2 (G (V c main_v19) (V c main_v22)) (fun t _ => flushed_eq V c t) cover

end AnyEntry

/-- The result array: the normalised, rectified quotient of the two node accumulators as region 1 finds them. -/
theorem out_value (c : Dev nD) (n : Fin 50000) (h : Fin 128) :
    outA m ρ c (ix2 n h) = normOut (aggA m ρ c) (attaggA m ρ c) n h := by
  have e : outA m ρ c = (dat1 (V9 (F := Ideal) m ρ) c).arrAt 2 cfg1.N := W10_arr (F := Ideal) m ρ c 2
  rw [e, final]
  rfl

end Cert.KernelIdeal.Arr1

end
-- ==== Proof.Bridge.lean ====
/-
  The two programs' results are equal. Both are the node-wise normalisation of two accumulators; each accumulator is
  the accumulating row scatter, along the same target indices, of per-edge rows; an edge whose target index is no
  row of the node table is dropped by the scatter in both programs, and for every other edge the two programs'
  rows are the specification's (the source indices and the buckets are in range by the precondition).
-/
import proofs.«425987_j59854664237659_2_alg».proof.Proof.KEdge
import proofs.«425987_j59854664237659_2_alg».proof.Proof.KArr1
import proofs.«425987_j59854664237659_2_alg».proof.Proof.RVals

noncomputable section

namespace Cert.Proof.Bridge

open Cert.EdgeAttn
open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

theorem result_eq (c : Dev Cert.KernelIdeal.nD)
    (hin : InRange (Cert.KernelIdeal.Args.aei m c) (Cert.KernelIdeal.Args.adist m c))
    (h0 : Cert.ReferenceIdeal.Args.ax m' c = Cert.KernelIdeal.Args.ax m c)
    (h1 : Cert.ReferenceIdeal.Args.aei m' c = Cert.KernelIdeal.Args.aei m c)
    (h2 : Cert.ReferenceIdeal.Args.adist m' c = Cert.KernelIdeal.Args.adist m c)
    (h3 : Cert.ReferenceIdeal.Args.aW1 m' c = Cert.KernelIdeal.Args.aW1 m c)
    (h4 : Cert.ReferenceIdeal.Args.aW2 m' c = Cert.KernelIdeal.Args.aW2 m c)
    (h5 : Cert.ReferenceIdeal.Args.atab m' c = Cert.KernelIdeal.Args.atab m c) :
    Cert.ReferenceIdeal.RefVal.rOut m' c = Cert.KernelIdeal.Bufs.outA m ρ c := by
  have hin' : InRange (Cert.ReferenceIdeal.Args.aei m' c) (Cert.ReferenceIdeal.Args.adist m' c) := by rw [h1, h2]; exact hin
  -- the rows of the edges the scatter keeps agree
  have hsrcw : ∀ e : Fin 800000, (0 ≤ (tgtVec (Cert.KernelIdeal.Args.aei m c) (ix2 e (0 : Fin 1))).toInt
        ∧ (tgtVec (Cert.KernelIdeal.Args.aei m c) (ix2 e (0 : Fin 1))).toInt < ((50000 : ℕ) : ℤ)) →
      ∀ k : Fin 128, Cert.ReferenceIdeal.RefVal.rSrcw m' c (ix2 e k) = Cert.KernelIdeal.Bufs.srcwA m ρ c (ix2 e k) := by
    intro e he k
    rw [tgtVec_apply] at he
    have ht : TgtOK (Cert.KernelIdeal.Args.aei m c) e := ⟨he.1, by exact_mod_cast he.2⟩
    have ht' : TgtOK (Cert.ReferenceIdeal.Args.aei m' c) e := by rw [h1]; exact ht
    rw [Cert.ReferenceIdeal.RefVal.r_srcw m' c hin' e ht' k, Cert.KernelIdeal.Edge.k_srcw m ρ c hin e ht k, h0, h1, h2, h3, h4, h5]
  have hatt : ∀ e : Fin 800000, (0 ≤ (tgtVec (Cert.KernelIdeal.Args.aei m c) (ix2 e (0 : Fin 1))).toInt
        ∧ (tgtVec (Cert.KernelIdeal.Args.aei m c) (ix2 e (0 : Fin 1))).toInt < ((50000 : ℕ) : ℤ)) →
      ∀ k : Fin 1, Cert.ReferenceIdeal.RefVal.rAtt m' c (ix2 e k) = Cert.KernelIdeal.Bufs.attA m ρ c (ix2 e k) := by
    intro e he k
    rw [tgtVec_apply] at he
    have ht : TgtOK (Cert.KernelIdeal.Args.aei m c) e := ⟨he.1, by exact_mod_cast he.2⟩
    have ht' : TgtOK (Cert.ReferenceIdeal.Args.aei m' c) e := by rw [h1]; exact ht
    obtain rfl : k = 0 := Subsingleton.elim _ _
    rw [Cert.ReferenceIdeal.RefVal.r_att m' c hin' e ht', Cert.KernelIdeal.Edge.k_att m ρ c hin e ht, h0, h1, h2, h3, h4, h5]
  -- so the accumulators agree
  have hagg : Cert.ReferenceIdeal.RefVal.rAgg m' c = Cert.KernelIdeal.Bufs.aggA m ρ c := by
    rw [Cert.ReferenceIdeal.RefVal.r_agg m' c, Cert.KernelIdeal.HostW.agg_eq m ρ c, h1]
    exact scatterAdd_congr_rows 50000 128 800000 _ _ _ _ _ hsrcw
  have hattagg : Cert.ReferenceIdeal.RefVal.rAttagg m' c = Cert.KernelIdeal.Bufs.attaggA m ρ c := by
    rw [Cert.ReferenceIdeal.RefVal.r_attagg m' c, Cert.KernelIdeal.HostW.attagg_eq m ρ c, h1]
    exact scatterAdd_congr_rows 50000 1 800000 _ _ _ _ _ hatt
  -- and the results, node by node
  funext i
  obtain ⟨n, h, rfl⟩ : ∃ (n : Fin 50000) (h : Fin 128), i = ix2 n h := ⟨i 0, i 1, eq_ix2 i⟩
  rw [Cert.ReferenceIdeal.RefVal.r_out m' c n h, Cert.KernelIdeal.Arr1.out_value m ρ c n h, hagg, hattagg]

end Cert.Proof.Bridge

end
-- ==== Proof.lean ====
/-
  The certificate of an edge-attention message-passing layer against its jnp reference, over the extended reals.

  For each edge e with source node s(e), target node t(e) and distance d(e), both programs compute
    h = x[s]·W1[:128] + x[t]·W1[128:],   h' = leaky relu of h (slope 0.2),
    a = h'·W2[:128] + tab[⌊d/50⌋]·W2[128:],   att = exp (logistic a),   srcw = x[s]·att,
  accumulate srcw and att over the edges with equal target into the node rows, and return
    max (agg / (attagg + ε), 0).
  The kernel program computes the per-edge part in a first region over 200 blocks of 4000 edges — its matrix product
  split in the two halves of the contracted axis, the distance embedding's share a 20-entry score table gathered per
  edge — and the normalisation in a second region over 25 blocks of 2000 nodes; the reference contracts the
  concatenated rows in one product. At the extended reals the two agree: a sum over 256 indices is the sum of its two
  halves, the gathered score of a bucket is the bucket's embedding row contracted, the logistic function is
  1 / (1 + exp (-a)) on both sides. The one place they differ is an index outside its table, where the kernel's gathers
  fill with NaN and the reference's clamp: the precondition asks every source index to be a row of the node table
  and every distance to lie in [0, 1000) (so that its bucket is a row of the embedding table); an edge whose target
  index is no row is dropped by the accumulating scatter of both programs, whatever its row holds.

  The three frames: the kernel's two from the generated frame certificates, the reference's from its run read back.
  The ideal pass rewrote nothing, so the idealized kernel is the kernel's own text read over the extended reals.
-/
import proofs.«425987_j59854664237659_2_alg».proof.Defs
import proofs.«425987_j59854664237659_2_alg».proof.Proof.Gen.Kernel
import proofs.«425987_j59854664237659_2_alg».proof.Proof.Gen.Kernel.Skeleton
import proofs.«425987_j59854664237659_2_alg».proof.Proof.Gen.Kernel.Launch
import proofs.«425987_j59854664237659_2_alg».proof.Proof.Gen.Kernel.Points
import proofs.«425987_j59854664237659_2_alg».proof.Proof.Gen.Kernel.Frame
import proofs.«425987_j59854664237659_2_alg».proof.Proof.Gen.KernelIdeal
import proofs.«425987_j59854664237659_2_alg».proof.Proof.Gen.KernelIdeal.Skeleton
import proofs.«425987_j59854664237659_2_alg».proof.Proof.Gen.KernelIdeal.Launch
import proofs.«425987_j59854664237659_2_alg».proof.Proof.Gen.KernelIdeal.Points
import proofs.«425987_j59854664237659_2_alg».proof.Proof.Gen.KernelIdeal.Frame
import proofs.«425987_j59854664237659_2_alg».proof.Proof.Gen.ReferenceIdeal
import proofs.«425987_j59854664237659_2_alg».proof.Proof.Gen.Pre_finite_inputs
import proofs.«425987_j59854664237659_2_alg».proof.Proof.KValue
import proofs.«425987_j59854664237659_2_alg».proof.Proof.Decode
import proofs.«425987_j59854664237659_2_alg».proof.Proof.RRun
import proofs.«425987_j59854664237659_2_alg».proof.Proof.RVals
import proofs.«425987_j59854664237659_2_alg».proof.Proof.Bridge
import Idealize.ShloMosaic.Adequacy
import Idealize.ShloMosaic.Init

noncomputable section

namespace Cert.Proof

open Idealize.ShloMosaic Idealize.SL.Sem

/-- The kernel program runs and keeps its arguments: the generated frame certificate. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run read back, the result dropped. -/
theorem frame_referenceIdeal : Cert.frame_ReferenceIdeal := fun m ρ _ =>
  (θ_run Cert.ReferenceIdeal.defs _ _).mono
    (fun _ h c =>
      ⟨(h c Cert.ReferenceIdeal.main_arg0).trans (Cert.ReferenceIdeal.RefVal.r_arg0 m c),
       (h c Cert.ReferenceIdeal.main_arg1).trans (Cert.ReferenceIdeal.RefVal.r_arg1 m c),
       (h c Cert.ReferenceIdeal.main_arg2).trans (Cert.ReferenceIdeal.RefVal.r_arg2 m c),
       (h c Cert.ReferenceIdeal.main_arg3).trans (Cert.ReferenceIdeal.RefVal.r_arg3 m c),
       (h c Cert.ReferenceIdeal.main_arg4).trans (Cert.ReferenceIdeal.RefVal.r_arg4 m c),
       (h c Cert.ReferenceIdeal.main_arg5).trans (Cert.ReferenceIdeal.RefVal.r_arg5 m c)⟩)
    (Cert.ReferenceIdeal.RefRun.run_raw (F := Ideal) m ρ)

/-- From memories agreeing on the arguments, of which the precondition holds, both programs end with the same
    result array: the kernel's result after its second region, which the reference's run also ends at. -/
theorem algebraic : Cert.algebraic_KernelIdeal_ReferenceIdeal := by
  intro m ρ m' ρ' hpre hagree
  refine ⟨fun c => Cert.KernelIdeal.Bufs.outA m ρ c, Cert.KernelIdeal.ValueRun.run_value (F := Ideal) m ρ, ?_⟩
  refine (θ_run Cert.ReferenceIdeal.defs _ _).mono
    (fun _ h c =>
      ⟨(h c Cert.ReferenceIdeal.main_v54).trans ?_,
       (h c Cert.ReferenceIdeal.main_arg0).trans (Cert.ReferenceIdeal.RefVal.r_arg0 m' c),
       (h c Cert.ReferenceIdeal.main_arg1).trans (Cert.ReferenceIdeal.RefVal.r_arg1 m' c),
       (h c Cert.ReferenceIdeal.main_arg2).trans (Cert.ReferenceIdeal.RefVal.r_arg2 m' c),
       (h c Cert.ReferenceIdeal.main_arg3).trans (Cert.ReferenceIdeal.RefVal.r_arg3 m' c),
       (h c Cert.ReferenceIdeal.main_arg4).trans (Cert.ReferenceIdeal.RefVal.r_arg4 m' c),
       (h c Cert.ReferenceIdeal.main_arg5).trans (Cert.ReferenceIdeal.RefVal.r_arg5 m' c)⟩)
    (Cert.ReferenceIdeal.RefRun.run_raw (F := Ideal) m' ρ')
  exact Cert.Proof.Bridge.result_eq m ρ m' c
    (Cert.EdgeAttn.inRange_of_pre _ _ _ _ _ _ (hpre c))
    (hagree c).1 (hagree c).2.1 (hagree c).2.2.1 (hagree c).2.2.2.1 (hagree c).2.2.2.2.1 (hagree c).2.2.2.2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
